-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_scale" .f32 0x3DB504F3#32 ((1048576 / 11863283 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S6144x2048 : Shape := ⟨2, ![6144, 2048]⟩
abbrev S2048x2048 : Shape := ⟨2, ![2048, 2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2x2048x2048 .f32) (main_arg1 : FVec F S6144x2048 .f32) (main_arg2 : FVec F S2048x2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S6144x2048 .f32 := Host.absf main_arg1
  let main_cst_0 : FVec F S_ .f32 := constant S_ .f32 0x7F800000#32
  let main_v5 : FVec F S6144x2048 .f32 := broadcastInDim S6144x2048 ![] bcast_S_S6144x2048 main_cst_0
  let main_v6 : IVec S6144x2048 1 := cmpf .olt main_v4 main_v5
  let main_c_1 : IVec S_ 1 := constantI S_ 1 1#1
  let main_v7 : IVec S_ 1 := (fun x v => Host.reduce IntOp.andi x v reducesTo_S6144x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S2x2048x2048 : Shape := ⟨3, ![2, 2048, 2048]⟩
abbrev S6144x2048 : Shape := ⟨2, ![6144, 2048]⟩
abbrev S2048x2048 : Shape := ⟨2, ![2048, 2048]⟩
abbrev S36 : Shape := ⟨1, ![36]⟩
abbrev S4096x2048 : Shape := ⟨2, ![4096, 2048]⟩
abbrev S4096x6144 : Shape := ⟨2, ![4096, 6144]⟩
abbrev S512x2048 : Shape := ⟨2, ![512, 2048]⟩
abbrev S2x2048x3x16x128 : Shape := ⟨5, ![2, 2048, 3, 16, 128]⟩
abbrev S2x2048x16x128 : Shape := ⟨4, ![2, 2048, 16, 128]⟩
abbrev S1x256x1x16x128 : Shape := ⟨5, ![1, 256, 1, 16, 128]⟩
abbrev S1 : Shape := ⟨1, ![1]⟩
abbrev S1x256x16x128 : Shape := ⟨4, ![1, 256, 16, 128]⟩
abbrev S16x256x1 : Shape := ⟨3, ![16, 256, 1]⟩
abbrev S16x256x128 : Shape := ⟨3, ![16, 256, 128]⟩
abbrev S256x16x128 : Shape := ⟨3, ![256, 16, 128]⟩
abbrev S16x256x256 : Shape := ⟨3, ![16, 256, 256]⟩
abbrev S16x256 : Shape := ⟨2, ![16, 256]⟩
abbrev S1024x2048 : Shape := ⟨2, ![1024, 2048]⟩
abbrev S512x1024 : Shape := ⟨2, ![512, 1024]⟩

abbrev nBuf : Space → Nat
  | .hbm => 13
  | .vmem => 23
  | .smem => 2
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S2048x2048, .f32⟩
  | .hbm, ⟨3, _⟩ => ⟨S2x2048x2048, .bf16⟩
  | .hbm, ⟨4, _⟩ => ⟨S6144x2048, .bf16⟩
  | .hbm, ⟨5, _⟩ => ⟨S2048x2048, .bf16⟩
  | .hbm, ⟨6, _⟩ => ⟨S4096x2048, .bf16⟩
  | .hbm, ⟨7, _⟩ => ⟨S4096x6144, .bf16⟩
  | .hbm, ⟨8, _⟩ => ⟨S2x2048x3x16x128, .bf16⟩
  | .hbm, ⟨9, _⟩ => ⟨S2x2048x16x128, .bf16⟩
  | .hbm, ⟨10, _⟩ => ⟨S4096x2048, .bf16⟩
  | .hbm, ⟨11, _⟩ => ⟨S4096x2048, .f32⟩
  | .hbm, ⟨12, _⟩ => ⟨S2x2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S1x256x1x16x128, .bf16⟩
  | .local _ .vmem, ⟨7, _⟩ => ⟨S1x256x1x16x128, .bf16⟩
  | .local _ .vmem, ⟨8, _⟩ => ⟨S1x256x1x16x128, .bf16⟩
  | .local _ .vmem, ⟨9, _⟩ => ⟨S1x256x1x16x128, .bf16⟩
  | .local _ .vmem, ⟨10, _⟩ => ⟨S1x256x1x16x128, .bf16⟩
  | .local _ .vmem, ⟨11, _⟩ => ⟨S1x256x1x16x128, .bf16⟩
  | .local _ .vmem, ⟨12, _⟩ => ⟨S1x256x16x128, .bf16⟩
  | .local _ .vmem, ⟨13, _⟩ => ⟨S1x256x16x128, .bf16⟩
  | .local _ .vmem, ⟨14, _⟩ => ⟨S16x256x1, .f32⟩
  | .local _ .vmem, ⟨15, _⟩ => ⟨S16x256x1, .f32⟩
  | .local _ .vmem, ⟨16, _⟩ => ⟨S16x256x128, .f32⟩
  | .local _ .vmem, ⟨17, _⟩ => ⟨S512x2048, .bf16⟩
  | .local _ .vmem, ⟨18, _⟩ => ⟨S512x2048, .bf16⟩
  | .local _ .vmem, ⟨19, _⟩ => ⟨S1024x2048, .bf16⟩
  | .local _ .vmem, ⟨20, _⟩ => ⟨S1024x2048, .bf16⟩
  | .local _ .vmem, ⟨21, _⟩ => ⟨S512x1024, .f32⟩
  | .local _ .vmem, ⟨22, _⟩ => ⟨S512x1024, .f32⟩
  | .local _ .smem, ⟨0, _⟩ => ⟨S36, .i32⟩
  | .local _ .smem, ⟨1, _⟩ => ⟨S36, .i32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 36], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond2 (v1 : BitVec 32) (v3 : BitVec 32) : BitVec 1 :=
  let v63 : BitVec 1 := Scalar.cmpi .eq v3 v1
  let v64 : BitVec 32 := Scalar.extui v63
  let c0_i32_42 : BitVec 32 := 0#32
  let v65 : BitVec 1 := Scalar.cmpi .ne v64 c0_i32_42
  v65

def cc1_transform_0 (k1_off1_inb : ∀ i : grid1.Coords, ∀ a, (k1_off1 i) a + S1.size a ≤ S36.size a) (numel1_S1 : S1.numel = 1) (pf : pre1.Contents (Elt F)) (i : grid1.Coords) : Fin 5 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  let c0_i32_1 : BitVec 32 := 0#32
  let c0_i32_2 : BitVec 32 := 0#32
  ![arg0.toNat, v1.toNat, c0_i32.toNat, c0_i32_0.toNat, c0_i32_1.toNat]

def cc1_transform_1 (k1_off1_inb : ∀ i : grid1.Coords, ∀ a, (k1_off1 i) a + S1.size a ≤ S36.size a) (numel1_S1 : S1.numel = 1) (pf : pre1.Contents (Elt F)) (i : grid1.Coords) : Fin 5 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c1_i32 : BitVec 32 := 1#32
  let c0_i32 : BitVec 32 := 0#32
  let c0_i32_0 : BitVec 32 := 0#32
  let c0_i32_1 : BitVec 32 := 0#32
  ![arg0.toNat, v1.toNat, c1_i32.toNat, c0_i32.toNat, c0_i32_0.toNat]

def cc1_transform_2 (k1_off1_inb : ∀ i : grid1.Coords, ∀ a, (k1_off1 i) a + S1.size a ≤ S36.size a) (numel1_S1 : S1.numel = 1) (pf : pre1.Contents (Elt F)) (i : grid1.Coords) : Fin 5 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c2_i32 : BitVec 32 := 2#32
  let c0_i32 : BitVec 32 := 0#32
  let c0_i32_0 : BitVec 32 := 0#32
  let c0_i32_1 : BitVec 32 := 0#32
  ![arg0.toNat, v1.toNat, c2_i32.toNat, c0_i32.toNat, c0_i32_0.toNat]

def cc1_transform_3 (k1_off1_inb : ∀ i : grid1.Coords, ∀ a, (k1_off1 i) a + S1.size a ≤ S36.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

abbrev stage1_0 : Fin 2 → Memref sig .tc .vmem S1x256x1x16x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1x16x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1x16x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x16x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S2x2048x2048_S4096x2048 : S2x2048x2048.ShapeCasts S4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  shapeCasts_S4096x6144_S2x2048x3x16x128 : S4096x6144.ShapeCasts S2x2048x3x16x128
  numel1_S1 : S1.numel = 1
  inb_S16x256x1_S16x256x1_0_0_0 : ∀ a, (![0, 0, 0] : Fin 3 → Nat) a + S16x256x1.size a ≤ S16x256x1.size a
  h_S16x256x1 : 0 < S16x256x1.numel
  shapeCasts_S16x256x1_S16x256x1 : S16x256x1.ShapeCasts S16x256x1
  inb_S16x256x128_S16x256x128_0_0_0 : ∀ a, (![0, 0, 0] : Fin 3 → Nat) a + S16x256x128.size a ≤ S16x256x128.size a
  h_S16x256x128 : 0 < S16x256x128.numel
  shapeCasts_S16x256x128_S16x256x128 : S16x256x128.ShapeCasts S16x256x128
  inb_S1x256x1x16x128_S1x256x1x16x128_0_0_0_0_0 : ∀ a, (![0, 0, 0, 0, 0] : Fin 5 → Nat) a + S1x256x1x16x128.size a ≤ S1x256x1x16x128.size a
  h_S1x256x1x16x128 : 0 < S1x256x1x16x128.numel
  shapeCasts_S1x256x1x16x128_S1x256x1x16x128 : S1x256x1x16x128.ShapeCasts S1x256x1x16x128
  shapeCasts_S1x256x1x16x128_S256x16x128 : S1x256x1x16x128.ShapeCasts S256x16x128
  transposes_S256x16x128_p1_0_2_S16x256x128 : S256x16x128.Transposes [1, 0, 2] S16x256x128
  iota_S16x256x256_d1_w32 : S16x256x256.Iotas .tc 32 [1]
  iota_S16x256x256_d2_w32 : S16x256x256.Iotas .tc 32 [2]
  reduces_S16x256x256_S16x256 : S16x256x256.Reduces [2] S16x256
  shapeCasts_S16x256_S16x256x1 : S16x256.ShapeCasts S16x256x1
  broadcasts_S16x256x1_S16x256x256 : S16x256x1.Broadcasts S16x256x256
  broadcasts_S16x256x1_S16x256x128 : S16x256x1.Broadcasts S16x256x128
  transposes_S16x256x128_p1_0_2_S256x16x128 : S16x256x128.Transposes [1, 0, 2] S256x16x128
  shapeCasts_S256x16x128_S1x256x16x128 : S256x16x128.ShapeCasts S1x256x16x128
  inb_S1x256x16x128_S1x256x16x128_0_0_0_0 : ∀ a, (![0, 0, 0, 0] : Fin 4 → Nat) a + S1x256x16x128.size a ≤ S1x256x16x128.size a
  h_S1x256x16x128 : 0 < S1x256x16x128.numel
  packedbf16_S1x256x16x128_S1x256x16x128_0_0_0_0 : (Rect.unit (s := S1x256x16x128) ![0, 0, 0, 0] S1x256x16x128.size inb_S1x256x16x128_S1x256x16x128_0_0_0_0).PackedRows (EltTy.packing .bf16)
  shapeCasts_S2x2048x16x128_S4096x2048 : S2x2048x16x128.ShapeCasts S4096x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1024_S512x1024_0_0 : ∀ a, (![0, 0] : Fin 2 → Nat) a + S512x1024.size a ≤ S512x1024.size a
  h_S512x1024 : 0 < S512x1024.numel
  shapeCasts_S4096x2048_S2x2048x2048 : S4096x2048.ShapeCasts S2x2048x2048
  dot_S512x2048_S2048x2048_S512x2048_1_1_0_0_n_n_wf : DotDims.WF S512x2048 S2048x2048 S512x2048 [1] [1] [0] [0] [] []
  dot_S16x256x128_S16x256x128_S16x256x256_2_2_1_1_0_0_wf : DotDims.WF S16x256x128 S16x256x128 S16x256x256 [2] [2] [1] [1] [0] [0]
  dot_S16x256x256_S16x256x128_S16x256x128_2_1_1_2_0_0_wf : DotDims.WF S16x256x256 S16x256x128 S16x256x128 [2] [1] [1] [2] [0] [0]
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S6144x2048.size a
  hwx0_1 : ∀ i : grid0.Coords, EltTy.bits .bf16 = 32 ∨ (Rect.block (s := S6144x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x6144.size a
  hwx0_2 : ∀ i : grid0.Coords, EltTy.bits .bf16 = 32 ∨ (Rect.block (s := S4096x6144) S512x2048.size (cc0_transform_2 i) (hinb0_2 i)).WholeWords (EltTy.packing .bf16)
  hrank1 : 0 < grid1.rank
  k1_off1_inb : ∀ i : grid1.Coords, ∀ a, (k1_off1 i) a + S1.size a ≤ S36.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S2048x2048.size a
  hwx2_1 : ∀ i : grid2.Coords, EltTy.bits .bf16 = 32 ∨ (Rect.block (s := S2048x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x2048.size a
  hwx2_2 : ∀ i : grid2.Coords, EltTy.bits .f32 = 32 ∨ (Rect.block (s := S4096x2048) S512x1024.size (cc2_transform_2 i) (hinb2_2 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S16x256x128_S16x256x128_S16x256x256_2_2_1_1_0_0 : DotDims S16x256x128 S16x256x128 S16x256x256 where
  lhsContracting := [2]
  rhsContracting := [2]
  lhsNonContracting := [1]
  rhsNonContracting := [1]
  lhsBatch := [0]
  rhsBatch := [0]
  wf := dot_S16x256x128_S16x256x128_S16x256x256_2_2_1_1_0_0_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v3) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v5) S1x256x1x16x128.size reads1_0 false false 2 stage1_0 sem1_0 nbuf1_0 hstage1_0

abbrev spec1_1 : Pipeline.WinSpec sig grid1.rank :=
  Pipeline.WinSpec.ofSpec (Memref.whole main_v5) S1x256x1x16x128.size reads1_1 false false 2 stage1_1 sem1_1 nbuf1_1 hstage1_1

abbrev spec1_2 : Pipeline.WinSpec sig grid1.rank :=
  Pipeline.WinSpec.ofSpec (Memref.whole main_v5) S1x256x1x16x128.size reads1_2 false false 2 stage1_2 sem1_2 nbuf1_2 hstage1_2

abbrev spec1_3 : Pipeline.WinSpec sig grid1.rank :=
  Pipeline.WinSpec.ofSpec (Memref.whole main_v6) S1x256x16x128.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x256x1x16x128.size a ≤ S2x2048x3x16x128.size a), EltTy.bits .bf16 = 32 ∨ (Rect.block (s := S2x2048x3x16x128) S1x256x1x16x128.size (cc1_transform_0 k1_off1_inb numel1_S1 pf i) h).WholeWords (EltTy.packing .bf16)) ∧
  (∀ i : grid1.Coords, ∃ h : (∀ a, (cc1_transform_1 k1_off1_inb numel1_S1 pf i a + 1) * S1x256x1x16x128.size a ≤ S2x2048x3x16x128.size a), EltTy.bits .bf16 = 32 ∨ (Rect.block (s := S2x2048x3x16x128) S1x256x1x16x128.size (cc1_transform_1 k1_off1_inb numel1_S1 pf i) h).WholeWords (EltTy.packing .bf16)) ∧
  (∀ i : grid1.Coords, ∃ h : (∀ a, (cc1_transform_2 k1_off1_inb numel1_S1 pf i a + 1) * S1x256x1x16x128.size a ≤ S2x2048x3x16x128.size a), EltTy.bits .bf16 = 32 ∨ (Rect.block (s := S2x2048x3x16x128) S1x256x1x16x128.size (cc1_transform_2 k1_off1_inb numel1_S1 pf i) h).WholeWords (EltTy.packing .bf16)) ∧
  (∀ i : grid1.Coords, ∃ h : (∀ a, (cc1_transform_3 k1_off1_inb numel1_S1 pf i a + 1) * S1x256x16x128.size a ≤ S2x2048x16x128.size a), EltTy.bits .bf16 = 32 ∨ (Rect.block (s := S2x2048x16x128) S1x256x16x128.size (cc1_transform_3 k1_off1_inb numel1_S1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

abbrev win2_0 : Pipeline.Window sig grid2 :=
  Pipeline.Window.ofSpec (Memref.whole main_v7) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr1 : ∀ w, (spec1 w).arr.IsWhole

variable [Facts]
-- ==== ReferenceIdeal.lean ====
abbrev S2x2048x2048 : Shape := ⟨3, ![2, 2048, 2048]⟩
abbrev S6144x2048 : Shape := ⟨2, ![6144, 2048]⟩
abbrev S2048x2048 : Shape := ⟨2, ![2048, 2048]⟩
abbrev S2x2048x6144 : Shape := ⟨3, ![2, 2048, 6144]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S6144x2048, .f32⟩
  | .hbm, ⟨2, _⟩ => ⟨S2048x2048, .f32⟩
  | .hbm, ⟨3, _⟩ => ⟨S2x2048x6144, .f32⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x16x128, .f32⟩
  | .hbm, ⟨8, _⟩ => ⟨S2x16x2048x128, .f32⟩
  | .hbm, ⟨9, _⟩ => ⟨S2x2048x16x128, .f32⟩
  | .hbm, ⟨10, _⟩ => ⟨S2x16x2048x128, .f32⟩
  | .hbm, ⟨11, _⟩ => ⟨S2x2048x16x128, .f32⟩
  | .hbm, ⟨12, _⟩ => ⟨S2x16x2048x128, .f32⟩
  | .hbm, ⟨13, _⟩ => ⟨S2x16x2048x2048, .f32⟩
  | .hbm, ⟨14, _⟩ => ⟨S_, .f32⟩
  | .hbm, ⟨15, _⟩ => ⟨S2x16x2048x2048, .f32⟩
  | .hbm, ⟨16, _⟩ => ⟨S2x16x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S2x16x2048x2048, .i1⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S_, .f32⟩
  | .hbm, ⟨36, _⟩ => ⟨S2x16x2048, .f32⟩
  | .hbm, ⟨37, _⟩ => ⟨S2x16x2048, .f32⟩
  | .hbm, ⟨38, _⟩ => ⟨S2x16x2048x1, .f32⟩
  | .hbm, ⟨39, _⟩ => ⟨S2x16x2048x2048, .f32⟩
  | .hbm, ⟨40, _⟩ => ⟨S2x16x2048x2048, .f32⟩
  | .hbm, ⟨41, _⟩ => ⟨S2x16x2048x2048, .f32⟩
  | .hbm, ⟨42, _⟩ => ⟨S_, .f32⟩
  | .hbm, ⟨43, _⟩ => ⟨S2x16x2048, .f32⟩
  | .hbm, ⟨44, _⟩ => ⟨S2x16x2048x1, .f32⟩
  | .hbm, ⟨45, _⟩ => ⟨S2x16x2048x2048, .f32⟩
  | .hbm, ⟨46, _⟩ => ⟨S2x16x2048x2048, .f32⟩
  | .hbm, ⟨47, _⟩ => ⟨S2x16x2048x128, .f32⟩
  | .hbm, ⟨48, _⟩ => ⟨S2x2048x16x128, .f32⟩
  | .hbm, ⟨49, _⟩ => ⟨S2x2048x2048, .f32⟩
  | .hbm, ⟨50, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_cst_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩
abbrev main_cst_1 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]

class Facts₀ : Prop where
  slices_S2x2048x6144_S2x2048x2048_0_0_0 : S2x2048x6144.Slices ![0, 0, 0] S2x2048x2048
  slices_S2x2048x6144_S2x2048x2048_0_0_2048 : S2x2048x6144.Slices ![0, 0, 2048] S2x2048x2048
  slices_S2x2048x6144_S2x2048x2048_0_0_4096 : S2x2048x6144.Slices ![0, 0, 4096] S2x2048x2048
  shapeCasts_S2x2048x2048_S2x2048x16x128 : S2x2048x2048.ShapeCasts S2x2048x16x128
  transposes_S2x2048x16x128_S2x16x2048x128_0_2_1_3 : S2x2048x16x128.Transposes [0, 2, 1, 3] S2x16x2048x128
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x128_S2x2048x16x128_0_2_1_3 : S2x16x2048x128.Transposes [0, 2, 1, 3] S2x2048x16x128
  shapeCasts_S2x2048x16x128_S2x2048x2048 : S2x2048x16x128.ShapeCasts S2x2048x2048
  dot_S2x2048x2048_S6144x2048_S2x2048x6144_2_1_01_0_n_n_wf : DotDims.WF S2x2048x2048 S6144x2048 S2x2048x6144 [2] [1] [0, 1] [0] [] []
  dot_S2x16x2048x128_S2x16x2048x128_S2x16x2048x2048_3_3_2_2_01_01_wf : DotDims.WF S2x16x2048x128 S2x16x2048x128 S2x16x2048x2048 [3] [3] [2] [2] [0, 1] [0, 1]
  dot_S2x16x2048x2048_S2x16x2048x128_S2x16x2048x128_3_2_2_3_01_01_wf : DotDims.WF S2x16x2048x2048 S2x16x2048x128 S2x16x2048x128 [3] [2] [2] [3] [0, 1] [0, 1]
  dot_S2x2048x2048_S2048x2048_S2x2048x2048_2_1_01_0_n_n_wf : DotDims.WF S2x2048x2048 S2048x2048 S2x2048x2048 [2] [1] [0, 1] [0] [] []

variable [Facts₀]

def dot_S2x2048x2048_S6144x2048_S2x2048x6144_2_1_01_0_n_n : DotDims S2x2048x2048 S6144x2048 S2x2048x6144 where
  lhsContracting := [2]
  rhsContracting := [1]
  lhsNonContracting := [0, 1]
  rhsNonContracting := [0]
  lhsBatch := []
  rhsBatch := []
  wf := dot_S2x2048x2048_S6144x2048_S2x2048x6144_2_1_01_0_n_n_wf
def dot_S2x16x2048x128_S2x16x2048x128_S2x16x2048x2048_3_3_2_2_01_01 : DotDims S2x16x2048x128 S2x16x2048x128 S2x16x2048x2048 where
  lhsContracting := [3]
  rhsContracting := [3]
  lhsNonContracting := [2]
  rhsNonContracting := [2]
  lhsBatch := [0, 1]
  rhsBatch := [0, 1]
  wf := dot_S2x16x2048x128_S2x16x2048x128_S2x16x2048x2048_3_3_2_2_01_01_wf
def dot_S2x16x2048x2048_S2x16x2048x128_S2x16x2048x128_3_2_2_3_01_01 : DotDims S2x16x2048x2048 S2x16x2048x128 S2x16x2048x128 where
  lhsContracting := [3]
  rhsContracting := [2]
  lhsNonContracting := [2]
  rhsNonContracting := [3]
  lhsBatch := [0, 1]
  rhsBatch := [0, 1]
  wf := dot_S2x16x2048x2048_S2x16x2048x128_S2x16x2048x128_3_2_2_3_01_01_wf
def dot_S2x2048x2048_S2048x2048_S2x2048x2048_2_1_01_0_n_n : DotDims S2x2048x2048 S2048x2048 S2x2048x2048 where
  lhsContracting := [2]
  rhsContracting := [1]
  lhsNonContracting := [0, 1]
  rhsNonContracting := [0]
  lhsBatch := []
  rhsBatch := []
  wf := dot_S2x2048x2048_S2048x2048_S2x2048x2048_2_1_01_0_n_n_wf

class Facts : Prop extends Facts₀ where

variable [Facts]
-- ==== Proof.K.Reg0.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 0: a plain matrix product, block by block

The body of pipeline 0 reads its two input blocks whole, multiplies them, and writes the product over
its output block whole. This module states, at any contents `V` of the core's buffers when the
pipeline is entered: the blocks the windows show at a grid point, what the body leaves in the output
block as a function of the two input blocks, the body's triple, the pipeline's proof data, and the
obligation that the body meets the proof data at every grid point. -/

-- membership of an index in a whole-block rectangle is looked at once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at grid point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging block holds the window's block at every grid point, for any proof data over the
    entry arrays whose body leaves that block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging block holds the window's block at every grid point — also at the points where the
    block index has not moved and nothing is fetched —, for any proof data over the entry arrays whose body leaves
    that block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0
abbrev r0_2 : Rect S512x2048 := Rect.unit (s := S512x2048) ![0, 0] S512x2048.size inb_S512x2048_S512x2048_0_0

/-! ## What the body leaves in the output block -/

/-- The output block after the body, from the two input blocks: its one whole-block store of the product of the
    two whole-block loads. -/
def out0_2 (x0 : Vec F S512x2048 .bf16) (x1 : Vec F S2048x2048 .bf16) : Vec F S512x2048 .bf16 :=
  View.canon [⟨r0_2, k0_pay1 (View.ld x0 r0_0) (View.ld x1 r0_1)⟩]

/-- The one store is over the whole block, so every index of the block is written. -/
theorem cover0_2 (p0 : Vec F S512x2048 .bf16) (y : S512x2048.Idx) :
    ∃ pc ∈ ([⟨r0_2, p0⟩] : List (View.Piece (Elt F) S512x2048 .bf16)), y ∈ pc.1.set :=
  View.cover_of_tiled [⟨r0_2, p0⟩] S512x2048.size (by rfl) y

/-! ## The body's triple -/

set_option maxHeartbeats 1000000 in
/-- The body on whole blocks, the inputs' holding `x0` and `x1` and the output's holding anything, runs to a state
    where the inputs' blocks are as they were and the output's block is `out0_2 x0 x1`. -/
theorem sound_kernel0 (c : Dev nD) (E : Set ℕ) (i : grid0.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays at the entry contents; after the body at point `t` each
    input block as the window shows it and the output block at `out0_2` of the two; the invariant is the untouched
    rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging block holds the window's block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic grid point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' staging blocks hold the windows' blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg2.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 2: a plain matrix product, block by block

The body of pipeline 2 reads its two input blocks whole, multiplies them, and writes the product over
its output block whole. This module states, at any contents `V` of the core's buffers when the
pipeline is entered: the blocks the windows show at a grid point, what the body leaves in the output
block as a function of the two input blocks, the body's triple, the pipeline's proof data, and the
obligation that the body meets the proof data at every grid point. -/

-- membership of an index in a whole-block rectangle is looked at once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at grid point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging block holds the window's block at every grid point, for any proof data over the
    entry arrays whose body leaves that block as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging block holds the window's block at every grid point — also at the points where the
    block index has not moved and nothing is fetched —, for any proof data over the entry arrays whose body leaves
    that block as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S512x2048 := Rect.unit (s := S512x2048) ![0, 0] S512x2048.size inb_S512x2048_S512x2048_0_0
abbrev r2_1 : Rect S1024x2048 := Rect.unit (s := S1024x2048) ![0, 0] S1024x2048.size inb_S1024x2048_S1024x2048_0_0
abbrev r2_2 : Rect S512x1024 := Rect.unit (s := S512x1024) ![0, 0] S512x1024.size inb_S512x1024_S512x1024_0_0

/-! ## What the body leaves in the output block -/

/-- The output block after the body, from the two input blocks: its one whole-block store of the product of the
    two whole-block loads. -/
def out2_2 (x0 : Vec F S512x2048 .bf16) (x1 : Vec F S1024x2048 .bf16) : Vec F S512x1024 .f32 :=
  View.canon [⟨r2_2, k2_pay1 (View.ld x0 r2_0) (View.ld x1 r2_1)⟩]

/-- The one store is over the whole block, so every index of the block is written. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The body on whole blocks, the inputs' holding `x0` and `x1` and the output's holding anything, runs to a state
    where the inputs' blocks are as they were and the output's block is `out2_2 x0 x1`. -/
theorem sound_kernel2 (c : Dev nD) (E : Set ℕ) (i : grid2.Coords) (arg0 : Memref sig .tc .vmem S512x2048 .bf16) (harg0 : arg0.IsWhole) (arg1 : Memref sig .tc .vmem S1024x2048 .bf16) (harg1 : arg1.IsWhole) (arg2 : Memref sig .tc .vmem S512x1024 .f32) (harg2 : arg2.IsWhole)
    (x0 : Vec F S512x2048 .bf16) (x1 : Vec F S1024x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays at the entry contents; after the body at point `t` each
    input block as the window shows it and the output block at `out2_2` of the two; the invariant is the untouched
    rest of the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging block holds the window's block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic grid point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' staging blocks hold the windows' blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg1Defs.lean ====
import proofs.«411364_j13013750907089_3_alg».proof.Proof.Gen.Kernel.Skeleton

noncomputable section

namespace Cert.Kernel.Hand

open Cert.Kernel Cert.Kernel.Gen
open Idealize.ShloMosaic Idealize.SL.Sem

variable {F : FTy → Type} [FloatOps F]

/-- The first conditional's condition, over the word loaded from the second table: the block index along the
    key axis is zero. -/
abbrev cond1_0 (w3 : BitVec 32) : Prop := Scalar.cmpi .ne (Scalar.extui (Scalar.cmpi .eq w3 0#32)) 0#32 = 1#1

/-- The second conditional's condition, over the two loaded words: the two block indices agree. -/
abbrev cond1_1 (w1 w3 : BitVec 32) : Prop := k1_cond2 w1 w3 = 1#1

/-- The cell of a table of 36 words that the body reads at grid point `i`. -/
abbrev cell (i : grid1.Coords) : S36.Idx :=
  (Rect.unit (s := S36) (k1_off1 i) S1.size (k1_off1_inb i)).toLoadRect.idx (Shape.Idx.first (numel1_S1.symm ▸ Nat.one_pos))

/-- The running maximum after one block of keys. -/
def stepM (w1 w3 : BitVec 32) (q k : Vec F S1x256x1x16x128 .bf16) (m : Vec F S16x256x1 .f32) : Vec F S16x256x1 .f32 :=
  k1_pay11 (k1_pay5 w1 w3 q k) m

/-- The running sum after one block of keys. -/
def stepL (w1 w3 : BitVec 32) (q k : Vec F S1x256x1x16x128 .bf16) (m l : Vec F S16x256x1 .f32) : Vec F S16x256x1 .f32 :=
  k1_pay9 (k1_pay5 w1 w3 q k) m m l

/-- The accumulator after one block of keys and values. -/
def stepA (w1 w3 : BitVec 32) (q k v : Vec F S1x256x1x16x128 .bf16) (m : Vec F S16x256x1 .f32) (a : Vec F S16x256x128 .f32) :
    Vec F S16x256x128 .f32 :=
  k1_pay10 (k1_pay4 v) (k1_pay5 w1 w3 q k) m m a

/-- The output block from the accumulator and the running sum. -/
def outO (a : Vec F S16x256x128 .f32) (l : Vec F S16x256x1 .f32) : Vec F S1x256x16x128 .bf16 := k1_pay12 a l

end Cert.Kernel.Hand

end
-- ==== Proof.K.Tables.lean ====
import Idealize.ShloMosaic.PureOps.BitExact
import proofs.«411364_j13013750907089_3_alg».proof.Proof.Gen.Kernel.Launch
import proofs.«411364_j13013750907089_3_alg».proof.Proof.Gen.Kernel.Points
import proofs.«411364_j13013750907089_3_alg».proof.Proof.K.Reg1Defs

/-!
# The attention call's prefetched tables and its schedule

The attention call runs over the pairs `(b, s)`, `b < 2`, `s < 36`; the two prefetched tables list, for each `s`,
the query tile `qi s` and the key tile `ki s` of the `s`-th pair `ki ≤ qi < 8`, the lower triangle row by row.
Everything the pipeline does at a point — which blocks it fetches, whether the output block is written back,
whether the body resets its running statistics (`ki = 0`) or emits a result (`ki = qi`) — is a function of these
two words, and the tables are constants of the program: the facts below are decided over the 72 points.
-/

set_option maxRecDepth 16384

noncomputable section

namespace Cert.Kernel.Hand

open Idealize.ShloMosaic Idealize.ShloMosaic.TcCoe
open Idealize.SL Idealize.SL.Sem
open Cert.Kernel Cert.Kernel.Gen

/-- The float instance this module is read at. -/
local notation "𝔽" => Bits

/-- The table of query tiles, as the program's constant writes it, -/
def tbl0 : Vec 𝔽 S36 .i32 := fun i => lit0 (S36.rowMajor i)
/-- and the table of key tiles. -/
def tbl1 : Vec 𝔽 S36 .i32 := fun i => lit1 (S36.rowMajor i)

/-- The two tables together. -/
def tbl : pre1.Contents (Elt 𝔽) := fun
  | ⟨0, _⟩ => tbl0
  | ⟨1, _⟩ => tbl1
  | ⟨_ + 2, h⟩ => absurd h (Nat.not_lt.2 (Nat.le_add_left _ _))

/-- Every block the tables name lies inside its array. -/
theorem tbl_ok : ok1 (F := 𝔽) tbl := by decide +kernel

/-- The tables, admissible. -/
def adm1 : (pcfg1 (F := 𝔽)).Adm := ⟨tbl, tbl_ok⟩

/-- The attention pipeline at the program's tables. -/
abbrev cfgA : Pipeline.Cfg sig Λ₀ := cfg1 adm1

/-- It has 72 points. -/
theorem N_A : cfgA.N = 72 := by decide +kernel

/-- The query-tile word the body reads at point `t`, -/
abbrev qiW (t : Fin cfgA.N) : BitVec 32 := (tbl.atD 0 (k1_off1 (cfgA.grid.coords t)) : BitVec 32)
/-- and the key-tile word. -/
abbrev kiW (t : Fin cfgA.N) : BitVec 32 := (tbl.atD 1 (k1_off1 (cfgA.grid.coords t)) : BitVec 32)

/-- The cell the body loads at a point is inside the table, -/
theorem cell_inb (i : grid1.Coords) : ∀ a, k1_off1 i a + 1 ≤ S36.size a := fun a =>
  match a with | ⟨0, _⟩ => k1_off1_inb i 0

/-- so the word the body loads from the first table there (at `cell`) is the word the pipeline's own reading of the table names, -/
theorem word0_eq (i : grid1.Coords) : (tbl0 (cell i) : BitVec 32) = tbl.atD 0 (k1_off1 i) := by
  unfold Pipeline.Prefetch.Contents.atD
  refine Eq.trans ?_ (dif_pos (cell_inb i)).symm
  show tbl0 (cell i) = tbl0 _
  refine congrArg tbl0 ?_
  funext a
  match a with
  | ⟨0, _⟩ => exact Fin.ext (by show k1_off1 i 0 + 1 * 0 = k1_off1 i 0; omega)

/-- and the same for the second table. -/
theorem word1_eq (i : grid1.Coords) : (tbl1 (cell i) : BitVec 32) = tbl.atD 1 (k1_off1 i) := by
  unfold Pipeline.Prefetch.Contents.atD
  refine Eq.trans ?_ (dif_pos (cell_inb i)).symm
  show tbl1 (cell i) = tbl1 _
  refine congrArg tbl1 ?_
  funext a
  match a with
  | ⟨0, _⟩ => exact Fin.ext (by show k1_off1 i 0 + 1 * 0 = k1_off1 i 0; omega)

/-- The point before `t` (the first point is its own). -/
abbrev prev (t : Fin cfgA.N) : Fin cfgA.N := ⟨t.val - 1, Nat.lt_of_le_of_lt (Nat.sub_le _ _) t.isLt⟩

/-- The output block is written back exactly at the points that emit it (`ki = qi`). -/
theorem flushOut_iff : ∀ t : Fin cfgA.N, (cfgA.win 3).flush t = true ↔ cond1_1 (qiW t) (kiW t) := by decide +kernel

/-- The output window is idle exactly at the points that do not emit. -/
theorem idleOut_iff : ∀ t : Fin cfgA.N, cfgA.idle 3 (cfgA.grid.coords t) = true ↔ ¬ cond1_1 (qiW t) (kiW t) := by decide +kernel

/-- The input windows are never idle. -/
theorem liveIn : ∀ t : Fin cfgA.N, cfgA.idle 0 (cfgA.grid.coords t) = false ∧ cfgA.idle 1 (cfgA.grid.coords t) = false ∧ cfgA.idle 2 (cfgA.grid.coords t) = false := by decide +kernel

/-- The very first point starts a query tile (`ki = 0`). -/
theorem first_zero : ∀ t : Fin cfgA.N, t.val = 0 → cond1_0 (kiW t) := by decide +kernel

/-- A point that does not start a query tile continues the one of the point before it: same query tile, the next
    key tile, the same batch element; and the point before did not emit. -/
theorem cont_prev : ∀ t : Fin cfgA.N, ¬ cond1_0 (kiW t) → 0 < t.val
    ∧ qiW (prev t) = qiW t ∧ (kiW (prev t)).toNat + 1 = (kiW t).toNat
    ∧ (cfgA.grid.coords (prev t) 0).val = (cfgA.grid.coords t 0).val
    ∧ ¬ cond1_1 (qiW (prev t)) (kiW (prev t)) := by decide +kernel

/-- The words are tile numbers: `ki ≤ qi < 8`; a point starts its query tile iff `ki = 0` and ends it iff `ki = qi`. -/
theorem words_range : ∀ t : Fin cfgA.N, (kiW t).toNat ≤ (qiW t).toNat ∧ (qiW t).toNat < 8
    ∧ (cond1_0 (kiW t) ↔ (kiW t).toNat = 0) ∧ (cond1_1 (qiW t) (kiW t) ↔ (kiW t).toNat = (qiW t).toNat) := by decide +kernel

end Cert.Kernel.Hand

end
-- ==== Proof.K.Reg1Data.lean ====
import Idealize.ShloMosaic.PureOps.BitExact
import proofs.«411364_j13013750907089_3_alg».proof.Proof.K.Tables
import Idealize.ShloMosaic.Lib.Pipeline.FrameBody
import Idealize.ShloMosaic.Lib.Pipeline.FrameSuffix
import Idealize.ShloMosaic.Lib.Ring
import Idealize.ShloMosaic.Lib.Tactic

/-!
# The attention call: what its buffers hold, point by point

At point `t` the body is handed the query block of tile `qi t`, the key and value blocks of tile `ki t` (three
windows on the one projection array), its three scratch buffers — the running row maximum, the running row sum and
the unnormalised output, carried from point to point — and the output block, which it stores only at the last key
tile of a query tile. `scAt n` is what the scratch holds after point `n`: the update of what point `n - 1` left,
or, at a point that starts a query tile, of the fresh values `-∞, 0, 0`.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

-- the TensorCore's buffer contents when the attention call is entered
variable (V : (c : Dev nD) → (b : Ref sig .tc) → Buf (Elt 𝔽) ((c : Thread nD τ).loc b))

/-- Window `w`'s block at point `t`, read off its array as the call finds it. -/
def iblkA (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef spec1 w))

/-- The query, key and value blocks at point `t`, at their literal type. -/
abbrev qBlk (c : Dev nD) (t : Fin cfgA.N) : Vec 𝔽 S1x256x1x16x128 .bf16 := iblkA V c 0 t
abbrev kBlk (c : Dev nD) (t : Fin cfgA.N) : Vec 𝔽 S1x256x1x16x128 .bf16 := iblkA V c 1 t
abbrev vBlk (c : Dev nD) (t : Fin cfgA.N) : Vec 𝔽 S1x256x1x16x128 .bf16 := iblkA V c 2 t

/-- The scratch after a point that starts a query tile: one update of the fresh values. -/
def scFresh (c : Dev nD) (t : Fin cfgA.N) : Vec 𝔽 S16x256x1 .f32 × Vec 𝔽 S16x256x1 .f32 × Vec 𝔽 S16x256x128 .f32 :=
  (stepM (qiW t) (kiW t) (qBlk V c t) (kBlk V c t) (k1_pay1 (F := 𝔽)),
   stepL (qiW t) (kiW t) (qBlk V c t) (kBlk V c t) (k1_pay1 (F := 𝔽)) (k1_pay2 (F := 𝔽)),
   stepA (qiW t) (kiW t) (qBlk V c t) (kBlk V c t) (vBlk V c t) (k1_pay1 (F := 𝔽)) (k1_pay3 (F := 𝔽)))

/-- The scratch after a point that continues a query tile: one update of what the point before left. -/
def scNext (c : Dev nD) (t : Fin cfgA.N) (p : Vec 𝔽 S16x256x1 .f32 × Vec 𝔽 S16x256x1 .f32 × Vec 𝔽 S16x256x128 .f32) :
    Vec 𝔽 S16x256x1 .f32 × Vec 𝔽 S16x256x1 .f32 × Vec 𝔽 S16x256x128 .f32 :=
  (stepM (qiW t) (kiW t) (qBlk V c t) (kBlk V c t) p.1,
   stepL (qiW t) (kiW t) (qBlk V c t) (kBlk V c t) p.1 p.2.1,
   stepA (qiW t) (kiW t) (qBlk V c t) (kBlk V c t) (vBlk V c t) p.1 p.2.2)

/-- What the three scratch buffers (maximum, sum, unnormalised output) hold after point `n`. -/
def scAt (c : Dev nD) : (n : ℕ) → n < cfgA.N → Vec 𝔽 S16x256x1 .f32 × Vec 𝔽 S16x256x1 .f32 × Vec 𝔽 S16x256x128 .f32
  | 0, hn => scFresh V c ⟨0, hn⟩
  | n + 1, hn =>
    if cond1_0 (kiW ⟨n + 1, hn⟩) then scFresh V c ⟨n + 1, hn⟩
    else scNext V c ⟨n + 1, hn⟩ (scAt c n (Nat.lt_of_succ_lt hn))

/-- At a point that starts a query tile: the fresh update. -/
theorem scAt_first (c : Dev nD) (t : Fin cfgA.N) (h : cond1_0 (kiW t)) : scAt V c t.val t.isLt = scFresh V c t := by
  obtain ⟨n, hn⟩ := t
  cases n with
  | zero => rfl
  | succ n => exact if_pos h

/-- At a point that continues one: the update of what the point before left. -/
theorem scAt_cont (c : Dev nD) (t : Fin cfgA.N) (h : ¬ cond1_0 (kiW t)) :
    scAt V c t.val t.isLt = scNext V c t (scAt V c (prev t).val (prev t).isLt) := by
  obtain ⟨n, hn⟩ := t
  cases n with
  | zero => exact absurd (first_zero ⟨0, hn⟩ rfl) h
  | succ n => exact if_neg h

/-- The scratch operands as memrefs. -/
abbrev scM : Memref sig .tc .vmem S16x256x1 .f32 := Memref.whole cc1_scratch0
abbrev scL : Memref sig .tc .vmem S16x256x1 .f32 := Memref.whole cc1_scratch1
abbrev scA : Memref sig .tc .vmem S16x256x128 .f32 := Memref.whole cc1_scratch2

/-- The two tables as memrefs. -/
abbrev tbM0 : Memref sig .tc .smem S36 .i32 := Memref.whole main_c
abbrev tbM1 : Memref sig .tc .smem S36 .i32 := Memref.whole main_c_0

/-- The scoped buffers of the core that belong to the other two calls, each whole at some contents. -/
def restA (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg1_1), ((c : Thread nD τ).loc cc0_stg1_1) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc2_stg0_0), ((c : Thread nD τ).loc cc2_stg0_0) ↦{fullShare} f) ∗ (∃ f : Buf (Elt 𝔽) ((c : Thread nD τ).loc cc2_stg0_1), ((c : Thread nD τ).loc cc2_stg0_1) ↦{fullShare} f) ∗ (∃ f : Buf (Elt 𝔽) ((c : Thread nD τ).loc cc2_stg1_0), ((c : Thread nD τ).loc cc2_stg1_0) ↦{fullShare} f) ∗ (∃ f : Buf (Elt 𝔽) ((c : Thread nD τ).loc cc2_stg1_1), ((c : Thread nD τ).loc cc2_stg1_1) ↦{fullShare} f) ∗ (∃ f : Buf (Elt 𝔽) ((c : Thread nD τ).loc cc2_stg2_0), ((c : Thread nD τ).loc cc2_stg2_0) ↦{fullShare} f) ∗ (∃ f : Buf (Elt 𝔽) ((c : Thread nD τ).loc cc2_stg2_1), ((c : Thread nD τ).loc cc2_stg2_1) ↦{fullShare} f))

/-- What rides through every point: the two tables held whole at their contents, the other calls' scoped buffers, the
    generator register. -/
def baseA (c : Dev nD) : sProp 𝕄 :=
  iprop(owns (c : Thread nD τ) tbM0 fullShare tbl0 ∗ owns (c : Thread nD τ) tbM1 fullShare tbl1
    ∗ restA c ∗ (∃ r, prngReg c r))

/-- The body's invariant before point `n`: at the first point the scratch holds anything; afterwards what the point
    before left. -/
def PhiS (c : Dev nD) : (n : ℕ) → n ≤ cfgA.N → sProp 𝕄
  | 0, _ => iprop(baseA c ∗ (∃ d, owns (c : Thread nD τ) scM fullShare d) ∗ (∃ d, owns (c : Thread nD τ) scL fullShare d)
      ∗ (∃ d, owns (c : Thread nD τ) scA fullShare d))
  | n + 1, h => iprop(baseA c ∗ owns (c : Thread nD τ) scM fullShare (scAt V c n h).1 ∗ owns (c : Thread nD τ) scL fullShare (scAt V c n h).2.1
      ∗ owns (c : Thread nD τ) scA fullShare (scAt V c n h).2.2)

/-- The input windows split the projection array's full share three ways. -/
def shareA : Fin cfgA.W → PosShare TreeShare
  | ⟨0, _⟩ => fullShare.left
  | ⟨1, _⟩ => fullShare.right.left
  | ⟨2, _⟩ => fullShare.right.right
  | ⟨_ + 3, _⟩ => fullShare

/-- The proof data of the attention call on core `c`: the arrays as the call finds them; after the body each input's
    buffer at its block, the output's (at the points that emit) at the normalised accumulator; the invariant `PhiS`;
    nothing owed. -/
def dat1 (c : Dev nD) : Dat τ (Elt 𝔽) Unit ℕ (UR sig nD τ) ℕ cfgA c where
  A w := V c (Pipeline.arrRef spec1 w)
  after w t := match w with
    | ⟨0, _⟩ => iblkA V c 0 t
    | ⟨1, _⟩ => iblkA V c 1 t
    | ⟨2, _⟩ => iblkA V c 2 t
    | ⟨3, _⟩ => outO (scAt V c t.val t.isLt).2.2 (scAt V c t.val t.isLt).2.1
  Φ t := PhiS V c t.val (Nat.le_of_lt_succ t.isLt)
  q := shareA
  owed _ := 0

theorem A_eq1 (c : Dev nD) (w : Fin cfgA.W) : (dat1 V c).A w = V c (Pipeline.arrRef spec1 w) := by dsimp only [dat1]
theorem after1_0 (c : Dev nD) (t : Fin cfgA.N) : (dat1 V c).after 0 t = iblkA V c 0 t := by dsimp only [dat1]
theorem after1_1 (c : Dev nD) (t : Fin cfgA.N) : (dat1 V c).after 1 t = iblkA V c 1 t := by dsimp only [dat1]
theorem after1_2 (c : Dev nD) (t : Fin cfgA.N) : (dat1 V c).after 2 t = iblkA V c 2 t := by dsimp only [dat1]
theorem after1_3 (c : Dev nD) (t : Fin cfgA.N) :
    (dat1 V c).after 3 t = outO (scAt V c t.val t.isLt).2.2 (scAt V c t.val t.isLt).2.1 := by dsimp only [dat1]

end Cert.Kernel.Hand

end
-- ==== Proof.K.RunData.lean ====
import Idealize.ShloMosaic.PureOps.BitExact
import proofs.«411364_j13013750907089_3_alg».proof.Proof.K.Reg0
import proofs.«411364_j13013750907089_3_alg».proof.Proof.K.Reg2
import proofs.«411364_j13013750907089_3_alg».proof.Proof.K.Reg1Data
import proofs.«411364_j13013750907089_3_alg».proof.Proof.Gen.Kernel.Regions

/-!
# The three calls in sequence: what each is entered with and what it leaves

The program converts and reshapes its arguments, runs the fused projection (call 0, result `main_v4`), reshapes, runs
the attention (call 1, result `main_v6`), reshapes, runs the output projection (call 2, result `main_v8`) and reshapes
once more. The buffer contents between the items are a fold from the launch memory: a host stretch applies its
operations, a call replaces its result array by what its write-backs leave and changes nothing else.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

variable (m : (ℓ : Loc nD τ sig) → Buf (Elt 𝔽) ℓ)

/-- What call 0 is entered with: the launch memory after the first host stretch. -/
abbrev E0 (c : Dev nD) (b : Ref sig .tc) : Buf (Elt 𝔽) ((c : Thread nD τ).loc b) := Gen.V1 m c b

/-- Call 0's result array after its write-backs. -/
def o4 (c : Dev nD) : Buf (Elt 𝔽) ((c : Thread nD τ).loc main_v4) := (dat0 (F := 𝔽) (E0 m) c).arrAt 2 cfg0.N

/-- The buffers after call 0, -/
def W2 (c : Dev nD) : Valuation τ sig (Elt 𝔽) := Function.update (Gen.V1 m c) main_v4 (o4 m c)
/-- after the reshape that follows it: what call 1 is entered with. -/
def W3 (c : Dev nD) : Valuation τ sig (Elt 𝔽) := StableHlo.after hostOps1 (W2 m c)
abbrev E1 (c : Dev nD) (b : Ref sig .tc) : Buf (Elt 𝔽) ((c : Thread nD τ).loc b) := W3 m c b

/-- Call 1's result array after its write-backs. -/
def o6 (c : Dev nD) : Buf (Elt 𝔽) ((c : Thread nD τ).loc main_v6) := (dat1 (E1 m) c).arrAt 3 cfgA.N

/-- The buffers after call 1, -/
def W4 (c : Dev nD) : Valuation τ sig (Elt 𝔽) := Function.update (W3 m c) main_v6 (o6 m c)
/-- after the reshape that follows it: what call 2 is entered with. -/
def W5 (c : Dev nD) : Valuation τ sig (Elt 𝔽) := StableHlo.after hostOps2 (W4 m c)
abbrev E2 (c : Dev nD) (b : Ref sig .tc) : Buf (Elt 𝔽) ((c : Thread nD τ).loc b) := W5 m c b

/-- Call 2's result array after its write-backs. -/
def o8 (c : Dev nD) : Buf (Elt 𝔽) ((c : Thread nD τ).loc main_v8) := (dat2 (F := 𝔽) (E2 m) c).arrAt 2 cfg2.N

/-- The buffers after call 2, and after the last reshape. -/
def W6 (c : Dev nD) : Valuation τ sig (Elt 𝔽) := Function.update (W5 m c) main_v8 (o8 m c)
def W7 (c : Dev nD) : Valuation τ sig (Elt 𝔽) := StableHlo.after hostOps3 (W6 m c)

/-- What the three calls leave in their result arrays, as one table keyed by the array (any other key: the launch
    contents, never read). -/
def outs : Gen.Outs (F := 𝔽) := fun _ r c =>
  if h4 : r = main_v4 then h4 ▸ o4 m c
  else if h6 : r = main_v6 then h6 ▸ o6 m c
  else if h8 : r = main_v8 then h8 ▸ o8 m c
  else m ((c : Thread nD τ).loc r)

theorem outs_v4 (J : ℕ) (c : Dev nD) : outs m J main_v4 c = o4 m c := dif_pos rfl
theorem outs_v6 (J : ℕ) (c : Dev nD) : outs m J main_v6 c = o6 m c := (dif_neg (by decide)).trans (dif_pos rfl)
theorem outs_v8 (J : ℕ) (c : Dev nD) : outs m J main_v8 c = o8 m c :=
  (dif_neg (by decide)).trans ((dif_neg (by decide)).trans (dif_pos rfl))

/-- The generated fold at these results is this module's. -/
theorem V2_eq (c : Dev nD) : Gen.V2 m (outs m) c = W2 m c := by unfold W2; simp only [Gen.V2, outs_v4]
theorem V3_eq (c : Dev nD) : Gen.V3 m (outs m) c = W3 m c := by
  unfold W3; exact congrArg (StableHlo.after hostOps1) (V2_eq m c)
theorem V4_eq (c : Dev nD) : Gen.V4 m (outs m) c = W4 m c := by
  unfold W4
  show Function.update (Gen.V3 m (outs m) c) main_v6 (outs m 4 main_v6 c) = _
  rw [V3_eq, outs_v6]
theorem V5_eq (c : Dev nD) : Gen.V5 m (outs m) c = W5 m c := by
  unfold W5; exact congrArg (StableHlo.after hostOps2) (V4_eq m c)
theorem V6_eq (c : Dev nD) : Gen.V6 m (outs m) c = W6 m c := by
  unfold W6
  show Function.update (Gen.V5 m (outs m) c) main_v8 (outs m 6 main_v8 c) = _
  rw [V5_eq, outs_v8]
theorem V7_eq (c : Dev nD) : Gen.V7 m (outs m) c = W7 m c := by
  unfold W7; exact congrArg (StableHlo.after hostOps3) (V6_eq m c)

/-- The tables each call's pipeline is pinned at: only the attention call has any. -/
def adm : (p : Fin 3) → (pcfgs (F := 𝔽) p).Adm
  | ⟨0, _⟩ => cfg0.toPCfg_adm
  | ⟨1, _⟩ => adm1
  | ⟨2, _⟩ => cfg2.toPCfg_adm
  | ⟨_ + 3, h⟩ => absurd h (Nat.not_lt.2 (Nat.le_add_left _ _))

/-- Every call's proof data, each at what the call is entered with. -/
def pdats : (p : Fin 3) → (c : Dev nD) → Dat τ (Elt 𝔽) Unit ℕ (UR sig nD τ) ℕ (Pipeline.pin (pcfgs (F := 𝔽)) adm p) c
  | ⟨0, _⟩ => fun c => dat0 (F := 𝔽) (E0 m) c
  | ⟨1, _⟩ => fun c => dat1 (E1 m) c
  | ⟨2, _⟩ => fun c => dat2 (F := 𝔽) (E2 m) c
  | ⟨_ + 3, h⟩ => absurd h (Nat.not_lt.2 (Nat.le_add_left _ _))

/-- No core owes another anything: no level is assigned. -/
abbrev 𝒱₀ : Variants := Variants.none
abbrev Lv : GSem nD τ sig → Finset Unit := fun _ => ∅
abbrev lv : GSem nD τ sig → Unit → ℕ := fun _ _ => 0

/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev Ek : Fin 4 → Dev nD → sProp 𝕄 := fun _ c => Rd c

end Cert.Kernel.Hand

end
-- ==== Proof.K.Seg02.lean ====
import Idealize.ShloMosaic.PureOps.BitExact
import proofs.«411364_j13013750907089_3_alg».proof.Proof.K.RunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two projection calls as items of the program's run

Each of the two matrix-product calls, as a record of its run over the thread state "every unscoped buffer at the
contents between two items, the generator register at some state, nothing owed": entered from the contents before
the call, left at the contents after it, which differ only at the call's result array. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

variable (m : (ℓ : Loc nD τ sig) → Buf (Elt 𝔽) ℓ)

/-! ## Call 0 among the core's buffers -/

/-- After call 0 each of its arrays holds what the pipeline leaves there: the inputs what they held, the result its
    write-backs. -/
theorem hF0 (c : Dev nD) (w : Fin cfg0.W) :
    (dat0 (F := 𝔽) (E0 m) c).arrAt w cfg0.N = W2 m c (Pipeline.arrRef spec0 w) := by
  unfold W2
  match w with
  | ⟨0, _⟩ =>
    exact ((dat0 (F := 𝔽) (E0 m) c).arrAt_in 0 rfl _).trans ((A_eq0 (E0 m) c 0).trans
      (Function.update_of_ne (StableHlo.devRef_ne_of_ne (by decide)) _ _).symm)
  | ⟨1, _⟩ =>
    exact ((dat0 (F := 𝔽) (E0 m) c).arrAt_in 1 rfl _).trans ((A_eq0 (E0 m) c 1).trans
      (Function.update_of_ne (StableHlo.devRef_ne_of_ne (by decide)) _ _).symm)
  | ⟨2, _⟩ =>
    exact (Function.update_self (Proc.devRef .tc main_v4 : DevRef τ sig) (o4 m c) (Gen.V1 m c)).symm

/-- Call 0 changes no buffer but its arrays'. -/
theorem hrest0 (c : Dev nD) : ∀ b, b ∉ Finset.univ.image (Pipeline.arrRef spec0) → W2 m c b = E0 m c b := fun b hb => by
  unfold W2
  exact Function.update_of_ne (StableHlo.devRef_ne_of_ne fun e =>
    hb (Finset.mem_image.mpr ⟨2, Finset.mem_univ _, (show Pipeline.arrRef spec0 2 = main_v4 from rfl).trans e.symm⟩)) _ _

-- applying a library lemma stated over the pinned configuration takes unfolding plain definitions in a
-- metavariable's type
set_option backward.isDefEq.respectTransparency.types false in
/-- Call 0 over the thread state: entered from every unscoped buffer at the contents before it, left with them at
    the contents after it. Its arrays are split out of the unscoped buffers at entry and put back at exit; the
    generator register goes into the pipeline's invariant and comes out; nothing is owed; the kernel has no semaphore
    of its own. -/
def reg0 : Pipeline.RegionSeg (pcfgs (F := 𝔽)) adm (pdats m) () defs₀ 𝒱₀ Lv lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (E0 m) c).loose
  hwaits := Pipeline.hwaits_of_owed_zero _ _ _ _ Lv lv 0 fun _ _ => rfl
  pre c := iprop(StableHlo.held (c : Thread nD τ) (Pipeline.ucRefs τ sig) (Gen.V1 m c) ∗ Ek 0 c)
  post c := iprop(StableHlo.held (c : Thread nD τ) (Pipeline.ucRefs τ sig) (Gen.V2 m (outs m) c) ∗ Ek 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := 𝔽)) adm (pdats m) (launch0 (F := 𝔽)).win (launch0 (F := 𝔽)).arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m) ((pdats m 0 c).share_full fun _ => rfl)
      (E0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 among the core's buffers -/

/-- After call 2 each of its arrays holds what the pipeline leaves there: the inputs what they held, the result its
    write-backs. -/
theorem hF2 (c : Dev nD) (w : Fin cfg2.W) :
    (dat2 (F := 𝔽) (E2 m) c).arrAt w cfg2.N = W6 m c (Pipeline.arrRef spec2 w) := by
  unfold W6
  match w with
  | ⟨0, _⟩ =>
    exact ((dat2 (F := 𝔽) (E2 m) c).arrAt_in 0 rfl _).trans ((A_eq2 (E2 m) c 0).trans
      (Function.update_of_ne (StableHlo.devRef_ne_of_ne (by decide)) _ _).symm)
  | ⟨1, _⟩ =>
    exact ((dat2 (F := 𝔽) (E2 m) c).arrAt_in 1 rfl _).trans ((A_eq2 (E2 m) c 1).trans
      (Function.update_of_ne (StableHlo.devRef_ne_of_ne (by decide)) _ _).symm)
  | ⟨2, _⟩ =>
    exact (Function.update_self (Proc.devRef .tc main_v8 : DevRef τ sig) (o8 m c) (W5 m c)).symm

/-- Call 2 changes no buffer but its arrays'. -/
theorem hrest2 (c : Dev nD) : ∀ b, b ∉ Finset.univ.image (Pipeline.arrRef spec2) → W6 m c b = E2 m c b := fun b hb => by
  unfold W6
  exact Function.update_of_ne (StableHlo.devRef_ne_of_ne fun e =>
    hb (Finset.mem_image.mpr ⟨2, Finset.mem_univ _, (show Pipeline.arrRef spec2 2 = main_v8 from rfl).trans e.symm⟩)) _ _

-- applying a library lemma stated over the pinned configuration takes unfolding plain definitions in a
-- metavariable's type
set_option backward.isDefEq.respectTransparency.types false in
/-- Call 2 over the thread state: entered from every unscoped buffer at the contents before it, left with them at
    the contents after it. Its arrays are split out of the unscoped buffers at entry and put back at exit; the
    generator register goes into the pipeline's invariant and comes out; nothing is owed; the kernel has no semaphore
    of its own. -/
def reg2 : Pipeline.RegionSeg (pcfgs (F := 𝔽)) adm (pdats m) () defs₀ 𝒱₀ Lv lv 2 where
  win := (launch2 (F := 𝔽)).win.to₀
  block_pos := (launch2 (F := 𝔽)).block_pos
  stage_whole := (launch2 (F := 𝔽)).stage_whole
  K := PEmpty
  osem k := k.elim
  ho := Pipeline.OwnSemFacts.none _
  hbody c := (body_obligation2 (F := 𝔽) (E2 m) c).loose
  hwaits := Pipeline.hwaits_of_owed_zero _ _ _ _ Lv lv 2 fun _ _ => rfl
  pre c := iprop(StableHlo.held (c : Thread nD τ) (Pipeline.ucRefs τ sig) (Gen.V5 m (outs m) c) ∗ Ek 2 c)
  post c := iprop(StableHlo.held (c : Thread nD τ) (Pipeline.ucRefs τ sig) (Gen.V6 m (outs m) c) ∗ Ek 3 c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, V5_eq]
    have hsplit := Pipeline.arrays_of_unscopedBufs (p := 2) (pcfgs (F := 𝔽)) adm (pdats m) (launch2 (F := 𝔽)).win (launch2 (F := 𝔽)).arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := 𝔽)) adm (Ix := Unit) (Name := ℕ) (U := UR sig nD τ) (Lvl := ℕ)
      (launch2 (F := 𝔽)).win (launch2 (F := 𝔽)).arr_whole c (pdats m) ((pdats m 2 c).share_full fun _ => rfl)
      (E2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.TblVals.lean ====
import Idealize.ShloMosaic.PureOps.BitExact
import proofs.«411364_j13013750907089_3_alg».proof.Proof.Gen.Kernel.Regions
import Idealize.ShloMosaic.Lib.StableHlo.Run

/-!
# The two tables when the attention call starts

The attention call's two prefetched tables are constants of the program, written by the first host stretch; neither
the projection call nor the reshape after it touches them. So when the attention call starts they hold the
program's two literal tables.
-/

noncomputable section

namespace Cert.Kernel.TblVals

open Idealize.ShloMosaic Idealize.ShloMosaic.TcCoe Idealize.SL.Sem Idealize.ShloMosaic.StableHlo
open Cert.Kernel Cert.Kernel.Gen

/-- The float instance this module is read at. -/
local notation "𝔽" => Bits

variable (m : (ℓ : Loc nD τ sig) → Buf (Elt 𝔽) ℓ) (outs : Outs (F := 𝔽)) (c : Dev nD)

/-- The table of query tiles when the attention call starts is the program's first constant, -/
theorem tbl0_eq : (V3 m outs c main_c : S36.Idx → BitVec 32) = fun i => lit0 (S36.rowMajor i) := by
  refine (V3_of m outs c main_c (by decide)).trans <| (V2_of m outs c main_c (by decide)).trans ?_
  show StableHlo.after hostOps0 (V0 m c) (Proc.devRef .tc main_c) = _
  after_results
  rfl

/-- and the table of key tiles its second. -/
theorem tbl1_eq : (V3 m outs c main_c_0 : S36.Idx → BitVec 32) = fun i => lit1 (S36.rowMajor i) := by
  refine (V3_of m outs c main_c_0 (by decide)).trans <| (V2_of m outs c main_c_0 (by decide)).trans ?_
  show StableHlo.after hostOps0 (V0 m c) (Proc.devRef .tc main_c_0) = _
  after_results
  rfl

end Cert.Kernel.TblVals

end
-- ==== Proof.K.Seg1.lean ====
import Idealize.ShloMosaic.PureOps.BitExact
import proofs.«411364_j13013750907089_3_alg».proof.Proof.K.RunData
import proofs.«411364_j13013750907089_3_alg».proof.Proof.K.TblVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention call as an item of the program's run

The attention call, as a record of its run over the thread state "every unscoped buffer at the contents between two
items, the generator register at some state, nothing owed". Its three input windows stage blocks of the one
projection array, so that array's full share is dealt three ways at entry and put together again at exit; its two
prefetched tables, the program's constants, go into the body's invariant and come back out of it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

/-! ## The call's arrays, tables and scoped buffers, one by one -/

section
variable (V : (c : Dev nD) → (b : Ref sig .tc) → Buf (Elt 𝔽) ((c : Thread nD τ).loc b))

/-- The shares the four windows hold their arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The windows' arrays: the projection array three times, each input window at its share, and the result array whole. -/
theorem arrays_eq1 (c : Dev nD) (Fa : (w : Fin cfgA.W) → Buf (Elt 𝔽) ((cfgA.win w).arr.view.loc (c.tc : Thread nD τ))) :
    ((dat1 V c).arrays Fa : sProp 𝕄)
      = iprop((((c : Thread nD τ).loc main_v5) ↦{fullShare.left} Fa 0) ∗ (((c : Thread nD τ).loc main_v5) ↦{fullShare.right.left} Fa 1)
          ∗ (((c : Thread nD τ).loc main_v5) ↦{fullShare.right.right} Fa 2) ∗ (((c : Thread nD τ).loc main_v6) ↦{fullShare} Fa 3)) := by
  have harr : ∀ w, (cfgA.spec w).arr.IsWhole := arr_whole1
  have h1 : ((dat1 V c).arrays Fa : sProp 𝕄)
      = bigSep Finset.univ fun w : Fin 4 => (((c : Thread nD τ).loc (Pipeline.arrRef cfgA.spec w)) ↦{(dat1 V c).share w} Fa w : sProp 𝕄) := by
    unfold Dat.arrays
    exact bigSep_congr fun w _ => by rw [(harr w).set_eq_univ]
  rw [h1]
  refine (bigSep_W1 _).trans ?_
  rw [share1_0, share1_1, share1_2, share1_3]

end

/-- The buffers behind the four windows' arrays are two. -/
theorem img1 : (Finset.univ.image (Pipeline.arrRef spec1)) = ({main_v5, main_v6} : Finset (Ref sig .tc)) := by decide

/-- Those two, each whole at the full share. -/
theorem arrBufs_eq1 (c : Dev nD) (W : (b : Ref sig .tc) → Buf (Elt 𝔽) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)) := by
  unfold Pipeline.arrBufs
  rw [img1, bigSep_insert (by decide), bigSep_singleton]
  rfl

/-- The two prefetched tables, one by one. -/
theorem prefHeld_eq1 (c : Dev nD) (q : Fin pre1.K → PosShare TreeShare) (T : pre1.Contents (Elt 𝔽)) :
    (Pipeline.prefHeld (Ix := Unit) (Name := ℕ) (U := UR sig nD τ) (Lvl := ℕ) pre1 c q T : sProp 𝕄)
      = iprop((((c : Thread nD τ).loc main_c) ↦{q 0} T 0) ∗ (((c : Thread nD τ).loc main_c_0) ↦{q 1} T 1)) := by
  unfold Pipeline.prefHeld
  refine (bigSep_univ_eq_bigSepL [(0 : Fin 2), (1 : Fin 2)] (by decide) (by decide) _).trans ?_
  rfl

variable (m : (ℓ : Loc nD τ sig) → Buf (Elt 𝔽) ℓ)

/-- When the call starts the two tables hold the program's constants. -/
theorem tblA_eq (c : Dev nD) : (fun k => E1 m c (pre1.ref k)) = tbl := by
  funext k
  match k with
  | ⟨0, _⟩ => exact (congrFun (V3_eq m c) (Proc.devRef .tc main_c)).symm.trans (TblVals.tbl0_eq m (outs m) c)
  | ⟨1, _⟩ => exact (congrFun (V3_eq m c) (Proc.devRef .tc main_c_0)).symm.trans (TblVals.tbl1_eq m (outs m) c)

/-- ENTRY: the core's unscoped buffers as the call finds them are its arrays — the projection array dealt three
    ways —, its two tables, and the rest. -/
theorem entry_split (c : Dev nD) :
    (StableHlo.held (c : Thread nD τ) (Pipeline.ucRefs τ sig) (W3 m c) : sProp 𝕄)
      ⊢ iprop((dat1 (E1 m) c).arrays ((dat1 (E1 m) c).arrAt · 0) ∗ Pipeline.prefHeld pre1 c (fun _ => fullShare) tbl
          ∗ Pipeline.unscopedRestP pre1 spec1 c (E1 m c)) := by
  rw [← Pipeline.unscopedBufs_held, Pipeline.unscopedBufs_split₀ (fun _ : Unit => cfgA) () winFacts₀1.arr_unscoped c,
    Pipeline.unscopedRest_split preFacts1, tblA_eq, arrBufs_eq1, arrays_eq1]
  iintro ⟨⟨H5, H6⟩, Ht, Hz⟩
  ihave H5' := (pointsTo_share (PosShare.mem_left_op_right fullShare)).1 $$ H5
  icases H5' with ⟨H5a, H5r⟩
  ihave H5'' := (pointsTo_share (PosShare.mem_left_op_right fullShare.right)).1 $$ H5r
  icases H5'' with ⟨H5b, H5c⟩
  isplitl [H5a H5b H5c H6]
  · isplitl [H5a]; · iexact H5a
    isplitl [H5b]; · iexact H5b
    isplitl [H5c]; · iexact H5c
    iexact H6
  isplitl [Ht]; · iexact Ht
  iexact Hz

/-! ## The invariant at the first point and at the last -/

section
variable (V : (c : Dev nD) → (b : Ref sig .tc) → Buf (Elt 𝔽) ((c : Thread nD τ).loc b))

theorem PhiS_zero (c : Dev nD) (h : 0 ≤ cfgA.N) :
    PhiS V c 0 h = iprop(baseA c ∗ (∃ d, owns (c : Thread nD τ) scM fullShare d) ∗ (∃ d, owns (c : Thread nD τ) scL fullShare d)
      ∗ (∃ d, owns (c : Thread nD τ) scA fullShare d)) := rfl

theorem PhiS_at_succ (c : Dev nD) (n : ℕ) (h : n + 1 ≤ cfgA.N) :
    PhiS V c (n + 1) h = iprop(baseA c ∗ owns (c : Thread nD τ) scM fullShare (scAt V c n h).1 ∗ owns (c : Thread nD τ) scL fullShare (scAt V c n h).2.1
      ∗ owns (c : Thread nD τ) scA fullShare (scAt V c n h).2.2) := rfl

/-- The generator register, the two tables and the scoped buffers no window stages make the invariant before the
    first point: the three scratch buffers are among those scoped buffers, at whatever they hold. -/
theorem in_split (c : Dev nD) (h : 0 ≤ cfgA.N) :
    iprop((∃ r, prngReg c r) ∗ Pipeline.prefHeld pre1 c (fun _ => fullShare) tbl ∗ Pipeline.scopedRest spec1 c)
      ⊢ (PhiS V c 0 h : sProp 𝕄) := by
  rw [PhiS_zero]; unfold baseA restA
  rw [prefHeld_eq1, scopedRest1_eq]
  simp only [owns_whole]
  iintro ⟨Hp, ⟨Ht0, Ht1⟩, A1, A2, A3, A4, A5, A6, S0, S1, S2, B1, B2, B3, B4, B5, B6⟩
  isplitr [S0 S1 S2]
  · isplitl [Ht0]; · iexact Ht0
    isplitl [Ht1]; · iexact Ht1
    isplitr [Hp]
    · isplitl [A1]; · iexact A1
      isplitl [A2]; · iexact A2
      isplitl [A3]; · iexact A3
      isplitl [A4]; · iexact A4
      isplitl [A5]; · iexact A5
      isplitl [A6]; · iexact A6
      isplitl [B1]; · iexact B1
      isplitl [B2]; · iexact B2
      isplitl [B3]; · iexact B3
      isplitl [B4]; · iexact B4
      isplitl [B5]; · iexact B5
      iexact B6
    iexact Hp
  isplitl [S0]; · iexact S0
  isplitl [S1]; · iexact S1
  iexact S2

/-- After a point the invariant gives them back, the scratch buffers at what the point left. -/
theorem out_split (c : Dev nD) (n : ℕ) (h : n + 1 ≤ cfgA.N) :
    (PhiS V c (n + 1) h : sProp 𝕄)
      ⊢ iprop(((∃ r, prngReg c r) ∗ Pipeline.prefHeld pre1 c (fun _ => fullShare) tbl) ∗ Pipeline.scopedRest spec1 c) := by
  rw [PhiS_at_succ]; unfold baseA restA
  rw [prefHeld_eq1, scopedRest1_eq]
  simp only [owns_whole]
  iintro ⟨⟨Ht0, Ht1, ⟨A1, A2, A3, A4, A5, A6, B1, B2, B3, B4, B5, B6⟩, Hp⟩, S0, S1, S2⟩
  isplitl [Hp Ht0 Ht1]
  · isplitl [Hp]; · iexact Hp
    isplitl [Ht0]; · iexact Ht0
    iexact Ht1
  isplitl [A1]; · iexact A1
  isplitl [A2]; · iexact A2
  isplitl [A3]; · iexact A3
  isplitl [A4]; · iexact A4
  isplitl [A5]; · iexact A5
  isplitl [A6]; · iexact A6
  isplitl [S0]; · iexists _; iexact S0
  isplitl [S1]; · iexists _; iexact S1
  isplitl [S2]; · iexists _; iexact S2
  isplitl [B1]; · iexact B1
  isplitl [B2]; · iexact B2
  isplitl [B3]; · iexact B3
  isplitl [B4]; · iexact B4
  isplitl [B5]; · iexact B5
  iexact B6

/-- The same at any point but the first. -/
theorem out_split' (c : Dev nD) : ∀ (n : ℕ) (h : n ≤ cfgA.N), 0 < n → (PhiS V c n h : sProp 𝕄)
      ⊢ iprop(((∃ r, prngReg c r) ∗ Pipeline.prefHeld pre1 c (fun _ => fullShare) tbl) ∗ Pipeline.scopedRest spec1 c)
  | 0, _, h0 => absurd h0 (Nat.lt_irrefl 0)
  | n + 1, h, _ => out_split V c n h

end

/-! ## Exit: the buffers after the call -/

variable (m : (ℓ : Loc nD τ sig) → Buf (Elt 𝔽) ℓ)

/-- The call leaves the projection array as it found it, -/
theorem W4_v5 (c : Dev nD) : W4 m c main_v5 = W3 m c main_v5 := by
  unfold W4; exact Function.update_of_ne (StableHlo.devRef_ne_of_ne (by decide)) _ _
/-- its result array at what its write-backs leave, -/
theorem W4_v6 (c : Dev nD) : W4 m c main_v6 = o6 m c := by
  unfold W4; exact Function.update_self _ _ _
/-- and every other buffer as it found it. -/
theorem W4_of_ne (c : Dev nD) (b : Ref sig .tc) (hb : b ≠ main_v6) : W4 m c b = W3 m c b := by
  unfold W4; exact Function.update_of_ne (StableHlo.devRef_ne_of_ne hb) _ _

/-- So the tables still hold the program's constants, -/
theorem tblA_eq4 (c : Dev nD) : (fun k => W4 m c (pre1.ref k)) = tbl := by
  rw [← tblA_eq m c]
  funext k
  exact W4_of_ne m c (pre1.ref k) (preFacts1.disj k 3)

/-- and the buffers that are neither an array of the call nor a table hold what they held. -/
theorem restP_eq4 (c : Dev nD) :
    (Pipeline.unscopedRestP (Ix := Unit) (Name := ℕ) (U := UR sig nD τ) (Lvl := ℕ) pre1 spec1 c (fun b => W4 m c b) : sProp 𝕄)
      = Pipeline.unscopedRestP pre1 spec1 c (E1 m c) := by
  unfold Pipeline.unscopedRestP
  refine bigSep_congr fun b hb => ?_
  have hne : b ≠ main_v6 := fun e =>
    (Finset.mem_sdiff.mp (Finset.mem_sdiff.mp hb).1).2 (Finset.mem_image.mpr ⟨3, Finset.mem_univ _, e.symm⟩)
  show ((c : Thread nD τ).loc b ↦{fullShare} W4 m c b : sProp 𝕄) = _
  rw [W4_of_ne m c b hne]

/-- EXIT: the call's arrays after its write-backs — the three shares of the projection array put together again —, the
    two tables and the rest are the core's unscoped buffers at the contents after the call. -/
theorem exit_join (c : Dev nD) :
    iprop((dat1 (E1 m) c).arrays ((dat1 (E1 m) c).arrAt · cfgA.N) ∗ Pipeline.prefHeld pre1 c (fun _ => fullShare) tbl
        ∗ Pipeline.unscopedRestP pre1 spec1 c (E1 m c))
      ⊢ (StableHlo.held (c : Thread nD τ) (Pipeline.ucRefs τ sig) (W4 m c) : sProp 𝕄) := by
  rw [← Pipeline.unscopedBufs_held, Pipeline.unscopedBufs_split₀ (fun _ : Unit => cfgA) () winFacts₀1.arr_unscoped c,
    Pipeline.unscopedRest_split preFacts1, tblA_eq4, restP_eq4, arrBufs_eq1, arrays_eq1, W4_v5, W4_v6]
  have e0 := (dat1 (E1 m) c).arrAt_in 0 rfl cfgA.N
  have e1 := (dat1 (E1 m) c).arrAt_in 1 rfl cfgA.N
  have e2 := (dat1 (E1 m) c).arrAt_in 2 rfl cfgA.N
  rw [e0, e1, e2]
  iintro ⟨⟨H5a, H5b, H5c, H6⟩, Ht, Hz⟩
  isplitl [H5a H5b H5c H6]
  · isplitl [H5a H5b H5c]
    · iapply (pointsTo_share (PosShare.mem_left_op_right fullShare)).2
      isplitl [H5a]; · iexact H5a
      iapply (pointsTo_share (PosShare.mem_left_op_right fullShare.right)).2
      isplitl [H5b]; · iexact H5b
      iexact H5c
    iexact H6
  isplitl [Ht]; · iexact Ht
  iexact Hz

/-! ## The record -/

-- applying a library lemma stated over the pinned configuration takes unfolding plain definitions in a
-- metavariable's type
set_option backward.isDefEq.respectTransparency.types false in
/-- The attention call over the thread state: entered from every unscoped buffer at the contents before it, left with
    them at the contents after it. At entry the projection array is dealt to the three input windows and the tables
    are handed to the pipeline; the generator register, the tables and the scratch buffers go into the body's
    invariant and come out of it; nothing is owed; the kernel has no semaphore of its own. -/
def reg1 (hb : ∀ c, Pipeline.BodyObligationLoose (pdats m 1 c) defs₀ 𝒱₀ () Set.univ) :
    Pipeline.RegionSeg (pcfgs (F := 𝔽)) adm (pdats m) () defs₀ 𝒱₀ Lv lv 1 where
  win := winFacts₀1
  block_pos := block_pos1
  stage_whole := stage_whole1
  K := PEmpty
  osem k := k.elim
  ho := Pipeline.OwnSemFacts.none _
  hbody := hb
  hwaits := Pipeline.hwaits_of_owed_zero _ _ _ _ Lv lv 1 fun _ _ => rfl
  pre c := iprop(StableHlo.held (c : Thread nD τ) (Pipeline.ucRefs τ sig) (Gen.V3 m (outs m) c) ∗ Ek 1 c)
  post c := iprop(StableHlo.held (c : Thread nD τ) (Pipeline.ucRefs τ sig) (Gen.V4 m (outs m) c) ∗ Ek 2 c)
  X c := iprop(∃ r, prngReg c r)
  Y c := iprop((∃ r, prngReg c r) ∗ Pipeline.prefHeld pre1 c (fun _ => fullShare) tbl)
  Z c := Pipeline.unscopedRestP (Ix := Unit) (Name := ℕ) (U := UR sig nD τ) (Lvl := ℕ) pre1 spec1 c (E1 m c)
  hentry c := by
    rw [Pipeline.ownSems0_none, V3_eq]
    iintro ⟨⟨Hub, Hp, HO⟩, -, -⟩
    ihave H := (entry_split m c) $$ Hub
    icases H with ⟨Ha, Ht, Hz⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := in_split (E1 m) c (Nat.zero_le _)
  hout c := by
    rw [Pipeline.ownSems0_none]
    refine (out_split' (E1 m) c cfgA.N (Nat.le_refl _) (by rw [N_A]; decide)).trans ?_
    iintro ⟨HY, Hr⟩
    isplitl [HY]; · iexact HY
    isplitr; · iempintro
    iexact Hr
  hexit c := by
    rw [V4_eq]
    iintro ⟨Ha, HO, ⟨Hp, Ht⟩, Hz⟩
    imodintro
    isplitl [Ha Ht Hz]
    · iapply (exit_join m c)
      isplitl [Ha]; · iexact Ha
      isplitl [Ht]; · iexact Ht
      iexact Hz
    isplitl [Hp]; · iexact Hp
    unfold Pipeline.Dat.owesAt Pipeline.owesWithin
    icases HO with ⟨%W, -, HO⟩; iexists W; iexact HO

end Cert.Kernel.Hand

end
-- ==== Proof.K.Reg1RunFF.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import proofs.«411364_j13013750907089_3_alg».proof.Proof.K.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is not taken and the second is not taken: the three scratch buffers are updated by one block from what they held; the output block is untouched. -/
theorem run_FF (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : ¬ cond1_0 (T1 (cell i))) (hc1 : ¬ cond1_1 (T0 (cell i)) (T1 (cell i)))
    (x0 x1 x2 : Vec F S1x256x1x16x128 .bf16) (m l : Vec F S16x256x1 .f32) (a : Vec F S16x256x128 .f32)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare m ∗ owns (c : Thread nD τ) arg9 fullShare l ∗ owns (c : Thread nD τ) arg10 fullShare a
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare (stepM (T0 (cell i)) (T1 (cell i)) x0 x1 m) ∗ owns (c : Thread nD τ) arg9 fullShare (stepL (T0 (cell i)) (T1 (cell i)) x0 x1 m l) ∗ owns (c : Thread nD τ) arg10 fullShare (stepA (T0 (cell i)) (T1 (cell i)) x0 x1 x2 m a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _; isplitr; swap; · iexact H8
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_singleton_self _, View.mem_set_unit_zero hz3 inb_S16x256x128_S16x256x128_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.Kernel.Hand

end
-- ==== Proof.K.Reg1RunTF.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import proofs.«411364_j13013750907089_3_alg».proof.Proof.K.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is taken and the second is not taken: the three scratch buffers, held at anything, are reset and then updated by one block; the output block is untouched. -/
theorem run_TF (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : cond1_0 (T1 (cell i))) (hc1 : ¬ cond1_1 (T0 (cell i)) (T1 (cell i)))
    (x0 x1 x2 : Vec F S1x256x1x16x128 .bf16)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare (stepM (T0 (cell i)) (T1 (cell i)) x0 x1 (k1_pay1 (F := F))) ∗ owns (c : Thread nD τ) arg9 fullShare (stepL (T0 (cell i)) (T1 (cell i)) x0 x1 (k1_pay1 (F := F)) (k1_pay2 (F := F))) ∗ owns (c : Thread nD τ) arg10 fullShare (stepA (T0 (cell i)) (T1 (cell i)) x0 x1 x2 (k1_pay1 (F := F)) (k1_pay3 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _; isplitr; swap; · iexact H8
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_cons_self, View.mem_set_unit_zero hz3 inb_S16x256x128_S16x256x128_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.Kernel.Hand

end
-- ==== Proof.K.Reg1RunTT.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import proofs.«411364_j13013750907089_3_alg».proof.Proof.K.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is taken and the second is taken: the three scratch buffers, held at anything, are reset and then updated by one block, and the output block is stored from the updated accumulator and sum. -/
theorem run_TT (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : cond1_0 (T1 (cell i))) (hc1 : cond1_1 (T0 (cell i)) (T1 (cell i)))
    (x0 x1 x2 : Vec F S1x256x1x16x128 .bf16)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ owns (c : Thread nD τ) arg7 fullShare (outO (stepA (T0 (cell i)) (T1 (cell i)) x0 x1 x2 (k1_pay1 (F := F)) (k1_pay3 (F := F))) (stepL (T0 (cell i)) (T1 (cell i)) x0 x1 (k1_pay1 (F := F)) (k1_pay2 (F := F)))) ∗ owns (c : Thread nD τ) arg8 fullShare (stepM (T0 (cell i)) (T1 (cell i)) x0 x1 (k1_pay1 (F := F))) ∗ owns (c : Thread nD τ) arg9 fullShare (stepL (T0 (cell i)) (T1 (cell i)) x0 x1 (k1_pay1 (F := F)) (k1_pay2 (F := F))) ∗ owns (c : Thread nD τ) arg10 fullShare (stepA (T0 (cell i)) (T1 (cell i)) x0 x1 x2 (k1_pay1 (F := F)) (k1_pay3 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_eq_canon _ _ _ (fun y => ⟨_, List.mem_singleton_self _, View.mem_set_unit_zero hz4 inb_S1x256x16x128_S1x256x16x128_0_0_0_0 y⟩), View.canon_unit_zero hz4]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H8]
  · iexists _; isplitr; swap; · iexact H8
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_cons_self, View.mem_set_unit_zero hz3 inb_S16x256x128_S16x256x128_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.Kernel.Hand

end
-- ==== Proof.K.Reg1RunFT.lean ====
import proofs.«411364_j13013750907089_3_alg».proof.Proof.Gen.Kernel.Launch
import proofs.«411364_j13013750907089_3_alg».proof.Proof.Gen.Kernel.Skeleton
import proofs.«411364_j13013750907089_3_alg».proof.Proof.Gen.Kernel.Points
import proofs.«411364_j13013750907089_3_alg».proof.Proof.K.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is not taken and the second is taken: the three scratch buffers are updated by one block from what they held, and the output block is stored from the updated accumulator and sum. -/
theorem run_FT (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : ¬ cond1_0 (T1 (cell i))) (hc1 : cond1_1 (T0 (cell i)) (T1 (cell i)))
    (x0 x1 x2 : Vec F S1x256x1x16x128 .bf16) (m l : Vec F S16x256x1 .f32) (a : Vec F S16x256x128 .f32)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare m ∗ owns (c : Thread nD τ) arg9 fullShare l ∗ owns (c : Thread nD τ) arg10 fullShare a
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ owns (c : Thread nD τ) arg7 fullShare (outO (stepA (T0 (cell i)) (T1 (cell i)) x0 x1 x2 m a) (stepL (T0 (cell i)) (T1 (cell i)) x0 x1 m l)) ∗ owns (c : Thread nD τ) arg8 fullShare (stepM (T0 (cell i)) (T1 (cell i)) x0 x1 m) ∗ owns (c : Thread nD τ) arg9 fullShare (stepL (T0 (cell i)) (T1 (cell i)) x0 x1 m l) ∗ owns (c : Thread nD τ) arg10 fullShare (stepA (T0 (cell i)) (T1 (cell i)) x0 x1 x2 m a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_eq_canon _ _ _ (fun y => ⟨_, List.mem_singleton_self _, View.mem_set_unit_zero hz4 inb_S1x256x16x128_S1x256x16x128_0_0_0_0 y⟩), View.canon_unit_zero hz4]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H8]
  · iexists _; isplitr; swap; · iexact H8
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_singleton_self _, View.mem_set_unit_zero hz3 inb_S16x256x128_S16x256x128_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.Kernel.Hand

end
-- ==== Proof.K.Reg1Runs.lean ====
import proofs.«411364_j13013750907089_3_alg».proof.Proof.K.Reg1RunFF
import proofs.«411364_j13013750907089_3_alg».proof.Proof.K.Reg1RunTF
import proofs.«411364_j13013750907089_3_alg».proof.Proof.K.Reg1RunTT
import proofs.«411364_j13013750907089_3_alg».proof.Proof.K.Reg1RunFT

/-! The four runs of the attention body, one per control case (first conditional taken or not, second taken or not):
    `Cert.Kernel.Hand.run_FF`, `run_TF`, `run_TT`, `run_FT`, each in a module of its own. -/
-- ==== Proof.K.Reg1Body.lean ====
import Idealize.ShloMosaic.PureOps.BitExact
import proofs.«411364_j13013750907089_3_alg».proof.Proof.K.Reg1Data
import proofs.«411364_j13013750907089_3_alg».proof.Proof.K.Reg1Runs

/-!
# The attention call: the body meets its obligation at every point

At a point the body finds its three input blocks in place, the tables, and its scratch as the point before left it
(anything, at a point that starts a query tile: it is reset there); it leaves the scratch one update further and, at
the last key tile of a query tile, the normalised block in the output buffer — which at every other point it does
not touch. The output buffer never carries named contents into a point: it was written back, or has been idle since.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

variable (V : (c : Dev nD) → (b : Ref sig .tc) → Buf (Elt 𝔽) ((c : Thread nD τ).loc b))

/-! ## What the body finds in the staging buffers -/

/-- The output window is never fetched. -/
theorem noFetchOut : ∀ t : Fin cfgA.N, (cfgA.win 3).fetch t = false := by decide +kernel

/-- Each input's current staging buffer holds its block at every point, fetched there or not. -/
theorem before1_0 (c : Dev nD) (t : Fin cfgA.N) (d) : (dat1 V c).before 0 t d = iblkA V c 0 t :=
  ((dat1 V c).before_in_eq_fetched 0 rfl (fun _ => rfl) (fun _ _ _ => rfl)
    (fun t => by rw [after1_0]; unfold Dat.blockOf iblkA; rw [A_eq1]; try rfl) t d).trans
    (by unfold Dat.fetched Dat.blockOf iblkA; rw [A_eq1]; try rfl)
theorem before1_1 (c : Dev nD) (t : Fin cfgA.N) (d) : (dat1 V c).before 1 t d = iblkA V c 1 t :=
  ((dat1 V c).before_in_eq_fetched 1 rfl (fun _ => rfl) (fun _ _ _ => rfl)
    (fun t => by rw [after1_1]; unfold Dat.blockOf iblkA; rw [A_eq1]; try rfl) t d).trans
    (by unfold Dat.fetched Dat.blockOf iblkA; rw [A_eq1]; try rfl)
theorem before1_2 (c : Dev nD) (t : Fin cfgA.N) (d) : (dat1 V c).before 2 t d = iblkA V c 2 t :=
  ((dat1 V c).before_in_eq_fetched 2 rfl (fun _ => rfl) (fun _ _ _ => rfl)
    (fun t => by rw [after1_2]; unfold Dat.blockOf iblkA; rw [A_eq1]; try rfl) t d).trans
    (by unfold Dat.fetched Dat.blockOf iblkA; rw [A_eq1]; try rfl)

/-- The output's staging buffer holds nothing named when the body runs: the point before wrote it back, or it has
    been idle since the last write-back. -/
theorem before1_3 (c : Dev nD) : ∀ (n : ℕ) (hn : n < cfgA.N) (d), (dat1 V c).before 3 ⟨n, hn⟩ d = d := by
  intro n
  induction n with
  | zero =>
    intro hn d
    unfold Dat.before
    rw [noFetchOut ⟨0, hn⟩, if_neg Bool.false_ne_true, if_pos rfl]
  | succ n ih =>
    intro hn d
    rw [Dat.before_of_pos _ 3 ⟨n + 1, hn⟩ (Nat.succ_ne_zero n) (noFetchOut _) d]
    split
    · rfl
    · rename_i hfl
      have hl : ¬ cond1_1 (qiW (prev ⟨n + 1, hn⟩)) (kiW (prev ⟨n + 1, hn⟩)) := fun h => hfl ((flushOut_iff _).mpr h)
      have hid := (idleOut_iff (prev ⟨n + 1, hn⟩)).mpr hl
      unfold Dat.left
      rw [show cfgA.idle 3 (cfgA.grid.coords ⟨n + 1 - 1, Nat.lt_of_le_of_lt (Nat.sub_le _ _) hn⟩) = true from hid]
      exact ih (Nat.lt_of_succ_lt hn) d

/-! ## The invariant, opened -/

/-- After a point the invariant names the scratch. -/
theorem PhiS_succ (c : Dev nD) (n : ℕ) (h : n + 1 ≤ cfgA.N) :
    PhiS V c (n + 1) h = iprop(baseA c ∗ owns (c : Thread nD τ) scM fullShare (scAt V c n h).1 ∗ owns (c : Thread nD τ) scL fullShare (scAt V c n h).2.1
      ∗ owns (c : Thread nD τ) scA fullShare (scAt V c n h).2.2) := rfl

/-- Before any point the scratch is held at some contents. -/
theorem PhiS_forget (c : Dev nD) (n : ℕ) (h : n ≤ cfgA.N) :
    PhiS V c n h ⊢ iprop(baseA c ∗ (∃ d, owns (c : Thread nD τ) scM fullShare d) ∗ (∃ d, owns (c : Thread nD τ) scL fullShare d)
      ∗ (∃ d, owns (c : Thread nD τ) scA fullShare d)) := by
  cases n with
  | zero => exact .rfl
  | succ n =>
    rw [PhiS_succ]
    iintro ⟨Hb, HM, HL, HA⟩
    isplitl [Hb]; · iexact Hb
    isplitl [HM]; · iexists _; iexact HM
    isplitl [HL]; · iexists _; iexact HL
    iexists _; iexact HA

/-- Before a point that continues a query tile the scratch holds what the point before left. -/
theorem PhiS_cont (c : Dev nD) (t : Fin cfgA.N) (h : ¬ cond1_0 (kiW t)) :
    PhiS V c t.val (Nat.le_of_lt t.isLt) = iprop(baseA c ∗ owns (c : Thread nD τ) scM fullShare (scAt V c (prev t).val (prev t).isLt).1
      ∗ owns (c : Thread nD τ) scL fullShare (scAt V c (prev t).val (prev t).isLt).2.1
      ∗ owns (c : Thread nD τ) scA fullShare (scAt V c (prev t).val (prev t).isLt).2.2) := by
  obtain ⟨n, hn⟩ := t
  cases n with
  | zero => exact absurd (first_zero ⟨0, hn⟩ rfl) h
  | succ n => rfl

/-! ## The body at a point -/

/-- Each window's current staging memref at point `t`. -/
abbrev msA_0 (t : Fin cfgA.N) : Memref sig .tc .vmem S1x256x1x16x128 .bf16 := spec1_0.stage (cfgA.slots t 0)
abbrev msA_1 (t : Fin cfgA.N) : Memref sig .tc .vmem S1x256x1x16x128 .bf16 := spec1_1.stage (cfgA.slots t 1)
abbrev msA_2 (t : Fin cfgA.N) : Memref sig .tc .vmem S1x256x1x16x128 .bf16 := spec1_2.stage (cfgA.slots t 2)
abbrev msA_3 (t : Fin cfgA.N) : Memref sig .tc .vmem S1x256x16x128 .bf16 := spec1_3.stage (cfgA.slots t 3)

/-- The kernel body at point `t`, on what the pipeline calls it with. -/
abbrev bodyAtA (t : Fin cfgA.N) : Prog (TpuEff nD τ sig (Elt 𝔽) Λ₀ .tc) PUnit :=
  cc1__attn_kernel (grid1.coords t) tbM0 (Memref.isWhole_whole _) tbM1 (Memref.isWhole_whole _)
    (msA_0 t) (hstage1_0 ((cfgA.slots t 0).cast nbuf1_0)) (msA_1 t) (hstage1_1 ((cfgA.slots t 1).cast nbuf1_1))
    (msA_2 t) (hstage1_2 ((cfgA.slots t 2).cast nbuf1_2)) (msA_3 t) (hstage1_3 ((cfgA.slots t 3).cast nbuf1_3))
    scM (Memref.isWhole_whole _) scL (Memref.isWhole_whole _) scA (Memref.isWhole_whole _)

/-- What the body is called with at point `t`, the windows one by one, -/
def bodyPreA (c : Dev nD) (t : Fin cfgA.N) : sProp 𝕄 :=
  iprop((dat1 V c).Φ t.castSucc ∗ (dat1 V c).owesAt () t.castSucc
    ∗ (∃ d, owns (c : Thread nD τ) (msA_0 t) fullShare ((dat1 V c).before 0 t d))
    ∗ (∃ d, owns (c : Thread nD τ) (msA_1 t) fullShare ((dat1 V c).before 1 t d))
    ∗ (∃ d, owns (c : Thread nD τ) (msA_2 t) fullShare ((dat1 V c).before 2 t d))
    ∗ (∃ d, owns (c : Thread nD τ) (msA_3 t) fullShare ((dat1 V c).before 3 t d)))

/-- and what it returns: the output's buffer as found at a point that does not emit, at the normalised block at one
    that does. -/
def bodyPostA (c : Dev nD) (t : Fin cfgA.N) : sProp 𝕄 :=
  iprop((dat1 V c).Φ t.succ ∗ (dat1 V c).owesAt () t.succ
    ∗ owns (c : Thread nD τ) (msA_0 t) fullShare ((dat1 V c).after 0 t)
    ∗ owns (c : Thread nD τ) (msA_1 t) fullShare ((dat1 V c).after 1 t)
    ∗ owns (c : Thread nD τ) (msA_2 t) fullShare ((dat1 V c).after 2 t)
    ∗ (match cfgA.idle 3 (cfgA.grid.coords t) with
        | true =>
          match (cfgA.win 3).flush t with
          | false => iprop(∃ d, owns (c : Thread nD τ) (msA_3 t) fullShare ((dat1 V c).before 3 t d))
          | true => owns (c : Thread nD τ) (msA_3 t) fullShare ((dat1 V c).after 3 t)
        | false => owns (c : Thread nD τ) (msA_3 t) fullShare ((dat1 V c).after 3 t)))

/-- The output's share of the post at a point that does not emit: the buffer at anything. -/
theorem outPost_idle (c : Dev nD) (t : Fin cfgA.N) (h1 : ¬ cond1_1 (qiW t) (kiW t)) (d) :
    owns (c : Thread nD τ) (msA_3 t) fullShare d ⊢ (match cfgA.idle 3 (cfgA.grid.coords t) with
        | true =>
          match (cfgA.win 3).flush t with
          | false => iprop(∃ d, owns (c : Thread nD τ) (msA_3 t) fullShare d)
          | true => owns (c : Thread nD τ) (msA_3 t) fullShare ((dat1 V c).after 3 t)
        | false => owns (c : Thread nD τ) (msA_3 t) fullShare ((dat1 V c).after 3 t) : sProp 𝕄) := by
  have hid := (idleOut_iff t).mpr h1
  have hfl : (cfgA.win 3).flush t = false := Bool.eq_false_iff.mpr fun h => h1 ((flushOut_iff t).mp h)
  split
  · split
    · iintro H; iexists d; iexact H
    · rename_i hf
      exact absurd (hfl.symm.trans hf) (by decide)
  · rename_i hi
    exact absurd (hid.symm.trans hi) (by decide)

/-- The output's share of the post at a point that emits: the buffer at the normalised block. -/
theorem outPost_live (c : Dev nD) (t : Fin cfgA.N) (h1 : cond1_1 (qiW t) (kiW t)) :
    owns (c : Thread nD τ) (msA_3 t) fullShare ((dat1 V c).after 3 t) ⊢ (match cfgA.idle 3 (cfgA.grid.coords t) with
        | true =>
          match (cfgA.win 3).flush t with
          | false => iprop(∃ d, owns (c : Thread nD τ) (msA_3 t) fullShare d)
          | true => owns (c : Thread nD τ) (msA_3 t) fullShare ((dat1 V c).after 3 t)
        | false => owns (c : Thread nD τ) (msA_3 t) fullShare ((dat1 V c).after 3 t) : sProp 𝕄) := by
  have hid : cfgA.idle 3 (cfgA.grid.coords t) = false := Bool.eq_false_iff.mpr fun h => (idleOut_iff t).mp h h1
  split
  · rename_i hi
    exact absurd (hid.symm.trans hi) (by decide)
  · iintro H; iexact H

/-- The output's staging buffer, at any point. -/
theorem before1_3' (c : Dev nD) (t : Fin cfgA.N) (d) : (dat1 V c).before 3 t d = d := before1_3 V c t.val t.isLt d

set_option maxHeartbeats 1600000 in
/-- The body at any point: by the two conditions on the table words, one of the four runs. -/
theorem sound_bodyA (c : Dev nD) (t : Fin cfgA.N) :
    bodyPreA V c t ⊢ wp frame (wpE (defs₀ (F := 𝔽)) Variants.none c none) Set.univ (bodyAtA t) (fun _ => bodyPostA V c t) := by
  unfold bodyPreA bodyPostA
  simp only [before1_0, before1_1, before1_2, before1_3']
  rw [show (dat1 V c).Φ t.castSucc = PhiS V c t.val (Nat.le_of_lt t.isLt) from rfl,
    show (dat1 V c).Φ t.succ = PhiS V c (t.val + 1) t.isLt from rfl,
    show (dat1 V c).owesAt () t.succ = (dat1 V c).owesAt () t.castSucc from rfl,
    after1_0, after1_1, after1_2, PhiS_succ]
  by_cases h0 : cond1_0 (kiW t)
  · by_cases h1 : cond1_1 (qiW t) (kiW t)
    · -- a query tile of one key tile: reset, update, emit
      have hrun := fun K => run_TT (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) Set.univ K
      simp only [word0_eq, word1_eq] at hrun
      have hafter : (dat1 V c).after 3 t = outO (scFresh V c t).2.2 (scFresh V c t).2.1 := by rw [after1_3, scAt_first V c t h0]
      rw [scAt_first V c t h0]
      refine (sep_mono (PhiS_forget V c t.val _) .rfl).trans ?_
      unfold baseA
      iintro ⟨⟨⟨HT0, HT1, Hrest, Hp⟩, ⟨%dm, HM⟩, ⟨%dl, HL⟩, ⟨%da, HA⟩⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexists _; iexact HM
      isplitl [HL]; · iexists _; iexact HL
      isplitl [HA]; · iexists _; iexact HA
      iintro ⟨HT0, HT1, H0, H1, H2, H3, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_live V c t h1)
      rw [hafter]; iexact H3
    · -- a query tile begins: reset and one update; the output buffer is not touched
      have hrun := fun K => run_TF (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) Set.univ K
      simp only [word0_eq, word1_eq] at hrun
      rw [scAt_first V c t h0]
      refine (sep_mono (PhiS_forget V c t.val _) .rfl).trans ?_
      unfold baseA
      iintro ⟨⟨⟨HT0, HT1, Hrest, Hp⟩, ⟨%dm, HM⟩, ⟨%dl, HL⟩, ⟨%da, HA⟩⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexists _; iexact HM
      isplitl [HL]; · iexists _; iexact HL
      isplitl [HA]; · iexists _; iexact HA
      iintro ⟨HT0, HT1, H0, H1, H2, ⟨%d3', H3⟩, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_idle V c t h1 d3')
      iexact H3
  · by_cases h1 : cond1_1 (qiW t) (kiW t)
    · -- the query tile ends: one update of what the point before left, and the normalised block is emitted
      have hrun := fun K => run_FT (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) (scAt V c (prev t).val (prev t).isLt).1 (scAt V c (prev t).val (prev t).isLt).2.1
        (scAt V c (prev t).val (prev t).isLt).2.2 Set.univ K
      simp only [word0_eq, word1_eq] at hrun
      have hafter : (dat1 V c).after 3 t = outO (scNext V c t (scAt V c (prev t).val (prev t).isLt)).2.2 (scNext V c t (scAt V c (prev t).val (prev t).isLt)).2.1 := by
        rw [after1_3, scAt_cont V c t h0]
      rw [PhiS_cont V c t h0, scAt_cont V c t h0]
      unfold baseA
      iintro ⟨⟨⟨HT0, HT1, Hrest, Hp⟩, HM, HL, HA⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨HT0, HT1, H0, H1, H2, H3, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_live V c t h1)
      rw [hafter]; iexact H3
    · -- the query tile goes on: one update of what the point before left; the output buffer is not touched
      have hrun := fun K => run_FF (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) (scAt V c (prev t).val (prev t).isLt).1 (scAt V c (prev t).val (prev t).isLt).2.1
        (scAt V c (prev t).val (prev t).isLt).2.2 Set.univ K
      simp only [word0_eq, word1_eq] at hrun
      rw [PhiS_cont V c t h0, scAt_cont V c t h0]
      unfold scNext baseA
      iintro ⟨⟨⟨HT0, HT1, Hrest, Hp⟩, HM, HL, HA⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨HT0, HT1, H0, H1, H2, ⟨%d3', H3⟩, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_idle V c t h1 d3')
      iexact H3

/-- The library's body obligation, at every point. -/
theorem body_obligationA (c : Dev nD) : BodyObligation (dat1 V c) (defs₀ (F := 𝔽)) Variants.none () Set.univ := fun t => by
  rw [bigSep_W1, bigSep_W1]
  exact sound_bodyA V c t

end Cert.Kernel.Hand

end
-- ==== Proof.K.RunCond.lean ====
import proofs.«411364_j13013750907089_3_alg».proof.Proof.Gen.Kernel.Regions

/-! # The run of the whole program, given the three pipelines' records

The program is three pipelines among stretches of host operations. Given, for each pipeline, a record of its run
entered from and left at the thread states written over the valuations `V1 … V6` of the core's unscoped buffers,
every weakly fair execution from memory `m` with zero counters terminates, and every final memory holds the result
buffer at the last valuation's contents and each argument as launched. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the implicit arguments of the run theorem for a list of segments are found by unifying its conclusion with this
-- one, which takes unfolding plain definitions in a metavariable's type
set_option backward.isDefEq.respectTransparency.types false in
/-- For any user algebra, level assignment, launch dues and ghost resources, any rest states `E` the launch makes on
    every core at once (`hE0`) and that end owing nothing (`hE3`), any contents the pipelines leave (`outs`) and any
    proof data: given, per pipeline K, a record of its run entered from the thread state before it and left at the
    one after it (`RK`, `hpreK`, `hpostK`), every weakly fair execution of the program from memory `m` with zero
    counters terminates, and every final memory holds the result buffer at what the last valuation says and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = V7 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v9) = V7 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c)⟩
    · iexact HSI

end Cert.Kernel.Hand

end
-- ==== Proof.K.Run.lean ====
import Idealize.ShloMosaic.PureOps.BitExact
import proofs.«411364_j13013750907089_3_alg».proof.Proof.K.Seg02
import proofs.«411364_j13013750907089_3_alg».proof.Proof.K.Seg1
import proofs.«411364_j13013750907089_3_alg».proof.Proof.K.Reg1Body
import proofs.«411364_j13013750907089_3_alg».proof.Proof.K.RunCond
import Idealize.ShloMosaic.Lib.Pipeline.Kit
import Idealize.ShloMosaic.Lib.Pipeline.Regions

/-! # The program's run at the exact reals

The three calls' records put together: from any launch memory with zero counters, every weakly fair execution of the
program terminates; every final memory holds each argument as launched, and holds the result buffer at the contents
the fold of the host stretches and the three calls' results gives it. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

/-- The float instance this module is read at. -/
local notation "𝔽" => Bits

local notation "𝕄" => MT nD τ sig Unit (Elt 𝔽) ℕ (UR sig nD τ) ℕ

variable (m : (ℓ : Loc nD τ sig) → Buf (Elt 𝔽) ℓ) (ρ : Dev nD → PrngReg)

/-! ## The launch -/

/-- The launch element: the staging cells of the three pipelines, each at its first tokens. -/
abbrev u₀ : UR sig nD τ :=
  initOf (Pipeline.cells (Pipeline.pin (pcfgs (F := 𝔽)) adm) (cellOf_inj adm)) (Pipeline.launchToks (Pipeline.pin (pcfgs (F := 𝔽)) adm) (cellOf_inj adm))

/-- The launch element is the pipelines' element, and no core gets anything else. -/
theorem hu₀ : (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- What the launch deals a core beside its unscoped buffers makes the state that rides along: the generator register
    at its launch state, and nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lv lv)
      ⊢ (|={Set.univ}=> bigSep Finset.univ (Ek 0) : sProp 𝕄) := by
  refine Pipeline.initEach Lv lv fun c => ?_
  iintro ⟨⟨-, HO, -, Hp, -⟩, -⟩
  imodintro
  isplitl [Hp]; · iexists _; iexact Hp
  iexists ∅; iexact HO

/-- At the end nothing is owed. -/
theorem hE3 (c : Dev nD) : Ek 3 c ⊢ (iprop(∃ W, owes (c : Thread nD τ) (0 : CellTallies nD τ sig Unit) W) : sProp 𝕄) := by
  iintro ⟨-, H⟩; iexact H

/-! ## The run -/

set_option backward.isDefEq.respectTransparency.types false in
/-- Every weakly fair execution of the program from memory `m` with zero counters terminates, and every final memory
    holds each argument as launched. -/
theorem frame_run : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ Lv lv (fun _ _ => rfl) ρ (outs m) adm (pdats m) 0 (fun _ => iprop(emp)) u₀ hu₀ Ek (hE0 ρ) hE3
    (reg0 m) (fun _ => .rfl) (fun _ => .rfl)
    (reg1 m fun c => (body_obligationA (E1 m) c).loose) (fun _ => .rfl) (fun _ => .rfl)
    (reg2 m) (fun _ => .rfl) (fun _ => .rfl)

set_option backward.isDefEq.respectTransparency.types false in
/-- Every weakly fair execution of the program from memory `m` with zero counters terminates, and every final memory
    holds the result buffer at the contents the fold gives it after the last reshape, and each argument as launched. -/
theorem value_run : θ_run defs (onTc (τ := τ) (main (F := 𝔽))) ⟨m, fun _ => 0, ρ⟩ (fun r => ∀ c : Dev nD,
      r.2.mem ((c.tc : Thread nD τ).loc main_v9) = W7 m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (congrFun (V7_eq m c) _), (h c).2⟩)
    (run_cond m emb₁ () 𝒱₀ Lv lv (fun _ _ => rfl) ρ (outs m) adm (pdats m) 0 (fun _ => iprop(emp)) u₀ hu₀ Ek (hE0 ρ) hE3
      (reg0 m) (fun _ => .rfl) (fun _ => .rfl)
      (reg1 m fun c => (body_obligationA (E1 m) c).loose) (fun _ => .rfl) (fun _ => .rfl)
      (reg2 m) (fun _ => .rfl) (fun _ => .rfl))

end Cert.Kernel.Hand

end
-- ==== Proof.KI.Reg0.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 0: a plain matrix product, block by block

The body of pipeline 0 reads its two input blocks whole, multiplies them, and writes the product over
its output block whole. This module states, at any contents `V` of the core's buffers when the
pipeline is entered: the blocks the windows show at a grid point, what the body leaves in the output
block as a function of the two input blocks, the body's triple, the pipeline's proof data, and the
obligation that the body meets the proof data at every grid point. -/

-- membership of an index in a whole-block rectangle is looked at once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at grid point `t`, read off the window's array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging block holds the window's block at every grid point, for any proof data over the
    entry arrays whose body leaves that block as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging block holds the window's block at every grid point — also at the points where the
    block index has not moved and nothing is fetched —, for any proof data over the entry arrays whose body leaves
    that block as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each block whole -/

abbrev r0_0 : Rect S512x2048 := Rect.unit (s := S512x2048) ![0, 0] S512x2048.size inb_S512x2048_S512x2048_0_0
abbrev r0_1 : Rect S2048x2048 := Rect.unit (s := S2048x2048) ![0, 0] S2048x2048.size inb_S2048x2048_S2048x2048_0_0
abbrev r0_2 : Rect S512x2048 := Rect.unit (s := S512x2048) ![0, 0] S512x2048.size inb_S512x2048_S512x2048_0_0

/-! ## What the body leaves in the output block -/

/-- The output block after the body, from the two input blocks: its one whole-block store of the product of the
    two whole-block loads. -/
def out0_2 (x0 : Vec F S512x2048 .bf16) (x1 : Vec F S2048x2048 .bf16) : Vec F S512x2048 .bf16 :=
  View.canon [⟨r0_2, k0_pay1 (View.ld x0 r0_0) (View.ld x1 r0_1)⟩]

/-- The one store is over the whole block, so every index of the block is written. -/
theorem cover0_2 (p0 : Vec F S512x2048 .bf16) (y : S512x2048.Idx) :
    ∃ pc ∈ ([⟨r0_2, p0⟩] : List (View.Piece (Elt F) S512x2048 .bf16)), y ∈ pc.1.set :=
  View.cover_of_tiled [⟨r0_2, p0⟩] S512x2048.size (by rfl) y

/-! ## The body's triple -/

set_option maxHeartbeats 1000000 in
/-- The body on whole blocks, the inputs' holding `x0` and `x1` and the output's holding anything, runs to a state
    where the inputs' blocks are as they were and the output's block is `out0_2 x0 x1`. -/
theorem sound_kernel0 (c : Dev nD) (E : Set ℕ) (i : grid0.Coords) (arg0 : Memref sig .tc .vmem S512x2048 .bf16) (harg0 : arg0.IsWhole) (arg1 : Memref sig .tc .vmem S2048x2048 .bf16) (harg1 : arg1.IsWhole) (arg2 : Memref sig .tc .vmem S512x2048 .bf16) (harg2 : arg2.IsWhole)
    (x0 : Vec F S512x2048 .bf16) (x1 : Vec F S2048x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel i arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays at the entry contents; after the body at point `t` each
    input block as the window shows it and the output block at `out0_2` of the two; the invariant is the untouched
    rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's staging block holds the window's block at every grid point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic grid point -/

/-- What the body is entered with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point: the inputs' staging blocks hold the windows' blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Pipeline 2: a plain matrix product, block by block

The body of pipeline 2 reads its two input blocks whole, multiplies them, and writes the product over
its output block whole. This module states, at any contents `V` of the core's buffers when the
pipeline is entered: the blocks the windows show at a grid point, what the body leaves in the output
block as a function of the two input blocks, the body's triple, the pipeline's proof data, and the
obligation that the body meets the proof data at every grid point. -/

-- membership of an index in a whole-block rectangle is looked at once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the core's buffer contents when the pipeline is entered
variable (V : (c : Dev nD) → (b : Ref sig .tc) → Buf (Elt F) ((c : Thread nD τ).loc b))

/-! ## The windows' blocks -/

/-- Window `w`'s block at grid point `t`, read off the window's array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left factor's staging block holds the window's block at every grid point, for any proof data over the
    entry arrays whose body leaves that block as it found it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right factor's staging block holds the window's block at every grid point — also at the points where the
    block index has not moved and nothing is fetched —, for any proof data over the entry arrays whose body leaves
    that block as it found it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each block whole -/

abbrev r2_0 : Rect S512x2048 := Rect.unit (s := S512x2048) ![0, 0] S512x2048.size inb_S512x2048_S512x2048_0_0
abbrev r2_1 : Rect S1024x2048 := Rect.unit (s := S1024x2048) ![0, 0] S1024x2048.size inb_S1024x2048_S1024x2048_0_0
abbrev r2_2 : Rect S512x1024 := Rect.unit (s := S512x1024) ![0, 0] S512x1024.size inb_S512x1024_S512x1024_0_0

/-! ## What the body leaves in the output block -/

/-- The output block after the body, from the two input blocks: its one whole-block store of the product of the
    two whole-block loads. -/
def out2_2 (x0 : Vec F S512x2048 .bf16) (x1 : Vec F S1024x2048 .bf16) : Vec F S512x1024 .f32 :=
  View.canon [⟨r2_2, k2_pay1 (View.ld x0 r2_0) (View.ld x1 r2_1)⟩]

/-- The one store is over the whole block, so every index of the block is written. -/
theorem cover2_2 (p0 : Vec F S512x1024 .f32) (y : S512x1024.Idx) :
    ∃ pc ∈ ([⟨r2_2, p0⟩] : List (View.Piece (Elt F) S512x1024 .f32)), y ∈ pc.1.set :=
  View.cover_of_tiled [⟨r2_2, p0⟩] S512x1024.size (by rfl) y

/-! ## The body's triple -/

set_option maxHeartbeats 1000000 in
/-- The body on whole blocks, the inputs' holding `x0` and `x1` and the output's holding anything, runs to a state
    where the inputs' blocks are as they were and the output's block is `out2_2 x0 x1`. -/
theorem sound_kernel2 (c : Dev nD) (E : Set ℕ) (i : grid2.Coords) (arg0 : Memref sig .tc .vmem S512x2048 .bf16) (harg0 : arg0.IsWhole) (arg1 : Memref sig .tc .vmem S1024x2048 .bf16) (harg1 : arg1.IsWhole) (arg2 : Memref sig .tc .vmem S512x1024 .f32) (harg2 : arg2.IsWhole)
    (x0 : Vec F S512x2048 .bf16) (x1 : Vec F S1024x2048 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__linear_kernel i arg0 harg0 arg1 harg1 arg2 harg2) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays at the entry contents; after the body at point `t` each
    input block as the window shows it and the output block at `out2_2` of the two; the invariant is the untouched
    rest of the core; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's staging block holds the window's block at every grid point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic grid point -/

/-- What the body is entered with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any grid point: the inputs' staging blocks hold the windows' blocks, so the body's triple applies; the
    invariant and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of pipeline 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg1Defs.lean ====
import proofs.«411364_j13013750907089_3_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F] [Named F]

/-- The first conditional's condition, over the word loaded from the second table: the block index along the
    key axis is zero. -/
abbrev cond1_0 (w3 : BitVec 32) : Prop := Scalar.cmpi .ne (Scalar.extui (Scalar.cmpi .eq w3 0#32)) 0#32 = 1#1

/-- The second conditional's condition, over the two loaded words: the two block indices agree. -/
abbrev cond1_1 (w1 w3 : BitVec 32) : Prop := k1_cond2 w1 w3 = 1#1

/-- The cell of a table of 36 words that the body reads at grid point `i`. -/
abbrev cell (i : grid1.Coords) : S36.Idx :=
  (Rect.unit (s := S36) (k1_off1 i) S1.size (k1_off1_inb i)).toLoadRect.idx (Shape.Idx.first (numel1_S1.symm ▸ Nat.one_pos))

/-- The running maximum after one block of keys. -/
def stepM (w1 w3 : BitVec 32) (q k : Vec F S1x256x1x16x128 .bf16) (m : Vec F S16x256x1 .f32) : Vec F S16x256x1 .f32 :=
  k1_pay11 (k1_pay5 w1 w3 q k) m

/-- The running sum after one block of keys. -/
def stepL (w1 w3 : BitVec 32) (q k : Vec F S1x256x1x16x128 .bf16) (m l : Vec F S16x256x1 .f32) : Vec F S16x256x1 .f32 :=
  k1_pay9 (k1_pay5 w1 w3 q k) m m l

/-- The accumulator after one block of keys and values. -/
def stepA (w1 w3 : BitVec 32) (q k v : Vec F S1x256x1x16x128 .bf16) (m : Vec F S16x256x1 .f32) (a : Vec F S16x256x128 .f32) :
    Vec F S16x256x128 .f32 :=
  k1_pay10 (k1_pay4 v) (k1_pay5 w1 w3 q k) m m a

/-- The output block from the accumulator and the running sum. -/
def outO (a : Vec F S16x256x128 .f32) (l : Vec F S16x256x1 .f32) : Vec F S1x256x16x128 .bf16 := k1_pay12 a l

end Cert.KernelIdeal.Hand

end
-- ==== Proof.KI.Tables.lean ====
import proofs.«411364_j13013750907089_3_alg».proof.Proof.Gen.KernelIdeal.Launch
import proofs.«411364_j13013750907089_3_alg».proof.Proof.Gen.KernelIdeal.Points
import proofs.«411364_j13013750907089_3_alg».proof.Proof.KI.Reg1Defs

/-!
# The attention call's prefetched tables and its schedule

The attention call runs over the pairs `(b, s)`, `b < 2`, `s < 36`; the two prefetched tables list, for each `s`,
the query tile `qi s` and the key tile `ki s` of the `s`-th pair `ki ≤ qi < 8`, the lower triangle row by row.
Everything the pipeline does at a point — which blocks it fetches, whether the output block is written back,
whether the body resets its running statistics (`ki = 0`) or emits a result (`ki = qi`) — is a function of these
two words, and the tables are constants of the program: the facts below are decided over the 72 points.
-/

set_option maxRecDepth 16384

noncomputable section

namespace Cert.KernelIdeal.Hand

open Idealize.ShloMosaic Idealize.ShloMosaic.TcCoe
open Idealize.SL Idealize.SL.Sem
open Cert.KernelIdeal Cert.KernelIdeal.Gen

/-- The float instance this module is read at. -/
local notation "𝔽" => Ideal

/-- The table of query tiles, as the program's constant writes it, -/
def tbl0 : Vec 𝔽 S36 .i32 := fun i => lit0 (S36.rowMajor i)
/-- and the table of key tiles. -/
def tbl1 : Vec 𝔽 S36 .i32 := fun i => lit1 (S36.rowMajor i)

/-- The two tables together. -/
def tbl : pre1.Contents (Elt 𝔽) := fun
  | ⟨0, _⟩ => tbl0
  | ⟨1, _⟩ => tbl1
  | ⟨_ + 2, h⟩ => absurd h (Nat.not_lt.2 (Nat.le_add_left _ _))

/-- Every block the tables name lies inside its array. -/
theorem tbl_ok : ok1 (F := 𝔽) tbl := by decide +kernel

/-- The tables, admissible. -/
def adm1 : (pcfg1 (F := 𝔽)).Adm := ⟨tbl, tbl_ok⟩

/-- The attention pipeline at the program's tables. -/
abbrev cfgA : Pipeline.Cfg sig Λ₀ := cfg1 adm1

/-- It has 72 points. -/
theorem N_A : cfgA.N = 72 := by decide +kernel

/-- The query-tile word the body reads at point `t`, -/
abbrev qiW (t : Fin cfgA.N) : BitVec 32 := (tbl.atD 0 (k1_off1 (cfgA.grid.coords t)) : BitVec 32)
/-- and the key-tile word. -/
abbrev kiW (t : Fin cfgA.N) : BitVec 32 := (tbl.atD 1 (k1_off1 (cfgA.grid.coords t)) : BitVec 32)

/-- The cell the body loads at a point is inside the table, -/
theorem cell_inb (i : grid1.Coords) : ∀ a, k1_off1 i a + 1 ≤ S36.size a := fun a =>
  match a with | ⟨0, _⟩ => k1_off1_inb i 0

/-- so the word the body loads from the first table there (at `cell`) is the word the pipeline's own reading of the table names, -/
theorem word0_eq (i : grid1.Coords) : (tbl0 (cell i) : BitVec 32) = tbl.atD 0 (k1_off1 i) := by
  unfold Pipeline.Prefetch.Contents.atD
  refine Eq.trans ?_ (dif_pos (cell_inb i)).symm
  show tbl0 (cell i) = tbl0 _
  refine congrArg tbl0 ?_
  funext a
  match a with
  | ⟨0, _⟩ => exact Fin.ext (by show k1_off1 i 0 + 1 * 0 = k1_off1 i 0; omega)

/-- and the same for the second table. -/
theorem word1_eq (i : grid1.Coords) : (tbl1 (cell i) : BitVec 32) = tbl.atD 1 (k1_off1 i) := by
  unfold Pipeline.Prefetch.Contents.atD
  refine Eq.trans ?_ (dif_pos (cell_inb i)).symm
  show tbl1 (cell i) = tbl1 _
  refine congrArg tbl1 ?_
  funext a
  match a with
  | ⟨0, _⟩ => exact Fin.ext (by show k1_off1 i 0 + 1 * 0 = k1_off1 i 0; omega)

/-- The point before `t` (the first point is its own). -/
abbrev prev (t : Fin cfgA.N) : Fin cfgA.N := ⟨t.val - 1, Nat.lt_of_le_of_lt (Nat.sub_le _ _) t.isLt⟩

/-- The output block is written back exactly at the points that emit it (`ki = qi`). -/
theorem flushOut_iff : ∀ t : Fin cfgA.N, (cfgA.win 3).flush t = true ↔ cond1_1 (qiW t) (kiW t) := by decide +kernel

/-- The output window is idle exactly at the points that do not emit. -/
theorem idleOut_iff : ∀ t : Fin cfgA.N, cfgA.idle 3 (cfgA.grid.coords t) = true ↔ ¬ cond1_1 (qiW t) (kiW t) := by decide +kernel

/-- The input windows are never idle. -/
theorem liveIn : ∀ t : Fin cfgA.N, cfgA.idle 0 (cfgA.grid.coords t) = false ∧ cfgA.idle 1 (cfgA.grid.coords t) = false ∧ cfgA.idle 2 (cfgA.grid.coords t) = false := by decide +kernel

/-- The very first point starts a query tile (`ki = 0`). -/
theorem first_zero : ∀ t : Fin cfgA.N, t.val = 0 → cond1_0 (kiW t) := by decide +kernel

/-- A point that does not start a query tile continues the one of the point before it: same query tile, the next
    key tile, the same batch element; and the point before did not emit. -/
theorem cont_prev : ∀ t : Fin cfgA.N, ¬ cond1_0 (kiW t) → 0 < t.val
    ∧ qiW (prev t) = qiW t ∧ (kiW (prev t)).toNat + 1 = (kiW t).toNat
    ∧ (cfgA.grid.coords (prev t) 0).val = (cfgA.grid.coords t 0).val
    ∧ ¬ cond1_1 (qiW (prev t)) (kiW (prev t)) := by decide +kernel

/-- The words are tile numbers: `ki ≤ qi < 8`; a point starts its query tile iff `ki = 0` and ends it iff `ki = qi`. -/
theorem words_range : ∀ t : Fin cfgA.N, (kiW t).toNat ≤ (qiW t).toNat ∧ (qiW t).toNat < 8
    ∧ (cond1_0 (kiW t) ↔ (kiW t).toNat = 0) ∧ (cond1_1 (qiW t) (kiW t) ↔ (kiW t).toNat = (qiW t).toNat) := by decide +kernel

end Cert.KernelIdeal.Hand

end
-- ==== Proof.KI.Reg1Data.lean ====
import proofs.«411364_j13013750907089_3_alg».proof.Proof.KI.Tables
import Idealize.ShloMosaic.Lib.Pipeline.FrameBody
import Idealize.ShloMosaic.Lib.Pipeline.FrameSuffix
import Idealize.ShloMosaic.Lib.Ring
import Idealize.ShloMosaic.Lib.Tactic

/-!
# The attention call: what its buffers hold, point by point

At point `t` the body is handed the query block of tile `qi t`, the key and value blocks of tile `ki t` (three
windows on the one projection array), its three scratch buffers — the running row maximum, the running row sum and
the unnormalised output, carried from point to point — and the output block, which it stores only at the last key
tile of a query tile. `scAt n` is what the scratch holds after point `n`: the update of what point `n - 1` left,
or, at a point that starts a query tile, of the fresh values `-∞, 0, 0`.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

-- the TensorCore's buffer contents when the attention call is entered
variable (V : (c : Dev nD) → (b : Ref sig .tc) → Buf (Elt 𝔽) ((c : Thread nD τ).loc b))

/-- Window `w`'s block at point `t`, read off its array as the call finds it. -/
def iblkA (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef spec1 w))

/-- The query, key and value blocks at point `t`, at their literal type. -/
abbrev qBlk (c : Dev nD) (t : Fin cfgA.N) : Vec 𝔽 S1x256x1x16x128 .bf16 := iblkA V c 0 t
abbrev kBlk (c : Dev nD) (t : Fin cfgA.N) : Vec 𝔽 S1x256x1x16x128 .bf16 := iblkA V c 1 t
abbrev vBlk (c : Dev nD) (t : Fin cfgA.N) : Vec 𝔽 S1x256x1x16x128 .bf16 := iblkA V c 2 t

/-- The scratch after a point that starts a query tile: one update of the fresh values. -/
def scFresh (c : Dev nD) (t : Fin cfgA.N) : Vec 𝔽 S16x256x1 .f32 × Vec 𝔽 S16x256x1 .f32 × Vec 𝔽 S16x256x128 .f32 :=
  (stepM (qiW t) (kiW t) (qBlk V c t) (kBlk V c t) (k1_pay1 (F := 𝔽)),
   stepL (qiW t) (kiW t) (qBlk V c t) (kBlk V c t) (k1_pay1 (F := 𝔽)) (k1_pay2 (F := 𝔽)),
   stepA (qiW t) (kiW t) (qBlk V c t) (kBlk V c t) (vBlk V c t) (k1_pay1 (F := 𝔽)) (k1_pay3 (F := 𝔽)))

/-- The scratch after a point that continues a query tile: one update of what the point before left. -/
def scNext (c : Dev nD) (t : Fin cfgA.N) (p : Vec 𝔽 S16x256x1 .f32 × Vec 𝔽 S16x256x1 .f32 × Vec 𝔽 S16x256x128 .f32) :
    Vec 𝔽 S16x256x1 .f32 × Vec 𝔽 S16x256x1 .f32 × Vec 𝔽 S16x256x128 .f32 :=
  (stepM (qiW t) (kiW t) (qBlk V c t) (kBlk V c t) p.1,
   stepL (qiW t) (kiW t) (qBlk V c t) (kBlk V c t) p.1 p.2.1,
   stepA (qiW t) (kiW t) (qBlk V c t) (kBlk V c t) (vBlk V c t) p.1 p.2.2)

/-- What the three scratch buffers (maximum, sum, unnormalised output) hold after point `n`. -/
def scAt (c : Dev nD) : (n : ℕ) → n < cfgA.N → Vec 𝔽 S16x256x1 .f32 × Vec 𝔽 S16x256x1 .f32 × Vec 𝔽 S16x256x128 .f32
  | 0, hn => scFresh V c ⟨0, hn⟩
  | n + 1, hn =>
    if cond1_0 (kiW ⟨n + 1, hn⟩) then scFresh V c ⟨n + 1, hn⟩
    else scNext V c ⟨n + 1, hn⟩ (scAt c n (Nat.lt_of_succ_lt hn))

/-- At a point that starts a query tile: the fresh update. -/
theorem scAt_first (c : Dev nD) (t : Fin cfgA.N) (h : cond1_0 (kiW t)) : scAt V c t.val t.isLt = scFresh V c t := by
  obtain ⟨n, hn⟩ := t
  cases n with
  | zero => rfl
  | succ n => exact if_pos h

/-- At a point that continues one: the update of what the point before left. -/
theorem scAt_cont (c : Dev nD) (t : Fin cfgA.N) (h : ¬ cond1_0 (kiW t)) :
    scAt V c t.val t.isLt = scNext V c t (scAt V c (prev t).val (prev t).isLt) := by
  obtain ⟨n, hn⟩ := t
  cases n with
  | zero => exact absurd (first_zero ⟨0, hn⟩ rfl) h
  | succ n => exact if_neg h

/-- The scratch operands as memrefs. -/
abbrev scM : Memref sig .tc .vmem S16x256x1 .f32 := Memref.whole cc1_scratch0
abbrev scL : Memref sig .tc .vmem S16x256x1 .f32 := Memref.whole cc1_scratch1
abbrev scA : Memref sig .tc .vmem S16x256x128 .f32 := Memref.whole cc1_scratch2

/-- The two tables as memrefs. -/
abbrev tbM0 : Memref sig .tc .smem S36 .i32 := Memref.whole main_c
abbrev tbM1 : Memref sig .tc .smem S36 .i32 := Memref.whole main_c_0

/-- The scoped buffers of the core that belong to the other two calls, each whole at some contents. -/
def restA (c : Dev nD) : sProp 𝕄 :=
  iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg1_1), ((c : Thread nD τ).loc cc0_stg1_1) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg2_1), ((c : Thread nD τ).loc cc0_stg2_1) ↦{fullShare} f) ∗ (∃ f : Buf (Elt 𝔽) ((c : Thread nD τ).loc cc2_stg0_0), ((c : Thread nD τ).loc cc2_stg0_0) ↦{fullShare} f) ∗ (∃ f : Buf (Elt 𝔽) ((c : Thread nD τ).loc cc2_stg0_1), ((c : Thread nD τ).loc cc2_stg0_1) ↦{fullShare} f) ∗ (∃ f : Buf (Elt 𝔽) ((c : Thread nD τ).loc cc2_stg1_0), ((c : Thread nD τ).loc cc2_stg1_0) ↦{fullShare} f) ∗ (∃ f : Buf (Elt 𝔽) ((c : Thread nD τ).loc cc2_stg1_1), ((c : Thread nD τ).loc cc2_stg1_1) ↦{fullShare} f) ∗ (∃ f : Buf (Elt 𝔽) ((c : Thread nD τ).loc cc2_stg2_0), ((c : Thread nD τ).loc cc2_stg2_0) ↦{fullShare} f) ∗ (∃ f : Buf (Elt 𝔽) ((c : Thread nD τ).loc cc2_stg2_1), ((c : Thread nD τ).loc cc2_stg2_1) ↦{fullShare} f))

/-- What rides through every point: the two tables held whole at their contents, the other calls' scoped buffers, the
    generator register. -/
def baseA (c : Dev nD) : sProp 𝕄 :=
  iprop(owns (c : Thread nD τ) tbM0 fullShare tbl0 ∗ owns (c : Thread nD τ) tbM1 fullShare tbl1
    ∗ restA c ∗ (∃ r, prngReg c r))

/-- The body's invariant before point `n`: at the first point the scratch holds anything; afterwards what the point
    before left. -/
def PhiS (c : Dev nD) : (n : ℕ) → n ≤ cfgA.N → sProp 𝕄
  | 0, _ => iprop(baseA c ∗ (∃ d, owns (c : Thread nD τ) scM fullShare d) ∗ (∃ d, owns (c : Thread nD τ) scL fullShare d)
      ∗ (∃ d, owns (c : Thread nD τ) scA fullShare d))
  | n + 1, h => iprop(baseA c ∗ owns (c : Thread nD τ) scM fullShare (scAt V c n h).1 ∗ owns (c : Thread nD τ) scL fullShare (scAt V c n h).2.1
      ∗ owns (c : Thread nD τ) scA fullShare (scAt V c n h).2.2)

/-- The input windows split the projection array's full share three ways. -/
def shareA : Fin cfgA.W → PosShare TreeShare
  | ⟨0, _⟩ => fullShare.left
  | ⟨1, _⟩ => fullShare.right.left
  | ⟨2, _⟩ => fullShare.right.right
  | ⟨_ + 3, _⟩ => fullShare

/-- The proof data of the attention call on core `c`: the arrays as the call finds them; after the body each input's
    buffer at its block, the output's (at the points that emit) at the normalised accumulator; the invariant `PhiS`;
    nothing owed. -/
def dat1 (c : Dev nD) : Dat τ (Elt 𝔽) Unit ℕ (UR sig nD τ) ℕ cfgA c where
  A w := V c (Pipeline.arrRef spec1 w)
  after w t := match w with
    | ⟨0, _⟩ => iblkA V c 0 t
    | ⟨1, _⟩ => iblkA V c 1 t
    | ⟨2, _⟩ => iblkA V c 2 t
    | ⟨3, _⟩ => outO (scAt V c t.val t.isLt).2.2 (scAt V c t.val t.isLt).2.1
  Φ t := PhiS V c t.val (Nat.le_of_lt_succ t.isLt)
  q := shareA
  owed _ := 0

theorem A_eq1 (c : Dev nD) (w : Fin cfgA.W) : (dat1 V c).A w = V c (Pipeline.arrRef spec1 w) := by dsimp only [dat1]
theorem after1_0 (c : Dev nD) (t : Fin cfgA.N) : (dat1 V c).after 0 t = iblkA V c 0 t := by dsimp only [dat1]
theorem after1_1 (c : Dev nD) (t : Fin cfgA.N) : (dat1 V c).after 1 t = iblkA V c 1 t := by dsimp only [dat1]
theorem after1_2 (c : Dev nD) (t : Fin cfgA.N) : (dat1 V c).after 2 t = iblkA V c 2 t := by dsimp only [dat1]
theorem after1_3 (c : Dev nD) (t : Fin cfgA.N) :
    (dat1 V c).after 3 t = outO (scAt V c t.val t.isLt).2.2 (scAt V c t.val t.isLt).2.1 := by dsimp only [dat1]

end Cert.KernelIdeal.Hand

end
-- ==== Proof.KI.RunData.lean ====
import proofs.«411364_j13013750907089_3_alg».proof.Proof.KI.Reg0
import proofs.«411364_j13013750907089_3_alg».proof.Proof.KI.Reg2
import proofs.«411364_j13013750907089_3_alg».proof.Proof.KI.Reg1Data
import proofs.«411364_j13013750907089_3_alg».proof.Proof.Gen.KernelIdeal.Regions

/-!
# The three calls in sequence: what each is entered with and what it leaves

The program converts and reshapes its arguments, runs the fused projection (call 0, result `main_v4`), reshapes, runs
the attention (call 1, result `main_v6`), reshapes, runs the output projection (call 2, result `main_v8`) and reshapes
once more. The buffer contents between the items are a fold from the launch memory: a host stretch applies its
operations, a call replaces its result array by what its write-backs leave and changes nothing else.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

variable (m : (ℓ : Loc nD τ sig) → Buf (Elt 𝔽) ℓ)

/-- What call 0 is entered with: the launch memory after the first host stretch. -/
abbrev E0 (c : Dev nD) (b : Ref sig .tc) : Buf (Elt 𝔽) ((c : Thread nD τ).loc b) := Gen.V1 m c b

/-- Call 0's result array after its write-backs. -/
def o4 (c : Dev nD) : Buf (Elt 𝔽) ((c : Thread nD τ).loc main_v4) := (dat0 (F := 𝔽) (E0 m) c).arrAt 2 cfg0.N

/-- The buffers after call 0, -/
def W2 (c : Dev nD) : Valuation τ sig (Elt 𝔽) := Function.update (Gen.V1 m c) main_v4 (o4 m c)
/-- after the reshape that follows it: what call 1 is entered with. -/
def W3 (c : Dev nD) : Valuation τ sig (Elt 𝔽) := StableHlo.after hostOps1 (W2 m c)
abbrev E1 (c : Dev nD) (b : Ref sig .tc) : Buf (Elt 𝔽) ((c : Thread nD τ).loc b) := W3 m c b

/-- Call 1's result array after its write-backs. -/
def o6 (c : Dev nD) : Buf (Elt 𝔽) ((c : Thread nD τ).loc main_v6) := (dat1 (E1 m) c).arrAt 3 cfgA.N

/-- The buffers after call 1, -/
def W4 (c : Dev nD) : Valuation τ sig (Elt 𝔽) := Function.update (W3 m c) main_v6 (o6 m c)
/-- after the reshape that follows it: what call 2 is entered with. -/
def W5 (c : Dev nD) : Valuation τ sig (Elt 𝔽) := StableHlo.after hostOps2 (W4 m c)
abbrev E2 (c : Dev nD) (b : Ref sig .tc) : Buf (Elt 𝔽) ((c : Thread nD τ).loc b) := W5 m c b

/-- Call 2's result array after its write-backs. -/
def o8 (c : Dev nD) : Buf (Elt 𝔽) ((c : Thread nD τ).loc main_v8) := (dat2 (F := 𝔽) (E2 m) c).arrAt 2 cfg2.N

/-- The buffers after call 2, and after the last reshape. -/
def W6 (c : Dev nD) : Valuation τ sig (Elt 𝔽) := Function.update (W5 m c) main_v8 (o8 m c)
def W7 (c : Dev nD) : Valuation τ sig (Elt 𝔽) := StableHlo.after hostOps3 (W6 m c)

/-- What the three calls leave in their result arrays, as one table keyed by the array (any other key: the launch
    contents, never read). -/
def outs : Gen.Outs (F := 𝔽) := fun _ r c =>
  if h4 : r = main_v4 then h4 ▸ o4 m c
  else if h6 : r = main_v6 then h6 ▸ o6 m c
  else if h8 : r = main_v8 then h8 ▸ o8 m c
  else m ((c : Thread nD τ).loc r)

theorem outs_v4 (J : ℕ) (c : Dev nD) : outs m J main_v4 c = o4 m c := dif_pos rfl
theorem outs_v6 (J : ℕ) (c : Dev nD) : outs m J main_v6 c = o6 m c := (dif_neg (by decide)).trans (dif_pos rfl)
theorem outs_v8 (J : ℕ) (c : Dev nD) : outs m J main_v8 c = o8 m c :=
  (dif_neg (by decide)).trans ((dif_neg (by decide)).trans (dif_pos rfl))

/-- The generated fold at these results is this module's. -/
theorem V2_eq (c : Dev nD) : Gen.V2 m (outs m) c = W2 m c := by unfold W2; simp only [Gen.V2, outs_v4]
theorem V3_eq (c : Dev nD) : Gen.V3 m (outs m) c = W3 m c := by
  unfold W3; exact congrArg (StableHlo.after hostOps1) (V2_eq m c)
theorem V4_eq (c : Dev nD) : Gen.V4 m (outs m) c = W4 m c := by
  unfold W4
  show Function.update (Gen.V3 m (outs m) c) main_v6 (outs m 4 main_v6 c) = _
  rw [V3_eq, outs_v6]
theorem V5_eq (c : Dev nD) : Gen.V5 m (outs m) c = W5 m c := by
  unfold W5; exact congrArg (StableHlo.after hostOps2) (V4_eq m c)
theorem V6_eq (c : Dev nD) : Gen.V6 m (outs m) c = W6 m c := by
  unfold W6
  show Function.update (Gen.V5 m (outs m) c) main_v8 (outs m 6 main_v8 c) = _
  rw [V5_eq, outs_v8]
theorem V7_eq (c : Dev nD) : Gen.V7 m (outs m) c = W7 m c := by
  unfold W7; exact congrArg (StableHlo.after hostOps3) (V6_eq m c)

/-- The tables each call's pipeline is pinned at: only the attention call has any. -/
def adm : (p : Fin 3) → (pcfgs (F := 𝔽) p).Adm
  | ⟨0, _⟩ => cfg0.toPCfg_adm
  | ⟨1, _⟩ => adm1
  | ⟨2, _⟩ => cfg2.toPCfg_adm
  | ⟨_ + 3, h⟩ => absurd h (Nat.not_lt.2 (Nat.le_add_left _ _))

/-- Every call's proof data, each at what the call is entered with. -/
def pdats : (p : Fin 3) → (c : Dev nD) → Dat τ (Elt 𝔽) Unit ℕ (UR sig nD τ) ℕ (Pipeline.pin (pcfgs (F := 𝔽)) adm p) c
  | ⟨0, _⟩ => fun c => dat0 (F := 𝔽) (E0 m) c
  | ⟨1, _⟩ => fun c => dat1 (E1 m) c
  | ⟨2, _⟩ => fun c => dat2 (F := 𝔽) (E2 m) c
  | ⟨_ + 3, h⟩ => absurd h (Nat.not_lt.2 (Nat.le_add_left _ _))

/-- No core owes another anything: no level is assigned. -/
abbrev 𝒱₀ : Variants := Variants.none
abbrev Lv : GSem nD τ sig → Finset Unit := fun _ => ∅
abbrev lv : GSem nD τ sig → Unit → ℕ := fun _ _ => 0

/-- What rides beside the buffers through every item: the generator register at some state, and nothing owed. -/
abbrev Rd (c : Dev nD) : sProp 𝕄 := iprop((∃ r, prngReg c r) ∗ ∃ W, owes (c : Thread nD τ) (0 : CellTallies nD τ sig Unit) W)
abbrev Ek : Fin 4 → Dev nD → sProp 𝕄 := fun _ c => Rd c

end Cert.KernelIdeal.Hand

end
-- ==== Proof.KI.Seg02.lean ====
import proofs.«411364_j13013750907089_3_alg».proof.Proof.KI.RunData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The two projection calls as items of the program's run

Each of the two matrix-product calls, as a record of its run over the thread state "every unscoped buffer at the
contents between two items, the generator register at some state, nothing owed": entered from the contents before
the call, left at the contents after it, which differ only at the call's result array. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

variable (m : (ℓ : Loc nD τ sig) → Buf (Elt 𝔽) ℓ)

/-! ## Call 0 among the core's buffers -/

/-- After call 0 each of its arrays holds what the pipeline leaves there: the inputs what they held, the result its
    write-backs. -/
theorem hF0 (c : Dev nD) (w : Fin cfg0.W) :
    (dat0 (F := 𝔽) (E0 m) c).arrAt w cfg0.N = W2 m c (Pipeline.arrRef spec0 w) := by
  unfold W2
  match w with
  | ⟨0, _⟩ =>
    exact ((dat0 (F := 𝔽) (E0 m) c).arrAt_in 0 rfl _).trans ((A_eq0 (E0 m) c 0).trans
      (Function.update_of_ne (StableHlo.devRef_ne_of_ne (by decide)) _ _).symm)
  | ⟨1, _⟩ =>
    exact ((dat0 (F := 𝔽) (E0 m) c).arrAt_in 1 rfl _).trans ((A_eq0 (E0 m) c 1).trans
      (Function.update_of_ne (StableHlo.devRef_ne_of_ne (by decide)) _ _).symm)
  | ⟨2, _⟩ =>
    exact (Function.update_self (Proc.devRef .tc main_v4 : DevRef τ sig) (o4 m c) (Gen.V1 m c)).symm

/-- Call 0 changes no buffer but its arrays'. -/
theorem hrest0 (c : Dev nD) : ∀ b, b ∉ Finset.univ.image (Pipeline.arrRef spec0) → W2 m c b = E0 m c b := fun b hb => by
  unfold W2
  exact Function.update_of_ne (StableHlo.devRef_ne_of_ne fun e =>
    hb (Finset.mem_image.mpr ⟨2, Finset.mem_univ _, (show Pipeline.arrRef spec0 2 = main_v4 from rfl).trans e.symm⟩)) _ _

-- applying a library lemma stated over the pinned configuration takes unfolding plain definitions in a
-- metavariable's type
set_option backward.isDefEq.respectTransparency.types false in
/-- Call 0 over the thread state: entered from every unscoped buffer at the contents before it, left with them at
    the contents after it. Its arrays are split out of the unscoped buffers at entry and put back at exit; the
    generator register goes into the pipeline's invariant and comes out; nothing is owed; the kernel has no semaphore
    of its own. -/
def reg0 : Pipeline.RegionSeg (pcfgs (F := 𝔽)) adm (pdats m) () defs₀ 𝒱₀ Lv lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (E0 m) c).loose
  hwaits := Pipeline.hwaits_of_owed_zero _ _ _ _ Lv lv 0 fun _ _ => rfl
  pre c := iprop(StableHlo.held (c : Thread nD τ) (Pipeline.ucRefs τ sig) (Gen.V1 m c) ∗ Ek 0 c)
  post c := iprop(StableHlo.held (c : Thread nD τ) (Pipeline.ucRefs τ sig) (Gen.V2 m (outs m) c) ∗ Ek 1 c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := 𝔽)) adm (pdats m) (launch0 (F := 𝔽)).win (launch0 (F := 𝔽)).arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m) ((pdats m 0 c).share_full fun _ => rfl)
      (E0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Call 2 among the core's buffers -/

/-- After call 2 each of its arrays holds what the pipeline leaves there: the inputs what they held, the result its
    write-backs. -/
theorem hF2 (c : Dev nD) (w : Fin cfg2.W) :
    (dat2 (F := 𝔽) (E2 m) c).arrAt w cfg2.N = W6 m c (Pipeline.arrRef spec2 w) := by
  unfold W6
  match w with
  | ⟨0, _⟩ =>
    exact ((dat2 (F := 𝔽) (E2 m) c).arrAt_in 0 rfl _).trans ((A_eq2 (E2 m) c 0).trans
      (Function.update_of_ne (StableHlo.devRef_ne_of_ne (by decide)) _ _).symm)
  | ⟨1, _⟩ =>
    exact ((dat2 (F := 𝔽) (E2 m) c).arrAt_in 1 rfl _).trans ((A_eq2 (E2 m) c 1).trans
      (Function.update_of_ne (StableHlo.devRef_ne_of_ne (by decide)) _ _).symm)
  | ⟨2, _⟩ =>
    exact (Function.update_self (Proc.devRef .tc main_v8 : DevRef τ sig) (o8 m c) (W5 m c)).symm

/-- Call 2 changes no buffer but its arrays'. -/
theorem hrest2 (c : Dev nD) : ∀ b, b ∉ Finset.univ.image (Pipeline.arrRef spec2) → W6 m c b = E2 m c b := fun b hb => by
  unfold W6
  exact Function.update_of_ne (StableHlo.devRef_ne_of_ne fun e =>
    hb (Finset.mem_image.mpr ⟨2, Finset.mem_univ _, (show Pipeline.arrRef spec2 2 = main_v8 from rfl).trans e.symm⟩)) _ _

-- applying a library lemma stated over the pinned configuration takes unfolding plain definitions in a
-- metavariable's type
set_option backward.isDefEq.respectTransparency.types false in
/-- Call 2 over the thread state: entered from every unscoped buffer at the contents before it, left with them at
    the contents after it. Its arrays are split out of the unscoped buffers at entry and put back at exit; the
    generator register goes into the pipeline's invariant and comes out; nothing is owed; the kernel has no semaphore
    of its own. -/
def reg2 : Pipeline.RegionSeg (pcfgs (F := 𝔽)) adm (pdats m) () defs₀ 𝒱₀ Lv lv 2 where
  win := (launch2 (F := 𝔽)).win.to₀
  block_pos := (launch2 (F := 𝔽)).block_pos
  stage_whole := (launch2 (F := 𝔽)).stage_whole
  K := PEmpty
  osem k := k.elim
  ho := Pipeline.OwnSemFacts.none _
  hbody c := (body_obligation2 (F := 𝔽) (E2 m) c).loose
  hwaits := Pipeline.hwaits_of_owed_zero _ _ _ _ Lv lv 2 fun _ _ => rfl
  pre c := iprop(StableHlo.held (c : Thread nD τ) (Pipeline.ucRefs τ sig) (Gen.V5 m (outs m) c) ∗ Ek 2 c)
  post c := iprop(StableHlo.held (c : Thread nD τ) (Pipeline.ucRefs τ sig) (Gen.V6 m (outs m) c) ∗ Ek 3 c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none, V5_eq]
    have hsplit := Pipeline.arrays_of_unscopedBufs (p := 2) (pcfgs (F := 𝔽)) adm (pdats m) (launch2 (F := 𝔽)).win (launch2 (F := 𝔽)).arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := 𝔽)) adm (Ix := Unit) (Name := ℕ) (U := UR sig nD τ) (Lvl := ℕ)
      (launch2 (F := 𝔽)).win (launch2 (F := 𝔽)).arr_whole c (pdats m) ((pdats m 2 c).share_full fun _ => rfl)
      (E2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.TblVals.lean ====
import proofs.«411364_j13013750907089_3_alg».proof.Proof.Gen.KernelIdeal.Regions
import Idealize.ShloMosaic.Lib.StableHlo.Run

/-!
# The two tables when the attention call starts

The attention call's two prefetched tables are constants of the program, written by the first host stretch; neither
the projection call nor the reshape after it touches them. So when the attention call starts they hold the
program's two literal tables.
-/

noncomputable section

namespace Cert.KernelIdeal.TblVals

open Idealize.ShloMosaic Idealize.ShloMosaic.TcCoe Idealize.SL.Sem Idealize.ShloMosaic.StableHlo
open Cert.KernelIdeal Cert.KernelIdeal.Gen

/-- The float instance this module is read at. -/
local notation "𝔽" => Ideal

variable (m : (ℓ : Loc nD τ sig) → Buf (Elt 𝔽) ℓ) (outs : Outs (F := 𝔽)) (c : Dev nD)

/-- The table of query tiles when the attention call starts is the program's first constant, -/
theorem tbl0_eq : (V3 m outs c main_c : S36.Idx → BitVec 32) = fun i => lit0 (S36.rowMajor i) := by
  refine (V3_of m outs c main_c (by decide)).trans <| (V2_of m outs c main_c (by decide)).trans ?_
  show StableHlo.after hostOps0 (V0 m c) (Proc.devRef .tc main_c) = _
  after_results
  rfl

/-- and the table of key tiles its second. -/
theorem tbl1_eq : (V3 m outs c main_c_0 : S36.Idx → BitVec 32) = fun i => lit1 (S36.rowMajor i) := by
  refine (V3_of m outs c main_c_0 (by decide)).trans <| (V2_of m outs c main_c_0 (by decide)).trans ?_
  show StableHlo.after hostOps0 (V0 m c) (Proc.devRef .tc main_c_0) = _
  after_results
  rfl

end Cert.KernelIdeal.TblVals

end
-- ==== Proof.KI.Seg1.lean ====
import proofs.«411364_j13013750907089_3_alg».proof.Proof.KI.RunData
import proofs.«411364_j13013750907089_3_alg».proof.Proof.KI.TblVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The attention call as an item of the program's run

The attention call, as a record of its run over the thread state "every unscoped buffer at the contents between two
items, the generator register at some state, nothing owed". Its three input windows stage blocks of the one
projection array, so that array's full share is dealt three ways at entry and put together again at exit; its two
prefetched tables, the program's constants, go into the body's invariant and come back out of it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

/-! ## The call's arrays, tables and scoped buffers, one by one -/

section
variable (V : (c : Dev nD) → (b : Ref sig .tc) → Buf (Elt 𝔽) ((c : Thread nD τ).loc b))

/-- The shares the four windows hold their arrays at. -/
theorem share1_0 (c : Dev nD) : (dat1 V c).share 0 = fullShare.left := rfl
theorem share1_1 (c : Dev nD) : (dat1 V c).share 1 = fullShare.right.left := rfl
theorem share1_2 (c : Dev nD) : (dat1 V c).share 2 = fullShare.right.right := rfl
theorem share1_3 (c : Dev nD) : (dat1 V c).share 3 = fullShare := rfl

/-- The windows' arrays: the projection array three times, each input window at its share, and the result array whole. -/
theorem arrays_eq1 (c : Dev nD) (Fa : (w : Fin cfgA.W) → Buf (Elt 𝔽) ((cfgA.win w).arr.view.loc (c.tc : Thread nD τ))) :
    ((dat1 V c).arrays Fa : sProp 𝕄)
      = iprop((((c : Thread nD τ).loc main_v5) ↦{fullShare.left} Fa 0) ∗ (((c : Thread nD τ).loc main_v5) ↦{fullShare.right.left} Fa 1)
          ∗ (((c : Thread nD τ).loc main_v5) ↦{fullShare.right.right} Fa 2) ∗ (((c : Thread nD τ).loc main_v6) ↦{fullShare} Fa 3)) := by
  have harr : ∀ w, (cfgA.spec w).arr.IsWhole := arr_whole1
  have h1 : ((dat1 V c).arrays Fa : sProp 𝕄)
      = bigSep Finset.univ fun w : Fin 4 => (((c : Thread nD τ).loc (Pipeline.arrRef cfgA.spec w)) ↦{(dat1 V c).share w} Fa w : sProp 𝕄) := by
    unfold Dat.arrays
    exact bigSep_congr fun w _ => by rw [(harr w).set_eq_univ]
  rw [h1]
  refine (bigSep_W1 _).trans ?_
  rw [share1_0, share1_1, share1_2, share1_3]

end

/-- The buffers behind the four windows' arrays are two. -/
theorem img1 : (Finset.univ.image (Pipeline.arrRef spec1)) = ({main_v5, main_v6} : Finset (Ref sig .tc)) := by decide

/-- Those two, each whole at the full share. -/
theorem arrBufs_eq1 (c : Dev nD) (W : (b : Ref sig .tc) → Buf (Elt 𝔽) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)) := by
  unfold Pipeline.arrBufs
  rw [img1, bigSep_insert (by decide), bigSep_singleton]
  rfl

/-- The two prefetched tables, one by one. -/
theorem prefHeld_eq1 (c : Dev nD) (q : Fin pre1.K → PosShare TreeShare) (T : pre1.Contents (Elt 𝔽)) :
    (Pipeline.prefHeld (Ix := Unit) (Name := ℕ) (U := UR sig nD τ) (Lvl := ℕ) pre1 c q T : sProp 𝕄)
      = iprop((((c : Thread nD τ).loc main_c) ↦{q 0} T 0) ∗ (((c : Thread nD τ).loc main_c_0) ↦{q 1} T 1)) := by
  unfold Pipeline.prefHeld
  refine (bigSep_univ_eq_bigSepL [(0 : Fin 2), (1 : Fin 2)] (by decide) (by decide) _).trans ?_
  rfl

variable (m : (ℓ : Loc nD τ sig) → Buf (Elt 𝔽) ℓ)

/-- When the call starts the two tables hold the program's constants. -/
theorem tblA_eq (c : Dev nD) : (fun k => E1 m c (pre1.ref k)) = tbl := by
  funext k
  match k with
  | ⟨0, _⟩ => exact (congrFun (V3_eq m c) (Proc.devRef .tc main_c)).symm.trans (TblVals.tbl0_eq m (outs m) c)
  | ⟨1, _⟩ => exact (congrFun (V3_eq m c) (Proc.devRef .tc main_c_0)).symm.trans (TblVals.tbl1_eq m (outs m) c)

/-- ENTRY: the core's unscoped buffers as the call finds them are its arrays — the projection array dealt three
    ways —, its two tables, and the rest. -/
theorem entry_split (c : Dev nD) :
    (StableHlo.held (c : Thread nD τ) (Pipeline.ucRefs τ sig) (W3 m c) : sProp 𝕄)
      ⊢ iprop((dat1 (E1 m) c).arrays ((dat1 (E1 m) c).arrAt · 0) ∗ Pipeline.prefHeld pre1 c (fun _ => fullShare) tbl
          ∗ Pipeline.unscopedRestP pre1 spec1 c (E1 m c)) := by
  rw [← Pipeline.unscopedBufs_held, Pipeline.unscopedBufs_split₀ (fun _ : Unit => cfgA) () winFacts₀1.arr_unscoped c,
    Pipeline.unscopedRest_split preFacts1, tblA_eq, arrBufs_eq1, arrays_eq1]
  iintro ⟨⟨H5, H6⟩, Ht, Hz⟩
  ihave H5' := (pointsTo_share (PosShare.mem_left_op_right fullShare)).1 $$ H5
  icases H5' with ⟨H5a, H5r⟩
  ihave H5'' := (pointsTo_share (PosShare.mem_left_op_right fullShare.right)).1 $$ H5r
  icases H5'' with ⟨H5b, H5c⟩
  isplitl [H5a H5b H5c H6]
  · isplitl [H5a]; · iexact H5a
    isplitl [H5b]; · iexact H5b
    isplitl [H5c]; · iexact H5c
    iexact H6
  isplitl [Ht]; · iexact Ht
  iexact Hz

/-! ## The invariant at the first point and at the last -/

section
variable (V : (c : Dev nD) → (b : Ref sig .tc) → Buf (Elt 𝔽) ((c : Thread nD τ).loc b))

theorem PhiS_zero (c : Dev nD) (h : 0 ≤ cfgA.N) :
    PhiS V c 0 h = iprop(baseA c ∗ (∃ d, owns (c : Thread nD τ) scM fullShare d) ∗ (∃ d, owns (c : Thread nD τ) scL fullShare d)
      ∗ (∃ d, owns (c : Thread nD τ) scA fullShare d)) := rfl

theorem PhiS_at_succ (c : Dev nD) (n : ℕ) (h : n + 1 ≤ cfgA.N) :
    PhiS V c (n + 1) h = iprop(baseA c ∗ owns (c : Thread nD τ) scM fullShare (scAt V c n h).1 ∗ owns (c : Thread nD τ) scL fullShare (scAt V c n h).2.1
      ∗ owns (c : Thread nD τ) scA fullShare (scAt V c n h).2.2) := rfl

/-- The generator register, the two tables and the scoped buffers no window stages make the invariant before the
    first point: the three scratch buffers are among those scoped buffers, at whatever they hold. -/
theorem in_split (c : Dev nD) (h : 0 ≤ cfgA.N) :
    iprop((∃ r, prngReg c r) ∗ Pipeline.prefHeld pre1 c (fun _ => fullShare) tbl ∗ Pipeline.scopedRest spec1 c)
      ⊢ (PhiS V c 0 h : sProp 𝕄) := by
  rw [PhiS_zero]; unfold baseA restA
  rw [prefHeld_eq1, scopedRest1_eq]
  simp only [owns_whole]
  iintro ⟨Hp, ⟨Ht0, Ht1⟩, A1, A2, A3, A4, A5, A6, S0, S1, S2, B1, B2, B3, B4, B5, B6⟩
  isplitr [S0 S1 S2]
  · isplitl [Ht0]; · iexact Ht0
    isplitl [Ht1]; · iexact Ht1
    isplitr [Hp]
    · isplitl [A1]; · iexact A1
      isplitl [A2]; · iexact A2
      isplitl [A3]; · iexact A3
      isplitl [A4]; · iexact A4
      isplitl [A5]; · iexact A5
      isplitl [A6]; · iexact A6
      isplitl [B1]; · iexact B1
      isplitl [B2]; · iexact B2
      isplitl [B3]; · iexact B3
      isplitl [B4]; · iexact B4
      isplitl [B5]; · iexact B5
      iexact B6
    iexact Hp
  isplitl [S0]; · iexact S0
  isplitl [S1]; · iexact S1
  iexact S2

/-- After a point the invariant gives them back, the scratch buffers at what the point left. -/
theorem out_split (c : Dev nD) (n : ℕ) (h : n + 1 ≤ cfgA.N) :
    (PhiS V c (n + 1) h : sProp 𝕄)
      ⊢ iprop(((∃ r, prngReg c r) ∗ Pipeline.prefHeld pre1 c (fun _ => fullShare) tbl) ∗ Pipeline.scopedRest spec1 c) := by
  rw [PhiS_at_succ]; unfold baseA restA
  rw [prefHeld_eq1, scopedRest1_eq]
  simp only [owns_whole]
  iintro ⟨⟨Ht0, Ht1, ⟨A1, A2, A3, A4, A5, A6, B1, B2, B3, B4, B5, B6⟩, Hp⟩, S0, S1, S2⟩
  isplitl [Hp Ht0 Ht1]
  · isplitl [Hp]; · iexact Hp
    isplitl [Ht0]; · iexact Ht0
    iexact Ht1
  isplitl [A1]; · iexact A1
  isplitl [A2]; · iexact A2
  isplitl [A3]; · iexact A3
  isplitl [A4]; · iexact A4
  isplitl [A5]; · iexact A5
  isplitl [A6]; · iexact A6
  isplitl [S0]; · iexists _; iexact S0
  isplitl [S1]; · iexists _; iexact S1
  isplitl [S2]; · iexists _; iexact S2
  isplitl [B1]; · iexact B1
  isplitl [B2]; · iexact B2
  isplitl [B3]; · iexact B3
  isplitl [B4]; · iexact B4
  isplitl [B5]; · iexact B5
  iexact B6

/-- The same at any point but the first. -/
theorem out_split' (c : Dev nD) : ∀ (n : ℕ) (h : n ≤ cfgA.N), 0 < n → (PhiS V c n h : sProp 𝕄)
      ⊢ iprop(((∃ r, prngReg c r) ∗ Pipeline.prefHeld pre1 c (fun _ => fullShare) tbl) ∗ Pipeline.scopedRest spec1 c)
  | 0, _, h0 => absurd h0 (Nat.lt_irrefl 0)
  | n + 1, h, _ => out_split V c n h

end

/-! ## Exit: the buffers after the call -/

variable (m : (ℓ : Loc nD τ sig) → Buf (Elt 𝔽) ℓ)

/-- The call leaves the projection array as it found it, -/
theorem W4_v5 (c : Dev nD) : W4 m c main_v5 = W3 m c main_v5 := by
  unfold W4; exact Function.update_of_ne (StableHlo.devRef_ne_of_ne (by decide)) _ _
/-- its result array at what its write-backs leave, -/
theorem W4_v6 (c : Dev nD) : W4 m c main_v6 = o6 m c := by
  unfold W4; exact Function.update_self _ _ _
/-- and every other buffer as it found it. -/
theorem W4_of_ne (c : Dev nD) (b : Ref sig .tc) (hb : b ≠ main_v6) : W4 m c b = W3 m c b := by
  unfold W4; exact Function.update_of_ne (StableHlo.devRef_ne_of_ne hb) _ _

/-- So the tables still hold the program's constants, -/
theorem tblA_eq4 (c : Dev nD) : (fun k => W4 m c (pre1.ref k)) = tbl := by
  rw [← tblA_eq m c]
  funext k
  exact W4_of_ne m c (pre1.ref k) (preFacts1.disj k 3)

/-- and the buffers that are neither an array of the call nor a table hold what they held. -/
theorem restP_eq4 (c : Dev nD) :
    (Pipeline.unscopedRestP (Ix := Unit) (Name := ℕ) (U := UR sig nD τ) (Lvl := ℕ) pre1 spec1 c (fun b => W4 m c b) : sProp 𝕄)
      = Pipeline.unscopedRestP pre1 spec1 c (E1 m c) := by
  unfold Pipeline.unscopedRestP
  refine bigSep_congr fun b hb => ?_
  have hne : b ≠ main_v6 := fun e =>
    (Finset.mem_sdiff.mp (Finset.mem_sdiff.mp hb).1).2 (Finset.mem_image.mpr ⟨3, Finset.mem_univ _, e.symm⟩)
  show ((c : Thread nD τ).loc b ↦{fullShare} W4 m c b : sProp 𝕄) = _
  rw [W4_of_ne m c b hne]

/-- EXIT: the call's arrays after its write-backs — the three shares of the projection array put together again —, the
    two tables and the rest are the core's unscoped buffers at the contents after the call. -/
theorem exit_join (c : Dev nD) :
    iprop((dat1 (E1 m) c).arrays ((dat1 (E1 m) c).arrAt · cfgA.N) ∗ Pipeline.prefHeld pre1 c (fun _ => fullShare) tbl
        ∗ Pipeline.unscopedRestP pre1 spec1 c (E1 m c))
      ⊢ (StableHlo.held (c : Thread nD τ) (Pipeline.ucRefs τ sig) (W4 m c) : sProp 𝕄) := by
  rw [← Pipeline.unscopedBufs_held, Pipeline.unscopedBufs_split₀ (fun _ : Unit => cfgA) () winFacts₀1.arr_unscoped c,
    Pipeline.unscopedRest_split preFacts1, tblA_eq4, restP_eq4, arrBufs_eq1, arrays_eq1, W4_v5, W4_v6]
  have e0 := (dat1 (E1 m) c).arrAt_in 0 rfl cfgA.N
  have e1 := (dat1 (E1 m) c).arrAt_in 1 rfl cfgA.N
  have e2 := (dat1 (E1 m) c).arrAt_in 2 rfl cfgA.N
  rw [e0, e1, e2]
  iintro ⟨⟨H5a, H5b, H5c, H6⟩, Ht, Hz⟩
  isplitl [H5a H5b H5c H6]
  · isplitl [H5a H5b H5c]
    · iapply (pointsTo_share (PosShare.mem_left_op_right fullShare)).2
      isplitl [H5a]; · iexact H5a
      iapply (pointsTo_share (PosShare.mem_left_op_right fullShare.right)).2
      isplitl [H5b]; · iexact H5b
      iexact H5c
    iexact H6
  isplitl [Ht]; · iexact Ht
  iexact Hz

/-! ## The record -/

-- applying a library lemma stated over the pinned configuration takes unfolding plain definitions in a
-- metavariable's type
set_option backward.isDefEq.respectTransparency.types false in
/-- The attention call over the thread state: entered from every unscoped buffer at the contents before it, left with
    them at the contents after it. At entry the projection array is dealt to the three input windows and the tables
    are handed to the pipeline; the generator register, the tables and the scratch buffers go into the body's
    invariant and come out of it; nothing is owed; the kernel has no semaphore of its own. -/
def reg1 (hb : ∀ c, Pipeline.BodyObligationLoose (pdats m 1 c) defs₀ 𝒱₀ () Set.univ) :
    Pipeline.RegionSeg (pcfgs (F := 𝔽)) adm (pdats m) () defs₀ 𝒱₀ Lv lv 1 where
  win := winFacts₀1
  block_pos := block_pos1
  stage_whole := stage_whole1
  K := PEmpty
  osem k := k.elim
  ho := Pipeline.OwnSemFacts.none _
  hbody := hb
  hwaits := Pipeline.hwaits_of_owed_zero _ _ _ _ Lv lv 1 fun _ _ => rfl
  pre c := iprop(StableHlo.held (c : Thread nD τ) (Pipeline.ucRefs τ sig) (Gen.V3 m (outs m) c) ∗ Ek 1 c)
  post c := iprop(StableHlo.held (c : Thread nD τ) (Pipeline.ucRefs τ sig) (Gen.V4 m (outs m) c) ∗ Ek 2 c)
  X c := iprop(∃ r, prngReg c r)
  Y c := iprop((∃ r, prngReg c r) ∗ Pipeline.prefHeld pre1 c (fun _ => fullShare) tbl)
  Z c := Pipeline.unscopedRestP (Ix := Unit) (Name := ℕ) (U := UR sig nD τ) (Lvl := ℕ) pre1 spec1 c (E1 m c)
  hentry c := by
    rw [Pipeline.ownSems0_none, V3_eq]
    iintro ⟨⟨Hub, Hp, HO⟩, -, -⟩
    ihave H := (entry_split m c) $$ Hub
    icases H with ⟨Ha, Ht, Hz⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := in_split (E1 m) c (Nat.zero_le _)
  hout c := by
    rw [Pipeline.ownSems0_none]
    refine (out_split' (E1 m) c cfgA.N (Nat.le_refl _) (by rw [N_A]; decide)).trans ?_
    iintro ⟨HY, Hr⟩
    isplitl [HY]; · iexact HY
    isplitr; · iempintro
    iexact Hr
  hexit c := by
    rw [V4_eq]
    iintro ⟨Ha, HO, ⟨Hp, Ht⟩, Hz⟩
    imodintro
    isplitl [Ha Ht Hz]
    · iapply (exit_join m c)
      isplitl [Ha]; · iexact Ha
      isplitl [Ht]; · iexact Ht
      iexact Hz
    isplitl [Hp]; · iexact Hp
    unfold Pipeline.Dat.owesAt Pipeline.owesWithin
    icases HO with ⟨%W, -, HO⟩; iexists W; iexact HO

end Cert.KernelIdeal.Hand

end
-- ==== Proof.KI.Reg1RunFF.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import proofs.«411364_j13013750907089_3_alg».proof.Proof.KI.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is not taken and the second is not taken: the three scratch buffers are updated by one block from what they held; the output block is untouched. -/
theorem run_FF (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : ¬ cond1_0 (T1 (cell i))) (hc1 : ¬ cond1_1 (T0 (cell i)) (T1 (cell i)))
    (x0 x1 x2 : Vec F S1x256x1x16x128 .bf16) (m l : Vec F S16x256x1 .f32) (a : Vec F S16x256x128 .f32)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare m ∗ owns (c : Thread nD τ) arg9 fullShare l ∗ owns (c : Thread nD τ) arg10 fullShare a
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare (stepM (T0 (cell i)) (T1 (cell i)) x0 x1 m) ∗ owns (c : Thread nD τ) arg9 fullShare (stepL (T0 (cell i)) (T1 (cell i)) x0 x1 m l) ∗ owns (c : Thread nD τ) arg10 fullShare (stepA (T0 (cell i)) (T1 (cell i)) x0 x1 x2 m a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _; isplitr; swap; · iexact H8
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_singleton_self _, View.mem_set_unit_zero hz3 inb_S16x256x128_S16x256x128_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.KernelIdeal.Hand

end
-- ==== Proof.KI.Reg1RunTF.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import proofs.«411364_j13013750907089_3_alg».proof.Proof.KI.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is taken and the second is not taken: the three scratch buffers, held at anything, are reset and then updated by one block; the output block is untouched. -/
theorem run_TF (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : cond1_0 (T1 (cell i))) (hc1 : ¬ cond1_1 (T0 (cell i)) (T1 (cell i)))
    (x0 x1 x2 : Vec F S1x256x1x16x128 .bf16)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare (stepM (T0 (cell i)) (T1 (cell i)) x0 x1 (k1_pay1 (F := F))) ∗ owns (c : Thread nD τ) arg9 fullShare (stepL (T0 (cell i)) (T1 (cell i)) x0 x1 (k1_pay1 (F := F)) (k1_pay2 (F := F))) ∗ owns (c : Thread nD τ) arg10 fullShare (stepA (T0 (cell i)) (T1 (cell i)) x0 x1 x2 (k1_pay1 (F := F)) (k1_pay3 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _, _; isplitr; swap; · iexact H7
    ipureintro; rfl
  isplitl [H8]
  · iexists _; isplitr; swap; · iexact H8
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_cons_self, View.mem_set_unit_zero hz3 inb_S16x256x128_S16x256x128_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.KernelIdeal.Hand

end
-- ==== Proof.KI.Reg1RunTT.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import proofs.«411364_j13013750907089_3_alg».proof.Proof.KI.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is taken and the second is taken: the three scratch buffers, held at anything, are reset and then updated by one block, and the output block is stored from the updated accumulator and sum. -/
theorem run_TT (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : cond1_0 (T1 (cell i))) (hc1 : cond1_1 (T0 (cell i)) (T1 (cell i)))
    (x0 x1 x2 : Vec F S1x256x1x16x128 .bf16)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ owns (c : Thread nD τ) arg7 fullShare (outO (stepA (T0 (cell i)) (T1 (cell i)) x0 x1 x2 (k1_pay1 (F := F)) (k1_pay3 (F := F))) (stepL (T0 (cell i)) (T1 (cell i)) x0 x1 (k1_pay1 (F := F)) (k1_pay2 (F := F)))) ∗ owns (c : Thread nD τ) arg8 fullShare (stepM (T0 (cell i)) (T1 (cell i)) x0 x1 (k1_pay1 (F := F))) ∗ owns (c : Thread nD τ) arg9 fullShare (stepL (T0 (cell i)) (T1 (cell i)) x0 x1 (k1_pay1 (F := F)) (k1_pay2 (F := F))) ∗ owns (c : Thread nD τ) arg10 fullShare (stepA (T0 (cell i)) (T1 (cell i)) x0 x1 x2 (k1_pay1 (F := F)) (k1_pay3 (F := F)))) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2; obtain rfl := harg3.eq_unread hf3
  obtain rfl := harg4.eq_unread hf4; obtain rfl := harg5.eq_unread hf5; obtain rfl := harg6.eq_unread hf6
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_eq_canon _ _ _ (fun y => ⟨_, List.mem_singleton_self _, View.mem_set_unit_zero hz4 inb_S1x256x16x128_S1x256x16x128_0_0_0_0 y⟩), View.canon_unit_zero hz4]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H8]
  · iexists _; isplitr; swap; · iexact H8
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_cons_self, View.mem_set_unit_zero hz3 inb_S16x256x1_S16x256x1_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_cons_self, View.mem_set_unit_zero hz3 inb_S16x256x128_S16x256x128_0_0_0 y⟩), View.canon_cons_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.KernelIdeal.Hand

end
-- ==== Proof.KI.Reg1RunFT.lean ====
import proofs.«411364_j13013750907089_3_alg».proof.Proof.Gen.KernelIdeal.Launch
import proofs.«411364_j13013750907089_3_alg».proof.Proof.Gen.KernelIdeal.Skeleton
import proofs.«411364_j13013750907089_3_alg».proof.Proof.Gen.KernelIdeal.Points
import proofs.«411364_j13013750907089_3_alg».proof.Proof.KI.Reg1Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word a one-element load at the cell reads through a whole memref held at contents `T`, as a run of the body
    spells it. -/
private abbrev wordAt (arg : Memref sig .tc .smem S36 .i32) (harg : arg.IsWhole) (i : grid1.Coords) (T : Vec F S36 .i32) : BitVec 32 :=
  arg.view.readAt (Elt F) (Rect.unit (s := S36) (k1_off1 i) S1.size (k1_off1_inb i)).toLoadRect (harg.unread T) (Shape.Idx.first (numel1_S1.symm ▸ Nat.one_pos))

/-- It is the table's entry at the cell. -/
private theorem wordAt_eq (arg : Memref sig .tc .smem S36 .i32) (harg : arg.IsWhole) (i : grid1.Coords) (T : Vec F S36 .i32) :
    wordAt arg harg i T = T (cell i) := by
  unfold wordAt cell; rw [View.readAt_apply, harg.read_unread]

/-- The zero offsets of the whole-shape rectangles, as the constant function. -/
private theorem hz3 : (![0, 0, 0] : Fin 3 → Nat) = fun _ => 0 := by funext a; fin_cases a <;> rfl
private theorem hz4 : (![0, 0, 0, 0] : Fin 4 → Nat) = fun _ => 0 := by funext a; fin_cases a <;> rfl
private theorem hz5 : (![0, 0, 0, 0, 0] : Fin 5 → Nat) = fun _ => 0 := by funext a; fin_cases a <;> rfl

set_option maxHeartbeats 2000000 in
/-- The body at a point where the first conditional is not taken and the second is taken: the three scratch buffers are updated by one block from what they held, and the output block is stored from the updated accumulator and sum. -/
theorem run_FT (c : Dev nD) (i : grid1.Coords) (arg2 : Memref sig .tc .smem S36 .i32) (harg2 : arg2.IsWhole) (arg3 : Memref sig .tc .smem S36 .i32) (harg3 : arg3.IsWhole) (arg4 : Memref sig .tc .vmem S1x256x1x16x128 .bf16) (harg4 : arg4.IsWhole) (arg5 : Memref sig .tc .vmem S1x256x1x16x128 .bf16) (harg5 : arg5.IsWhole) (arg6 : Memref sig .tc .vmem S1x256x1x16x128 .bf16) (harg6 : arg6.IsWhole) (arg7 : Memref sig .tc .vmem S1x256x16x128 .bf16) (harg7 : arg7.IsWhole) (arg8 : Memref sig .tc .vmem S16x256x1 .f32) (harg8 : arg8.IsWhole) (arg9 : Memref sig .tc .vmem S16x256x1 .f32) (harg9 : arg9.IsWhole) (arg10 : Memref sig .tc .vmem S16x256x128 .f32) (harg10 : arg10.IsWhole)
    (T0 T1 : Vec F S36 .i32) (q0 q1 : PosShare TreeShare)
    (hc0 : ¬ cond1_0 (T1 (cell i))) (hc1 : cond1_1 (T0 (cell i)) (T1 (cell i)))
    (x0 x1 x2 : Vec F S1x256x1x16x128 .bf16) (m l : Vec F S16x256x1 .f32) (a : Vec F S16x256x128 .f32)
    (E : Set ℕ) (K : PUnit → sProp 𝕄) :
    iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare m ∗ owns (c : Thread nD τ) arg9 fullShare l ∗ owns (c : Thread nD τ) arg10 fullShare a
        ∗ (iprop(owns (c : Thread nD τ) arg2 q0 T0 ∗ owns (c : Thread nD τ) arg3 q1 T1 ∗ owns (c : Thread nD τ) arg4 fullShare x0 ∗ owns (c : Thread nD τ) arg5 fullShare x1 ∗ owns (c : Thread nD τ) arg6 fullShare x2 ∗ owns (c : Thread nD τ) arg7 fullShare (outO (stepA (T0 (cell i)) (T1 (cell i)) x0 x1 x2 m a) (stepL (T0 (cell i)) (T1 (cell i)) x0 x1 m l)) ∗ owns (c : Thread nD τ) arg8 fullShare (stepM (T0 (cell i)) (T1 (cell i)) x0 x1 m) ∗ owns (c : Thread nD τ) arg9 fullShare (stepL (T0 (cell i)) (T1 (cell i)) x0 x1 m l) ∗ owns (c : Thread nD τ) arg10 fullShare (stepA (T0 (cell i)) (T1 (cell i)) x0 x1 x2 m a)) -∗ K ⟨⟩))
      ⊢ wp frame (wpE (defs₀ (F := F)) Variants.none c none) E (cc1__attn_kernel i arg2 harg2 arg3 harg3 arg4 harg4 arg5 harg5 arg6 harg6 arg7 harg7 arg8 harg8 arg9 harg9 arg10 harg10) K := by
  rw [← wordAt_eq arg2 harg2 i T0, ← wordAt_eq arg3 harg3 i T1] at hc1
  rw [← wordAt_eq arg3 harg3 i T1] at hc0
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  obtain rfl := harg2.eq_unread hf2; obtain rfl := harg3.eq_unread hf3
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc0 | sl_exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; swap; · iexact H7
    ipureintro
    sl_unfold_run_names
    rw [View.read_writes_eq_canon _ _ _ (fun y => ⟨_, List.mem_singleton_self _, View.mem_set_unit_zero hz4 inb_S1x256x16x128_S1x256x16x128_0_0_0_0 y⟩), View.canon_unit_zero hz4]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H8]
  · iexists _; isplitr; swap; · iexact H8
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  isplitl [H9]
  · iexists _; isplitr; swap; · iexact H9
    ipureintro
    sl_unfold_run_names
    rw [View.read_writes_eq_canon _ _ _ (fun y => ⟨_, List.mem_singleton_self _, View.mem_set_unit_zero hz3 inb_S16x256x1_S16x256x1_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl
  · iexists _; isplitr; swap; · iexact H10
    ipureintro
    sl_unfold_run_names
    rw [View.read_writes_eq_canon _ _ _ (fun y => ⟨_, List.mem_singleton_self _, View.mem_set_unit_zero hz3 inb_S16x256x128_S16x256x128_0_0_0 y⟩), View.canon_unit_zero hz3]
    sl_unfold_run_names; sl_unfold_run_names
    simp only [View.readAt_eq_ld, harg2.read_unread, harg3.read_unread, harg4.read_unread, harg5.read_unread, harg6.read_unread, harg8.read_unread, harg9.read_unread, harg10.read_unread, View.readCov_cons_toLoadRect, View.ld_unit_zero (S := S16x256x1) hz3, View.ld_unit_zero (S := S16x256x128) hz3, View.ld_unit_zero (S := S1x256x1x16x128) hz5]
    rfl

end Cert.KernelIdeal.Hand

end
-- ==== Proof.KI.Reg1Runs.lean ====
import proofs.«411364_j13013750907089_3_alg».proof.Proof.KI.Reg1RunFF
import proofs.«411364_j13013750907089_3_alg».proof.Proof.KI.Reg1RunTF
import proofs.«411364_j13013750907089_3_alg».proof.Proof.KI.Reg1RunTT
import proofs.«411364_j13013750907089_3_alg».proof.Proof.KI.Reg1RunFT

/-! The four runs of the attention body, one per control case (first conditional taken or not, second taken or not):
    `Cert.KernelIdeal.Hand.run_FF`, `run_TF`, `run_TT`, `run_FT`, each in a module of its own. -/
-- ==== Proof.KI.Reg1Body.lean ====
import proofs.«411364_j13013750907089_3_alg».proof.Proof.KI.Reg1Data
import proofs.«411364_j13013750907089_3_alg».proof.Proof.KI.Reg1Runs

/-!
# The attention call: the body meets its obligation at every point

At a point the body finds its three input blocks in place, the tables, and its scratch as the point before left it
(anything, at a point that starts a query tile: it is reset there); it leaves the scratch one update further and, at
the last key tile of a query tile, the normalised block in the output buffer — which at every other point it does
not touch. The output buffer never carries named contents into a point: it was written back, or has been idle since.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

variable (V : (c : Dev nD) → (b : Ref sig .tc) → Buf (Elt 𝔽) ((c : Thread nD τ).loc b))

/-! ## What the body finds in the staging buffers -/

/-- The output window is never fetched. -/
theorem noFetchOut : ∀ t : Fin cfgA.N, (cfgA.win 3).fetch t = false := by decide +kernel

/-- Each input's current staging buffer holds its block at every point, fetched there or not. -/
theorem before1_0 (c : Dev nD) (t : Fin cfgA.N) (d) : (dat1 V c).before 0 t d = iblkA V c 0 t :=
  ((dat1 V c).before_in_eq_fetched 0 rfl (fun _ => rfl) (fun _ _ _ => rfl)
    (fun t => by rw [after1_0]; unfold Dat.blockOf iblkA; rw [A_eq1]; try rfl) t d).trans
    (by unfold Dat.fetched Dat.blockOf iblkA; rw [A_eq1]; try rfl)
theorem before1_1 (c : Dev nD) (t : Fin cfgA.N) (d) : (dat1 V c).before 1 t d = iblkA V c 1 t :=
  ((dat1 V c).before_in_eq_fetched 1 rfl (fun _ => rfl) (fun _ _ _ => rfl)
    (fun t => by rw [after1_1]; unfold Dat.blockOf iblkA; rw [A_eq1]; try rfl) t d).trans
    (by unfold Dat.fetched Dat.blockOf iblkA; rw [A_eq1]; try rfl)
theorem before1_2 (c : Dev nD) (t : Fin cfgA.N) (d) : (dat1 V c).before 2 t d = iblkA V c 2 t :=
  ((dat1 V c).before_in_eq_fetched 2 rfl (fun _ => rfl) (fun _ _ _ => rfl)
    (fun t => by rw [after1_2]; unfold Dat.blockOf iblkA; rw [A_eq1]; try rfl) t d).trans
    (by unfold Dat.fetched Dat.blockOf iblkA; rw [A_eq1]; try rfl)

/-- The output's staging buffer holds nothing named when the body runs: the point before wrote it back, or it has
    been idle since the last write-back. -/
theorem before1_3 (c : Dev nD) : ∀ (n : ℕ) (hn : n < cfgA.N) (d), (dat1 V c).before 3 ⟨n, hn⟩ d = d := by
  intro n
  induction n with
  | zero =>
    intro hn d
    unfold Dat.before
    rw [noFetchOut ⟨0, hn⟩, if_neg Bool.false_ne_true, if_pos rfl]
  | succ n ih =>
    intro hn d
    rw [Dat.before_of_pos _ 3 ⟨n + 1, hn⟩ (Nat.succ_ne_zero n) (noFetchOut _) d]
    split
    · rfl
    · rename_i hfl
      have hl : ¬ cond1_1 (qiW (prev ⟨n + 1, hn⟩)) (kiW (prev ⟨n + 1, hn⟩)) := fun h => hfl ((flushOut_iff _).mpr h)
      have hid := (idleOut_iff (prev ⟨n + 1, hn⟩)).mpr hl
      unfold Dat.left
      rw [show cfgA.idle 3 (cfgA.grid.coords ⟨n + 1 - 1, Nat.lt_of_le_of_lt (Nat.sub_le _ _) hn⟩) = true from hid]
      exact ih (Nat.lt_of_succ_lt hn) d

/-! ## The invariant, opened -/

/-- After a point the invariant names the scratch. -/
theorem PhiS_succ (c : Dev nD) (n : ℕ) (h : n + 1 ≤ cfgA.N) :
    PhiS V c (n + 1) h = iprop(baseA c ∗ owns (c : Thread nD τ) scM fullShare (scAt V c n h).1 ∗ owns (c : Thread nD τ) scL fullShare (scAt V c n h).2.1
      ∗ owns (c : Thread nD τ) scA fullShare (scAt V c n h).2.2) := rfl

/-- Before any point the scratch is held at some contents. -/
theorem PhiS_forget (c : Dev nD) (n : ℕ) (h : n ≤ cfgA.N) :
    PhiS V c n h ⊢ iprop(baseA c ∗ (∃ d, owns (c : Thread nD τ) scM fullShare d) ∗ (∃ d, owns (c : Thread nD τ) scL fullShare d)
      ∗ (∃ d, owns (c : Thread nD τ) scA fullShare d)) := by
  cases n with
  | zero => exact .rfl
  | succ n =>
    rw [PhiS_succ]
    iintro ⟨Hb, HM, HL, HA⟩
    isplitl [Hb]; · iexact Hb
    isplitl [HM]; · iexists _; iexact HM
    isplitl [HL]; · iexists _; iexact HL
    iexists _; iexact HA

/-- Before a point that continues a query tile the scratch holds what the point before left. -/
theorem PhiS_cont (c : Dev nD) (t : Fin cfgA.N) (h : ¬ cond1_0 (kiW t)) :
    PhiS V c t.val (Nat.le_of_lt t.isLt) = iprop(baseA c ∗ owns (c : Thread nD τ) scM fullShare (scAt V c (prev t).val (prev t).isLt).1
      ∗ owns (c : Thread nD τ) scL fullShare (scAt V c (prev t).val (prev t).isLt).2.1
      ∗ owns (c : Thread nD τ) scA fullShare (scAt V c (prev t).val (prev t).isLt).2.2) := by
  obtain ⟨n, hn⟩ := t
  cases n with
  | zero => exact absurd (first_zero ⟨0, hn⟩ rfl) h
  | succ n => rfl

/-! ## The body at a point -/

/-- Each window's current staging memref at point `t`. -/
abbrev msA_0 (t : Fin cfgA.N) : Memref sig .tc .vmem S1x256x1x16x128 .bf16 := spec1_0.stage (cfgA.slots t 0)
abbrev msA_1 (t : Fin cfgA.N) : Memref sig .tc .vmem S1x256x1x16x128 .bf16 := spec1_1.stage (cfgA.slots t 1)
abbrev msA_2 (t : Fin cfgA.N) : Memref sig .tc .vmem S1x256x1x16x128 .bf16 := spec1_2.stage (cfgA.slots t 2)
abbrev msA_3 (t : Fin cfgA.N) : Memref sig .tc .vmem S1x256x16x128 .bf16 := spec1_3.stage (cfgA.slots t 3)

/-- The kernel body at point `t`, on what the pipeline calls it with. -/
abbrev bodyAtA (t : Fin cfgA.N) : Prog (TpuEff nD τ sig (Elt 𝔽) Λ₀ .tc) PUnit :=
  cc1__attn_kernel (grid1.coords t) tbM0 (Memref.isWhole_whole _) tbM1 (Memref.isWhole_whole _)
    (msA_0 t) (hstage1_0 ((cfgA.slots t 0).cast nbuf1_0)) (msA_1 t) (hstage1_1 ((cfgA.slots t 1).cast nbuf1_1))
    (msA_2 t) (hstage1_2 ((cfgA.slots t 2).cast nbuf1_2)) (msA_3 t) (hstage1_3 ((cfgA.slots t 3).cast nbuf1_3))
    scM (Memref.isWhole_whole _) scL (Memref.isWhole_whole _) scA (Memref.isWhole_whole _)

/-- What the body is called with at point `t`, the windows one by one, -/
def bodyPreA (c : Dev nD) (t : Fin cfgA.N) : sProp 𝕄 :=
  iprop((dat1 V c).Φ t.castSucc ∗ (dat1 V c).owesAt () t.castSucc
    ∗ (∃ d, owns (c : Thread nD τ) (msA_0 t) fullShare ((dat1 V c).before 0 t d))
    ∗ (∃ d, owns (c : Thread nD τ) (msA_1 t) fullShare ((dat1 V c).before 1 t d))
    ∗ (∃ d, owns (c : Thread nD τ) (msA_2 t) fullShare ((dat1 V c).before 2 t d))
    ∗ (∃ d, owns (c : Thread nD τ) (msA_3 t) fullShare ((dat1 V c).before 3 t d)))

/-- and what it returns: the output's buffer as found at a point that does not emit, at the normalised block at one
    that does. -/
def bodyPostA (c : Dev nD) (t : Fin cfgA.N) : sProp 𝕄 :=
  iprop((dat1 V c).Φ t.succ ∗ (dat1 V c).owesAt () t.succ
    ∗ owns (c : Thread nD τ) (msA_0 t) fullShare ((dat1 V c).after 0 t)
    ∗ owns (c : Thread nD τ) (msA_1 t) fullShare ((dat1 V c).after 1 t)
    ∗ owns (c : Thread nD τ) (msA_2 t) fullShare ((dat1 V c).after 2 t)
    ∗ (match cfgA.idle 3 (cfgA.grid.coords t) with
        | true =>
          match (cfgA.win 3).flush t with
          | false => iprop(∃ d, owns (c : Thread nD τ) (msA_3 t) fullShare ((dat1 V c).before 3 t d))
          | true => owns (c : Thread nD τ) (msA_3 t) fullShare ((dat1 V c).after 3 t)
        | false => owns (c : Thread nD τ) (msA_3 t) fullShare ((dat1 V c).after 3 t)))

/-- The output's share of the post at a point that does not emit: the buffer at anything. -/
theorem outPost_idle (c : Dev nD) (t : Fin cfgA.N) (h1 : ¬ cond1_1 (qiW t) (kiW t)) (d) :
    owns (c : Thread nD τ) (msA_3 t) fullShare d ⊢ (match cfgA.idle 3 (cfgA.grid.coords t) with
        | true =>
          match (cfgA.win 3).flush t with
          | false => iprop(∃ d, owns (c : Thread nD τ) (msA_3 t) fullShare d)
          | true => owns (c : Thread nD τ) (msA_3 t) fullShare ((dat1 V c).after 3 t)
        | false => owns (c : Thread nD τ) (msA_3 t) fullShare ((dat1 V c).after 3 t) : sProp 𝕄) := by
  have hid := (idleOut_iff t).mpr h1
  have hfl : (cfgA.win 3).flush t = false := Bool.eq_false_iff.mpr fun h => h1 ((flushOut_iff t).mp h)
  split
  · split
    · iintro H; iexists d; iexact H
    · rename_i hf
      exact absurd (hfl.symm.trans hf) (by decide)
  · rename_i hi
    exact absurd (hid.symm.trans hi) (by decide)

/-- The output's share of the post at a point that emits: the buffer at the normalised block. -/
theorem outPost_live (c : Dev nD) (t : Fin cfgA.N) (h1 : cond1_1 (qiW t) (kiW t)) :
    owns (c : Thread nD τ) (msA_3 t) fullShare ((dat1 V c).after 3 t) ⊢ (match cfgA.idle 3 (cfgA.grid.coords t) with
        | true =>
          match (cfgA.win 3).flush t with
          | false => iprop(∃ d, owns (c : Thread nD τ) (msA_3 t) fullShare d)
          | true => owns (c : Thread nD τ) (msA_3 t) fullShare ((dat1 V c).after 3 t)
        | false => owns (c : Thread nD τ) (msA_3 t) fullShare ((dat1 V c).after 3 t) : sProp 𝕄) := by
  have hid : cfgA.idle 3 (cfgA.grid.coords t) = false := Bool.eq_false_iff.mpr fun h => (idleOut_iff t).mp h h1
  split
  · rename_i hi
    exact absurd (hid.symm.trans hi) (by decide)
  · iintro H; iexact H

/-- The output's staging buffer, at any point. -/
theorem before1_3' (c : Dev nD) (t : Fin cfgA.N) (d) : (dat1 V c).before 3 t d = d := before1_3 V c t.val t.isLt d

set_option maxHeartbeats 1600000 in
/-- The body at any point: by the two conditions on the table words, one of the four runs. -/
theorem sound_bodyA (c : Dev nD) (t : Fin cfgA.N) :
    bodyPreA V c t ⊢ wp frame (wpE (defs₀ (F := 𝔽)) Variants.none c none) Set.univ (bodyAtA t) (fun _ => bodyPostA V c t) := by
  unfold bodyPreA bodyPostA
  simp only [before1_0, before1_1, before1_2, before1_3']
  rw [show (dat1 V c).Φ t.castSucc = PhiS V c t.val (Nat.le_of_lt t.isLt) from rfl,
    show (dat1 V c).Φ t.succ = PhiS V c (t.val + 1) t.isLt from rfl,
    show (dat1 V c).owesAt () t.succ = (dat1 V c).owesAt () t.castSucc from rfl,
    after1_0, after1_1, after1_2, PhiS_succ]
  by_cases h0 : cond1_0 (kiW t)
  · by_cases h1 : cond1_1 (qiW t) (kiW t)
    · -- a query tile of one key tile: reset, update, emit
      have hrun := fun K => run_TT (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) Set.univ K
      simp only [word0_eq, word1_eq] at hrun
      have hafter : (dat1 V c).after 3 t = outO (scFresh V c t).2.2 (scFresh V c t).2.1 := by rw [after1_3, scAt_first V c t h0]
      rw [scAt_first V c t h0]
      refine (sep_mono (PhiS_forget V c t.val _) .rfl).trans ?_
      unfold baseA
      iintro ⟨⟨⟨HT0, HT1, Hrest, Hp⟩, ⟨%dm, HM⟩, ⟨%dl, HL⟩, ⟨%da, HA⟩⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexists _; iexact HM
      isplitl [HL]; · iexists _; iexact HL
      isplitl [HA]; · iexists _; iexact HA
      iintro ⟨HT0, HT1, H0, H1, H2, H3, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_live V c t h1)
      rw [hafter]; iexact H3
    · -- a query tile begins: reset and one update; the output buffer is not touched
      have hrun := fun K => run_TF (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) Set.univ K
      simp only [word0_eq, word1_eq] at hrun
      rw [scAt_first V c t h0]
      refine (sep_mono (PhiS_forget V c t.val _) .rfl).trans ?_
      unfold baseA
      iintro ⟨⟨⟨HT0, HT1, Hrest, Hp⟩, ⟨%dm, HM⟩, ⟨%dl, HL⟩, ⟨%da, HA⟩⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexists _; iexact HM
      isplitl [HL]; · iexists _; iexact HL
      isplitl [HA]; · iexists _; iexact HA
      iintro ⟨HT0, HT1, H0, H1, H2, ⟨%d3', H3⟩, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_idle V c t h1 d3')
      iexact H3
  · by_cases h1 : cond1_1 (qiW t) (kiW t)
    · -- the query tile ends: one update of what the point before left, and the normalised block is emitted
      have hrun := fun K => run_FT (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) (scAt V c (prev t).val (prev t).isLt).1 (scAt V c (prev t).val (prev t).isLt).2.1
        (scAt V c (prev t).val (prev t).isLt).2.2 Set.univ K
      simp only [word0_eq, word1_eq] at hrun
      have hafter : (dat1 V c).after 3 t = outO (scNext V c t (scAt V c (prev t).val (prev t).isLt)).2.2 (scNext V c t (scAt V c (prev t).val (prev t).isLt)).2.1 := by
        rw [after1_3, scAt_cont V c t h0]
      rw [PhiS_cont V c t h0, scAt_cont V c t h0]
      unfold baseA
      iintro ⟨⟨⟨HT0, HT1, Hrest, Hp⟩, HM, HL, HA⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨HT0, HT1, H0, H1, H2, H3, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_live V c t h1)
      rw [hafter]; iexact H3
    · -- the query tile goes on: one update of what the point before left; the output buffer is not touched
      have hrun := fun K => run_FF (F := 𝔽) c (grid1.coords t) tbM0 (Memref.isWhole_whole _) tbM1 (Memref.isWhole_whole _)
        (msA_0 t) (hstage1_0 ((cfgA.slots t 0).cast nbuf1_0)) (msA_1 t) (hstage1_1 ((cfgA.slots t 1).cast nbuf1_1))
        (msA_2 t) (hstage1_2 ((cfgA.slots t 2).cast nbuf1_2)) (msA_3 t) (hstage1_3 ((cfgA.slots t 3).cast nbuf1_3))
        scM (Memref.isWhole_whole _) scL (Memref.isWhole_whole _) scA (Memref.isWhole_whole _)
        tbl0 tbl1 fullShare fullShare (by rw [word1_eq]; exact h0) (by rw [word0_eq, word1_eq]; exact h1)
        (qBlk V c t) (kBlk V c t) (vBlk V c t) (scAt V c (prev t).val (prev t).isLt).1 (scAt V c (prev t).val (prev t).isLt).2.1
        (scAt V c (prev t).val (prev t).isLt).2.2 Set.univ K
      simp only [word0_eq, word1_eq] at hrun
      rw [PhiS_cont V c t h0, scAt_cont V c t h0]
      unfold scNext baseA
      iintro ⟨⟨⟨HT0, HT1, Hrest, Hp⟩, HM, HL, HA⟩, Ho, ⟨%d0, H0⟩, ⟨%d1, H1⟩, ⟨%d2, H2⟩, ⟨%d3, H3⟩⟩
      iapply (hrun _)
      isplitl [HT0]; · iexact HT0
      isplitl [HT1]; · iexact HT1
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨HT0, HT1, H0, H1, H2, ⟨%d3', H3⟩, HM, HL, HA⟩
      isplitl [HT0 HT1 Hrest Hp HM HL HA]
      · isplitl [HT0 HT1 Hrest Hp]
        · isplitl [HT0]; · iexact HT0
          isplitl [HT1]; · iexact HT1
          isplitl [Hrest]; · iexact Hrest
          iexact Hp
        isplitl [HM]; · iexact HM
        isplitl [HL]; · iexact HL
        iexact HA
      isplitl [Ho]; · iexact Ho
      isplitl [H0]; · iexact H0
      isplitl [H1]; · iexact H1
      isplitl [H2]; · iexact H2
      iapply (outPost_idle V c t h1 d3')
      iexact H3

/-- The library's body obligation, at every point. -/
theorem body_obligationA (c : Dev nD) : BodyObligation (dat1 V c) (defs₀ (F := 𝔽)) Variants.none () Set.univ := fun t => by
  rw [bigSep_W1, bigSep_W1]
  exact sound_bodyA V c t

end Cert.KernelIdeal.Hand

end
-- ==== Proof.KI.RunCond.lean ====
import proofs.«411364_j13013750907089_3_alg».proof.Proof.Gen.KernelIdeal.Regions

/-! # The run of the whole program, given the three pipelines' records

The program is three pipelines among stretches of host operations. Given, for each pipeline, a record of its run
entered from and left at the thread states written over the valuations `V1 … V6` of the core's unscoped buffers,
every weakly fair execution from memory `m` with zero counters terminates, and every final memory holds the result
buffer at the last valuation's contents and each argument as launched. -/

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

-- the implicit arguments of the run theorem for a list of segments are found by unifying its conclusion with this
-- one, which takes unfolding plain definitions in a metavariable's type
set_option backward.isDefEq.respectTransparency.types false in
/-- For any user algebra, level assignment, launch dues and ghost resources, any rest states `E` the launch makes on
    every core at once (`hE0`) and that end owing nothing (`hE3`), any contents the pipelines leave (`outs`) and any
    proof data: given, per pipeline K, a record of its run entered from the thread state before it and left at the
    one after it (`RK`, `hpreK`, `hpostK`), every weakly fair execution of the program from memory `m` with zero
    counters terminates, and every final memory holds the result buffer at what the last valuation says and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v9) = V7 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, hpre0 c, hpost0 c, hpre1 c, hpost1 c, hpre2 c, hpost2 c, sep_mono .rfl (hE3 c)⟩)
    (hinit := ?_) (QY := fun c s => s.mem ((c.tc : Thread nD τ).loc main_v9) = V7 m outs c main_v9 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result buffer and each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v9) (Finset.mem_filter.mpr ⟨StableHlo.devRef_mem_tcRefs main_v9, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c)⟩
    · iexact HSI

end Cert.KernelIdeal.Hand

end
-- ==== Proof.KI.Run.lean ====
import proofs.«411364_j13013750907089_3_alg».proof.Proof.KI.Seg02
import proofs.«411364_j13013750907089_3_alg».proof.Proof.KI.Seg1
import proofs.«411364_j13013750907089_3_alg».proof.Proof.KI.Reg1Body
import proofs.«411364_j13013750907089_3_alg».proof.Proof.KI.RunCond
import Idealize.ShloMosaic.Lib.Pipeline.Kit
import Idealize.ShloMosaic.Lib.Pipeline.Regions

/-! # The program's run at the exact reals

The three calls' records put together: from any launch memory with zero counters, every weakly fair execution of the
program terminates; every final memory holds each argument as launched, and holds the result buffer at the contents
the fold of the host stretches and the three calls' results gives it. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

/-- The float instance this module is read at. -/
local notation "𝔽" => Ideal

local notation "𝕄" => MT nD τ sig Unit (Elt 𝔽) ℕ (UR sig nD τ) ℕ

variable (m : (ℓ : Loc nD τ sig) → Buf (Elt 𝔽) ℓ) (ρ : Dev nD → PrngReg)

/-! ## The launch -/

/-- The launch element: the staging cells of the three pipelines, each at its first tokens. -/
abbrev u₀ : UR sig nD τ :=
  initOf (Pipeline.cells (Pipeline.pin (pcfgs (F := 𝔽)) adm) (cellOf_inj adm)) (Pipeline.launchToks (Pipeline.pin (pcfgs (F := 𝔽)) adm) (cellOf_inj adm))

/-- The launch element is the pipelines' element, and no core gets anything else. -/
theorem hu₀ : (ownU u₀ : sProp 𝕄) ⊢ |={Set.univ}=> iprop(BI.own (emb₁ u₀) ∗ bigSep Finset.univ fun _ : Dev nD => (iprop(emp) : sProp 𝕄)) := by
  iintro Hu; imodintro
  isplitl [Hu]
  · iapply (show (ownU u₀ : sProp 𝕄) ⊢ BI.own (emb₁ u₀) from .rfl)
    iexact Hu
  iapply (show (BI.emp : sProp 𝕄) ⊢ bigSep Finset.univ (fun _ : Dev nD => (BI.emp : sProp 𝕄)) from by rw [BI.bigSep_emp_const])
  iempintro

/-- What the launch deals a core beside its unscoped buffers makes the state that rides along: the generator register
    at its launch state, and nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts Lv lv)
      ⊢ (|={Set.univ}=> bigSep Finset.univ (Ek 0) : sProp 𝕄) := by
  refine Pipeline.initEach Lv lv fun c => ?_
  iintro ⟨⟨-, HO, -, Hp, -⟩, -⟩
  imodintro
  isplitl [Hp]; · iexists _; iexact Hp
  iexists ∅; iexact HO

/-- At the end nothing is owed. -/
theorem hE3 (c : Dev nD) : Ek 3 c ⊢ (iprop(∃ W, owes (c : Thread nD τ) (0 : CellTallies nD τ sig Unit) W) : sProp 𝕄) := by
  iintro ⟨-, H⟩; iexact H

/-! ## The run -/

set_option backward.isDefEq.respectTransparency.types false in
/-- Every weakly fair execution of the program from memory `m` with zero counters terminates, and every final memory
    holds each argument as launched. -/
theorem frame_run : θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ Lv lv (fun _ _ => rfl) ρ (outs m) adm (pdats m) 0 (fun _ => iprop(emp)) u₀ hu₀ Ek (hE0 ρ) hE3
    (reg0 m) (fun _ => .rfl) (fun _ => .rfl)
    (reg1 m fun c => (body_obligationA (E1 m) c).loose) (fun _ => .rfl) (fun _ => .rfl)
    (reg2 m) (fun _ => .rfl) (fun _ => .rfl)

set_option backward.isDefEq.respectTransparency.types false in
/-- Every weakly fair execution of the program from memory `m` with zero counters terminates, and every final memory
    holds the result buffer at the contents the fold gives it after the last reshape, and each argument as launched. -/
theorem value_run : θ_run defs (onTc (τ := τ) (main (F := 𝔽))) ⟨m, fun _ => 0, ρ⟩ (fun r => ∀ c : Dev nD,
      r.2.mem ((c.tc : Thread nD τ).loc main_v9) = W7 m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (congrFun (V7_eq m c) _), (h c).2⟩)
    (run_cond m emb₁ () 𝒱₀ Lv lv (fun _ _ => rfl) ρ (outs m) adm (pdats m) 0 (fun _ => iprop(emp)) u₀ hu₀ Ek (hE0 ρ) hE3
      (reg0 m) (fun _ => .rfl) (fun _ => .rfl)
      (reg1 m fun c => (body_obligationA (E1 m) c).loose) (fun _ => .rfl) (fun _ => .rfl)
      (reg2 m) (fun _ => .rfl) (fun _ => .rfl))

end Cert.KernelIdeal.Hand

end
-- ==== Proof.RefRun.lean ====
import proofs.«411364_j13013750907089_3_alg».proof.Proof.Gen.ReferenceIdeal.Run
import proofs.«411364_j13013750907089_3_alg».proof.Proof.Gen.ReferenceIdeal.Read

/-! The reference program's run and its stages read at an index, gathered for the modules that relate the
    reference's result to the specification. -/
-- ==== Proof.Spec.lean ====
import Idealize.ShloMosaic.PureOps.Ideal

/-!
# What both programs compute, as one function of the three argument arrays

Causal multi-head self-attention over `x : [2, 2048, 2048]` with `W_qkv : [6144, 2048]` and `W_out : [2048, 2048]`,
16 heads of width 128, read on the extended reals:

* `qkv b t e = ∑ d, x b t d * W_qkv e d`; columns `[0, 2048)` are the queries, `[2048, 4096)` the keys,
  `[4096, 6144)` the values, head `h` owning the 128 columns from `128 * h` of each third;
* the score of query row `i` against key row `j` in head `h` is the dot product of their 128 entries times
  `1048576 / 11863283` (the reciprocal of the reference's divisor, the f32 nearest to `√128`) when `j ≤ i`, and `-∞` otherwise;
* each row of scores goes through a softmax: subtract the row's maximum, exponentiate, divide by the row's sum;
* the weights average the value rows, the heads' outputs are laid side by side again (`128 * h + dd`),
  and the result is multiplied by `W_outᵀ`.

The sums run over all 2048 key rows: a masked entry has score `-∞`, its exponential is `0`.
-/

noncomputable section

namespace Cert.Spec

open Idealize.ShloMosaic

/-- The reciprocal of the reference's divisor (`11863283 / 1048576`, the f32 nearest `√128`). -/
def invD : EReal := ((1048576 / 11863283 : ℝ) : EReal)

/-- Column of head `h`'s entry `dd` in the query third of the projection. -/
def colQ (h : Fin 16) (dd : Fin 128) : Fin 6144 := ⟨128 * h.val + dd.val, by omega⟩
/-- The same in the key third. -/
def colK (h : Fin 16) (dd : Fin 128) : Fin 6144 := ⟨2048 + (128 * h.val + dd.val), by omega⟩
/-- The same in the value third. -/
def colV (h : Fin 16) (dd : Fin 128) : Fin 6144 := ⟨4096 + (128 * h.val + dd.val), by omega⟩
/-- Column of head `h`'s entry `dd` among the 2048 merged columns. -/
def colO (h : Fin 16) (dd : Fin 128) : Fin 2048 := ⟨128 * h.val + dd.val, by omega⟩

section
variable (x : Fin 2 → Fin 2048 → Fin 2048 → EReal) (wq : Fin 6144 → Fin 2048 → EReal)
  (wo : Fin 2048 → Fin 2048 → EReal)

/-- The fused query / key / value projection. -/
def qkv (b : Fin 2) (t : Fin 2048) (e : Fin 6144) : EReal := ∑ d : Fin 2048, x b t d * wq e d

/-- Query row `i` against key row `j` in head `h`, before scaling and masking. -/
def qk (b : Fin 2) (h : Fin 16) (i j : Fin 2048) : EReal :=
  ∑ dd : Fin 128, qkv x wq b i (colQ h dd) * qkv x wq b j (colK h dd)

/-- The scaled, causally masked score. -/
def score (b : Fin 2) (h : Fin 16) (i j : Fin 2048) : EReal :=
  if j.val ≤ i.val then qk x wq b h i j * invD else ⊥

/-- The row's maximum. -/
def rowMax (b : Fin 2) (h : Fin 16) (i : Fin 2048) : EReal := Finset.univ.sup (score x wq b h i)

/-- The shifted exponentials, -/
def num (b : Fin 2) (h : Fin 16) (i j : Fin 2048) : EReal := Ideal.exp (score x wq b h i j - rowMax x wq b h i)

/-- their row sum, -/
def den (b : Fin 2) (h : Fin 16) (i : Fin 2048) : EReal := ∑ j : Fin 2048, num x wq b h i j

/-- and the attention weights. -/
def weight (b : Fin 2) (h : Fin 16) (i j : Fin 2048) : EReal := Ideal.div (num x wq b h i j) (den x wq b h i)

/-- Head `h`'s output row `i`, entry `dd`: the weighted average of the value rows. -/
def headOut (b : Fin 2) (h : Fin 16) (i : Fin 2048) (dd : Fin 128) : EReal :=
  ∑ j : Fin 2048, weight x wq b h i j * qkv x wq b j (colV h dd)

/-- The heads' outputs side by side: column `d` belongs to head `d / 128`, entry `d % 128`. -/
def merged (b : Fin 2) (t : Fin 2048) (d : Fin 2048) : EReal :=
  headOut x wq b ⟨d.val / 128, by omega⟩ t ⟨d.val % 128, Nat.mod_lt _ (by norm_num)⟩

/-- The result: the merged heads times `W_outᵀ`. -/
def result (b : Fin 2) (t : Fin 2048) (e : Fin 2048) : EReal := ∑ d : Fin 2048, merged x wq b t d * wo e d

end

end Cert.Spec

end
-- ==== Proof.SpecArr.lean ====
import Idealize.ShloMosaic.Lib.ValueIdx
import proofs.«411364_j13013750907089_3_alg».proof.Proof.Spec

/-!
# The specification over the programs' arrays

The argument arrays as the programs hold them — functions on the index sets of the literal shapes
`[2, 2048, 2048]`, `[6144, 2048]`, `[2048, 2048]` — read by coordinates, and the result array `G` both
programs end with.
-/

noncomputable section

namespace Cert.Spec

open Idealize.ShloMosaic Idealize.ShloMosaic.ValueIdx

/-- The shape of `x` and of the result. -/
abbrev SX : Shape := ⟨3, ![2, 2048, 2048]⟩
/-- The shape of `W_qkv`. -/
abbrev SWq : Shape := ⟨2, ![6144, 2048]⟩
/-- The shape of `W_out`. -/
abbrev SWo : Shape := ⟨2, ![2048, 2048]⟩

/-- `x` by coordinates. -/
def xOf (a0 : SX.Idx → EReal) : Fin 2 → Fin 2048 → Fin 2048 → EReal := fun b t d => a0 (ix3 b t d)
/-- `W_qkv` by coordinates. -/
def wqOf (a1 : SWq.Idx → EReal) : Fin 6144 → Fin 2048 → EReal := fun e d => a1 (ix2 e d)
/-- `W_out` by coordinates. -/
def woOf (a2 : SWo.Idx → EReal) : Fin 2048 → Fin 2048 → EReal := fun e d => a2 (ix2 e d)

/-- The result array: entry `(b, t, e)` is `Spec.result` of the three arrays there. -/
def G (a0 : SX.Idx → EReal) (a1 : SWq.Idx → EReal) (a2 : SWo.Idx → EReal) : SX.Idx → EReal :=
  fun i => result (xOf a0) (wqOf a1) (woOf a2) (i 0) (i 1) (i 2)

/-- `G` at an index given by its coordinates. -/
theorem G_ix3 (a0 : SX.Idx → EReal) (a1 : SWq.Idx → EReal) (a2 : SWo.Idx → EReal) (b : Fin 2) (t e : Fin 2048) :
    G a0 a1 a2 (ix3 b t e) = result (xOf a0) (wqOf a1) (woOf a2) b t e := rfl

end Cert.Spec

end
-- ==== Proof.RefG.lean ====
import proofs.«411364_j13013750907089_3_alg».proof.Proof.RefRun
import proofs.«411364_j13013750907089_3_alg».proof.Proof.SpecArr
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Predicate
import Idealize.ShloMosaic.Lib.StableHlo.Run
import Idealize.ShloMosaic.PureOps.Ideal.Laws

/-!
# The reference program computes the specification

Each stage of the reference — the fused projection, its three thirds split into heads, the per-head scores
divided by the f32 nearest `√128`, the causal mask, the row maximum, the exponentials, their row sum, the
weights, the weighted value rows, the merged heads and the product with `W_outᵀ` — is read at an index given
by its coordinates and identified with the matching function of `Cert.Spec`. The last stage at every index is
`Cert.Spec.G`.
-/

noncomputable section

namespace Cert.RefG

open Cert.ReferenceIdeal Cert.ReferenceIdeal.Gen Idealize.ShloMosaic Idealize.ShloMosaic.TcCoe Idealize.SL.Sem
  Idealize.ShloMosaic.StableHlo Idealize.ShloMosaic.ValueIdx Cert.Spec

/-! ## Constants -/

/-- The reference's divisor `0x413504F3` is the rational `11863283 / 1048576`. -/
theorem divisor_eq : Ideal.ofBits .f32 0x413504F3#32 = ((11863283 / 1048576 : ℝ) : EReal) := by
  simp [Ideal.ofBits, Ideal.ieee, -EReal.coe_mul]; norm_num

/-- The word `0xFF800000` is `-∞`. -/
theorem negInf_eq : Ideal.ofBits .f32 0xFF800000#32 = (⊥ : EReal) := by
  simp [Ideal.ofBits, Ideal.ieee]

/-- Dividing by the reference's divisor is multiplying by `invD`. -/
theorem div_divisor (x : EReal) : Ideal.div x (Ideal.ofBits .f32 0x413504F3#32) = x * invD := by
  rw [divisor_eq, Ideal.div_coe (by norm_num)]
  unfold invD
  congr 2
  norm_num

section
variable (a0 : S2x2048x2048.Idx → EReal) (a1 : S6144x2048.Idx → EReal)

/-! ## The projection and its three thirds by heads -/

/-- The fused projection at `(b, t, e)`. -/
theorem proj_at (b : Fin 2) (t : Fin 2048) (e : Fin 6144) :
    Read.val_main_v0 (F := Ideal) a0 a1 (ix3 b t e) = qkv (xOf a0) (wqOf a1) b t e := by
  rw [Read.val_main_v0_apply]
  refine Finset.sum_congr rfl fun k _ => ?_
  have el : Read.lidx_main_v0 (ix3 b t e) k = ix3 b t k := funext fun a => Fin.ext (by
    match a with | ⟨0, _⟩ => rfl | ⟨1, _⟩ => rfl | ⟨2, _⟩ => rfl)
  have er : Read.ridx_main_v0 (ix3 b t e) k = ix2 e k := funext fun a => Fin.ext (by
    match a with | ⟨0, _⟩ => rfl | ⟨1, _⟩ => rfl)
  rw [el, er]
  rfl

/-- The queries by heads: entry `dd` of head `h` in row `i` is column `128 h + dd` of the projection. -/
theorem q_at (b : Fin 2) (h : Fin 16) (i : Fin 2048) (dd : Fin 128) :
    Read.val_main_v5 (F := Ideal) a0 a1 (ix4 b h i dd) = qkv (xOf a0) (wqOf a1) b i (colQ h dd) := by
  rw [Read.val_main_v5_apply, Read.val_main_v4_apply, Read.val_main_v1_apply]
  have e : Read.idx_main_v1 (Read.idx_main_v4 (Read.idx_main_v5 (ix4 b h i dd))) = ix3 b i (colQ h dd) :=
    funext fun a => Fin.ext (by
      have hb := b.isLt; have hh := h.isLt; have hi := i.isLt; have hd := dd.isLt
      match a with
      | ⟨0, _⟩ => show (((b.val * 2048 + i.val) * 16 + h.val) * 128 + dd.val) / 4194304 = b.val; omega
      | ⟨1, _⟩ => show (((b.val * 2048 + i.val) * 16 + h.val) * 128 + dd.val) / 2048 % 2048 = i.val; omega
      | ⟨2, _⟩ => show (((b.val * 2048 + i.val) * 16 + h.val) * 128 + dd.val) % 2048 = 128 * h.val + dd.val; omega)
  rw [e, proj_at]

/-- The keys by heads. -/
theorem k_at (b : Fin 2) (h : Fin 16) (j : Fin 2048) (dd : Fin 128) :
    Read.val_main_v7 (F := Ideal) a0 a1 (ix4 b h j dd) = qkv (xOf a0) (wqOf a1) b j (colK h dd) := by
  rw [Read.val_main_v7_apply, Read.val_main_v6_apply, Read.val_main_v2_apply]
  have e : Read.idx_main_v2 (Read.idx_main_v6 (Read.idx_main_v7 (ix4 b h j dd))) = ix3 b j (colK h dd) :=
    funext fun a => Fin.ext (by
      have hb := b.isLt; have hh := h.isLt; have hj := j.isLt; have hd := dd.isLt
      match a with
      | ⟨0, _⟩ => show (((b.val * 2048 + j.val) * 16 + h.val) * 128 + dd.val) / 4194304 = b.val; omega
      | ⟨1, _⟩ => show (((b.val * 2048 + j.val) * 16 + h.val) * 128 + dd.val) / 2048 % 2048 = j.val; omega
      | ⟨2, _⟩ =>
        show 2048 + (((b.val * 2048 + j.val) * 16 + h.val) * 128 + dd.val) % 2048 = 2048 + (128 * h.val + dd.val); omega)
  rw [e, proj_at]

/-- The values by heads. -/
theorem v_at (b : Fin 2) (h : Fin 16) (j : Fin 2048) (dd : Fin 128) :
    Read.val_main_v9 (F := Ideal) a0 a1 (ix4 b h j dd) = qkv (xOf a0) (wqOf a1) b j (colV h dd) := by
  rw [Read.val_main_v9_apply, Read.val_main_v8_apply, Read.val_main_v3_apply]
  have e : Read.idx_main_v3 (Read.idx_main_v8 (Read.idx_main_v9 (ix4 b h j dd))) = ix3 b j (colV h dd) :=
    funext fun a => Fin.ext (by
      have hb := b.isLt; have hh := h.isLt; have hj := j.isLt; have hd := dd.isLt
      match a with
      | ⟨0, _⟩ => show (((b.val * 2048 + j.val) * 16 + h.val) * 128 + dd.val) / 4194304 = b.val; omega
      | ⟨1, _⟩ => show (((b.val * 2048 + j.val) * 16 + h.val) * 128 + dd.val) / 2048 % 2048 = j.val; omega
      | ⟨2, _⟩ =>
        show 4096 + (((b.val * 2048 + j.val) * 16 + h.val) * 128 + dd.val) % 2048 = 4096 + (128 * h.val + dd.val); omega)
  rw [e, proj_at]

/-! ## Scores -/

/-- The dot product of query row `i` and key row `j` in head `h`. -/
theorem qk_at (b : Fin 2) (h : Fin 16) (i j : Fin 2048) :
    Read.val_main_v10 (F := Ideal) a0 a1 (ix4 b h i j) = qk (xOf a0) (wqOf a1) b h i j := by
  rw [Read.val_main_v10_apply]
  refine Finset.sum_congr rfl fun k _ => ?_
  have el : Read.lidx_main_v10 (ix4 b h i j) k = ix4 b h i k := funext fun a => Fin.ext (by
    match a with | ⟨0, _⟩ => rfl | ⟨1, _⟩ => rfl | ⟨2, _⟩ => rfl | ⟨3, _⟩ => rfl)
  have er : Read.ridx_main_v10 (ix4 b h i j) k = ix4 b h j k := funext fun a => Fin.ext (by
    match a with | ⟨0, _⟩ => rfl | ⟨1, _⟩ => rfl | ⟨2, _⟩ => rfl | ⟨3, _⟩ => rfl)
  rw [el, er, q_at, k_at]

/-- The scaled dot product. -/
theorem scaled_at (b : Fin 2) (h : Fin 16) (i j : Fin 2048) :
    Read.val_main_v12 (F := Ideal) a0 a1 (ix4 b h i j) = qk (xOf a0) (wqOf a1) b h i j * invD := by
  rw [Read.val_main_v12_apply, Read.val_main_v11_apply, Read.val_main_cst_apply, qk_at]
  exact div_divisor _

end

/-! ## The causal mask -/

/-- The signed comparison `row ≥ column` of two small words is the comparison of the numbers. -/
theorem sge_word (i j : Nat) (hi : i < 2048) (hj : j < 2048) :
    IntOp.cmpi .sge (IntOp.addi (BitVec.ofNat 32 i) 0#32) (BitVec.ofNat 32 j) = if j ≤ i then 1#1 else 0#1 := by
  have ha : (IntOp.addi (BitVec.ofNat 32 i) 0#32).toNat = i := by
    show (BitVec.ofNat 32 i + 0#32).toNat = i
    rw [BitVec.add_zero, BitVec.toNat_ofNat]; omega
  have hb : (BitVec.ofNat 32 j).toNat = j := by
    rw [BitVec.toNat_ofNat]; omega
  have hiff := Predicate.sge_iff_toNat (a := IntOp.addi (BitVec.ofNat 32 i) 0#32) (b := BitVec.ofNat 32 j)
    (by rw [ha]; omega) (by rw [hb]; omega)
  rw [ha, hb] at hiff
  by_cases hji : j ≤ i
  · rw [if_pos hji]; exact hiff.mpr hji
  · rw [if_neg hji]; exact eq_zero_of_ne_one fun h1 => hji (hiff.mp h1)

/-- The mask at `(i, j)`: set exactly when `j ≤ i`. -/
theorem mask_at (i j : Fin 2048) :
    Read.val_main_v14 (F := Ideal) (ix2 i j) = if j.val ≤ i.val then 1#1 else 0#1 := by
  rw [Read.val_main_v14_apply, Read.val_main_call0_v4_apply, Read.val_main_call0_v2_apply, Read.val_main_call0_v0_apply,
    Read.val_main_call0_v1_apply, Read.val_main_call0_c_apply, Read.val_main_call0_v3_apply, Read.val_main_v13_apply,
    Read.val_main_c_apply, Read.val_main_call0_v5_apply, Read.val_main_call0_c_0_apply]
  show Scalar.select (IntOp.cmpi .sge (IntOp.addi (BitVec.ofNat 32 i.val) 0#32) (BitVec.ofNat 32 j.val)) 1#1 0#1 = _
  rw [sge_word i.val j.val i.isLt j.isLt]
  by_cases hji : j.val ≤ i.val
  · rw [if_pos hji, select_one]
  · rw [if_neg hji, select_zero]

section
variable (a0 : S2x2048x2048.Idx → EReal) (a1 : S6144x2048.Idx → EReal)

/-- The masked score. -/
theorem score_at (b : Fin 2) (h : Fin 16) (i j : Fin 2048) :
    Read.val_main_v15 (F := Ideal) a0 a1 (ix4 b h i j) = score (xOf a0) (wqOf a1) b h i j := by
  rw [Read.val_main_v15_apply, Read.val_main_call1_v1_apply, Read.val_main_call1_v2_apply, Read.val_main_call1_v0_apply,
    Read.val_main_cst_0_apply, scaled_at]
  have e : Read.idx_main_call1_v1 (ix4 b h i j) = ix2 i j := funext fun a => Fin.ext (by
    match a with | ⟨0, _⟩ => rfl | ⟨1, _⟩ => rfl)
  rw [e, mask_at]
  unfold score
  by_cases hji : j.val ≤ i.val
  · rw [if_pos hji, if_pos hji, select_one]
  · rw [if_neg hji, if_neg hji, select_zero]; exact negInf_eq

/-! ## The row maximum -/

/-- The scores' last axis is reduced away. -/
theorem reduces_d3 : S2x16x2048x2048.Reduces [3] S2x16x2048 := by decide

/-- A row's index with the key coordinate put back. -/
theorem lift_d3 (b : Fin 2) (h : Fin 16) (i : Fin 2048) (k : Fin (S2x16x2048x2048.size 3)) :
    reduces_d3.lift (ix3 b h i) k = ix4 b h i (⟨k.val, k.isLt⟩ : Fin 2048) := by
  funext c; apply Fin.ext
  fin_cases c <;> rfl

/-- The reduce with a maximum body from `-∞` is the supremum of the row's scores. -/
theorem max_at (b : Fin 2) (h : Fin 16) (i : Fin 2048) :
    Read.val_main_v16 (F := Ideal) a0 a1 (ix3 b h i) = rowMax (xOf a0) (wqOf a1) b h i := by
  unfold Read.val_main_v16
  rw [Host.reduce_eq_fold_single FloatOps.maximumf _ _ reducesTo_S2x16x2048x2048_S2x16x2048_d3 reduces_d3 h_S_]
  have h0 : Read.val_main_cst_1 (F := Ideal) (Shape.Idx.first h_S_) = (⊥ : EReal) := negInf_eq
  have hf : (Read.val_main_v15 (F := Ideal) a0 a1 ∘ reduces_d3.lift (ix3 b h i))
      = fun k : Fin 2048 => score (xOf a0) (wqOf a1) b h i k := funext fun k => by
    show Read.val_main_v15 (F := Ideal) a0 a1 (reduces_d3.lift (ix3 b h i) k) = _
    rw [lift_d3, score_at]
    rfl
  rw [h0]
  show Finset.fold max (⊥ : EReal) (Read.val_main_v15 (F := Ideal) a0 a1 ∘ reduces_d3.lift (ix3 b h i))
    (Finset.univ : Finset (Fin 2048)) = _
  rw [hf]
  rfl

/-- The maximum the later stages subtract. -/
theorem rowmax_at (b : Fin 2) (h : Fin 16) (i : Fin 2048) :
    Read.val_main_v18 (F := Ideal) a0 a1 (ix3 b h i) = rowMax (xOf a0) (wqOf a1) b h i := by
  rw [Read.val_main_v18_apply, Read.val_main_v17_apply, Read.val_main_cst_2_apply, max_at]
  show max (Ideal.ofBits .f32 0xFF800000#32) _ = _
  rw [negInf_eq]
  exact max_bot_left _

end

section
variable (a0 : S2x2048x2048.Idx → EReal) (a1 : S6144x2048.Idx → EReal)

/-! ## The softmax -/

/-- The shifted exponential. -/
theorem num_at (b : Fin 2) (h : Fin 16) (i j : Fin 2048) :
    Read.val_main_v22 (F := Ideal) a0 a1 (ix4 b h i j) = num (xOf a0) (wqOf a1) b h i j := by
  rw [Read.val_main_v22_apply, Read.val_main_v21_apply, Read.val_main_v20_apply, Read.val_main_v19_apply, score_at]
  have e : Read.idx_main_v19 (Read.idx_main_v20 (ix4 b h i j)) = ix3 b h i := funext fun a => Fin.ext (by
    match a with | ⟨0, _⟩ => rfl | ⟨1, _⟩ => rfl | ⟨2, _⟩ => rfl)
  rw [e, rowmax_at]
  rfl

/-- The row sum of the exponentials. -/
theorem den_at (b : Fin 2) (h : Fin 16) (i : Fin 2048) :
    Read.val_main_v23 (F := Ideal) a0 a1 (ix3 b h i) = den (xOf a0) (wqOf a1) b h i := by
  rw [Read.val_main_v23_apply, Read.val_main_cst_3_apply]
  show Ideal.ofBits .f32 0x00000000#32 + _ = _
  rw [Ideal.ofBits_zero_f32, zero_add]
  refine Finset.sum_congr rfl fun k _ => ?_
  have e : Read.idx_main_v23 (ix3 b h i) k = ix4 b h i k := funext fun a => Fin.ext (by
    match a with | ⟨0, _⟩ => rfl | ⟨1, _⟩ => rfl | ⟨2, _⟩ => rfl | ⟨3, _⟩ => rfl)
  rw [e, num_at]

/-- The attention weight. -/
theorem weight_at (b : Fin 2) (h : Fin 16) (i j : Fin 2048) :
    Read.val_main_v26 (F := Ideal) a0 a1 (ix4 b h i j) = weight (xOf a0) (wqOf a1) b h i j := by
  rw [Read.val_main_v26_apply, Read.val_main_v25_apply, Read.val_main_v24_apply, num_at]
  have e : Read.idx_main_v24 (Read.idx_main_v25 (ix4 b h i j)) = ix3 b h i := funext fun a => Fin.ext (by
    match a with | ⟨0, _⟩ => rfl | ⟨1, _⟩ => rfl | ⟨2, _⟩ => rfl)
  rw [e, den_at]
  rfl

/-! ## The heads' outputs, merged, times `W_outᵀ` -/

/-- Head `h`'s output row `i`, entry `dd`. -/
theorem head_at (b : Fin 2) (h : Fin 16) (i : Fin 2048) (dd : Fin 128) :
    Read.val_main_v27 (F := Ideal) a0 a1 (ix4 b h i dd) = headOut (xOf a0) (wqOf a1) b h i dd := by
  rw [Read.val_main_v27_apply]
  refine Finset.sum_congr rfl fun k _ => ?_
  have el : Read.lidx_main_v27 (ix4 b h i dd) k = ix4 b h i k := funext fun a => Fin.ext (by
    match a with | ⟨0, _⟩ => rfl | ⟨1, _⟩ => rfl | ⟨2, _⟩ => rfl | ⟨3, _⟩ => rfl)
  have er : Read.ridx_main_v27 (ix4 b h i dd) k = ix4 b h k dd := funext fun a => Fin.ext (by
    match a with | ⟨0, _⟩ => rfl | ⟨1, _⟩ => rfl | ⟨2, _⟩ => rfl | ⟨3, _⟩ => rfl)
  rw [el, er, weight_at, v_at]

/-- The merged heads: column `d` is entry `d % 128` of head `d / 128`. -/
theorem merged_at (b : Fin 2) (t d : Fin 2048) :
    Read.val_main_v29 (F := Ideal) a0 a1 (ix3 b t d) = merged (xOf a0) (wqOf a1) b t d := by
  rw [Read.val_main_v29_apply, Read.val_main_v28_apply]
  have e : Read.idx_main_v28 (Read.idx_main_v29 (ix3 b t d))
      = ix4 b (⟨d.val / 128, by omega⟩ : Fin 16) t (⟨d.val % 128, Nat.mod_lt _ (by norm_num)⟩ : Fin 128) :=
    funext fun a => Fin.ext (by
      have hb := b.isLt; have ht := t.isLt; have hd := d.isLt
      match a with
      | ⟨0, _⟩ => show ((b.val * 2048 + t.val) * 2048 + d.val) / 4194304 = b.val; omega
      | ⟨1, _⟩ => show ((b.val * 2048 + t.val) * 2048 + d.val) / 128 % 16 = d.val / 128; omega
      | ⟨2, _⟩ => show ((b.val * 2048 + t.val) * 2048 + d.val) / 2048 % 2048 = t.val; omega
      | ⟨3, _⟩ => show ((b.val * 2048 + t.val) * 2048 + d.val) % 128 = d.val % 128; omega)
  rw [e, head_at]
  rfl

variable (a2 : S2048x2048.Idx → EReal)

/-- The result at `(b, t, e)`. -/
theorem result_at (b : Fin 2) (t e : Fin 2048) :
    Read.val_main_v30 (F := Ideal) a0 a1 a2 (ix3 b t e) = result (xOf a0) (wqOf a1) (woOf a2) b t e := by
  rw [Read.val_main_v30_apply]
  refine Finset.sum_congr rfl fun k _ => ?_
  have el : Read.lidx_main_v30 (ix3 b t e) k = ix3 b t k := funext fun a => Fin.ext (by
    match a with | ⟨0, _⟩ => rfl | ⟨1, _⟩ => rfl | ⟨2, _⟩ => rfl)
  have er : Read.ridx_main_v30 (ix3 b t e) k = ix2 e k := funext fun a => Fin.ext (by
    match a with | ⟨0, _⟩ => rfl | ⟨1, _⟩ => rfl)
  rw [el, er, merged_at]
  rfl

end

/-! ## The reference's result is the specification -/

/-- The reference's last stage, as a function of the three argument arrays, is `G`. -/
theorem ref_is_G (a0 : Cert.ReferenceIdeal.S2x2048x2048.Idx → EReal) (a1 : Cert.ReferenceIdeal.S6144x2048.Idx → EReal)
    (a2 : Cert.ReferenceIdeal.S2048x2048.Idx → EReal) :
    Read.val_main_v30 (F := Ideal) a0 a1 a2 = Cert.Spec.G a0 a1 a2 := by
  funext i
  obtain ⟨b, t, e, rfl⟩ : ∃ (b : Fin 2) (t e : Fin 2048), i = ix3 b t e := ⟨i 0, i 1, i 2, eq_ix3 i⟩
  rw [G_ix3, result_at]

/-- Every weakly fair execution of the reference ends with its result array at `G` of the three arguments'
    launch contents, and the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30)
          = Cert.Spec.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨((h c).1.trans (Read.val_main_v30_eq m c)).trans (ref_is_G _ _ _), (h c).2⟩)
    (Cert.ReferenceIdeal.Value.run (F := Ideal) m ρ)

end Cert.RefG

end
-- ==== Proof.KI.HostVals.lean ====
import proofs.«411364_j13013750907089_3_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

/-!
# The kernel program's host stretches, read at an index

Between its three pallas calls the kernel program only reshapes: the input `x` (narrowed to bf16, the identity on
the extended reals) is laid out as `[4096, 2048]`, the projection's result `[4096, 6144]` as
`[2, 2048, 3, 16, 128]`, the attention's result `[2, 2048, 16, 128]` as `[4096, 2048]`, and the last product
`[4096, 2048]` as `[2, 2048, 2048]`. A reshape keeps the row-major position, so each of these arrays at an
index given by its coordinates is the operand at the coordinates with the same position. The two weight
matrices pass through unchanged, and the two tables are the program's constants.
-/

noncomputable section

namespace Cert.KernelIdeal.HostVals

open Idealize.ShloMosaic Idealize.ShloMosaic.TcCoe Idealize.SL.Sem Idealize.ShloMosaic.StableHlo
open Cert.KernelIdeal Cert.KernelIdeal.Gen Idealize.ShloMosaic.ValueIdx

variable (m : (ℓ : Loc nD τ sig) → Buf (Elt Ideal) ℓ) (outs : Outs (F := Ideal)) (c : Dev nD)

/-! ## Before the projection: `x` as `[4096, 2048]`, the weights unchanged -/

/-- The reshaped `x` is the shape cast of the launch contents (narrowing to bf16 is the identity here). -/
theorem v3_full :
    (V1 m c main_v3 : S4096x2048.Idx → EReal)
      = shapeCast S4096x2048 (m ((c : Thread nD τ).loc main_arg0) : S2x2048x2048.Idx → EReal)
          shapeCasts_S2x2048x2048_S4096x2048 := by
  show StableHlo.after hostOps0 (V0 m c) (Proc.devRef .tc main_v3) = _
  after_results
  rfl

/-- Row `p` of the reshaped `x` is row `p % 2048` of batch `p / 2048`. -/
theorem v3_at (p : Fin 4096) (k : Fin 2048) :
    (V1 m c main_v3 : S4096x2048.Idx → EReal) (ix2 p k)
      = (m ((c : Thread nD τ).loc main_arg0) : S2x2048x2048.Idx → EReal)
          (ix3 (⟨p.val / 2048, by have := p.isLt; omega⟩ : Fin 2)
            (⟨p.val % 2048, Nat.mod_lt _ (by norm_num)⟩ : Fin 2048) k) := by
  refine (congrFun (v3_full m c) (ix2 p k)).trans ?_
  refine shapeCast_apply _ shapeCasts_S2x2048x2048_S4096x2048 _ _ ?_
  rw [Shape.rowMajor_val_three, Shape.rowMajor_val_two]
  have hp := p.isLt
  show (p.val / 2048 * 2048 + p.val % 2048) * 2048 + k.val = p.val * 2048 + k.val
  omega

/-- `W_qkv` narrowed is `W_qkv`. -/
theorem v1_eq : (V1 m c main_v1 : S6144x2048.Idx → EReal) = m ((c : Thread nD τ).loc main_arg1) := by
  show StableHlo.after hostOps0 (V0 m c) (Proc.devRef .tc main_v1) = _
  after_results
  rfl

/-- `W_out` narrowed is `W_out`, -/
theorem v2_eq : (V1 m c main_v2 : S2048x2048.Idx → EReal) = m ((c : Thread nD τ).loc main_arg2) := by
  show StableHlo.after hostOps0 (V0 m c) (Proc.devRef .tc main_v2) = _
  after_results
  rfl

/-- and nothing up to the last product touches it. -/
theorem v2_at5 : (V5 m outs c main_v2 : S2048x2048.Idx → EReal) = m ((c : Thread nD τ).loc main_arg2) :=
  (V5_of m outs c main_v2 (by decide)).trans <| (V4_of m outs c main_v2 (by decide)).trans <|
    (V3_of m outs c main_v2 (by decide)).trans <| (V2_of m outs c main_v2 (by decide)).trans (v2_eq m c)

/-! ## The two tables -/

/-- The table of query tiles when the attention call starts is the program's first constant, -/
theorem tbl0_eq : (V3 m outs c main_c : S36.Idx → BitVec 32) = fun i => lit0 (S36.rowMajor i) := by
  refine (V3_of m outs c main_c (by decide)).trans <| (V2_of m outs c main_c (by decide)).trans ?_
  show StableHlo.after hostOps0 (V0 m c) (Proc.devRef .tc main_c) = _
  after_results
  rfl

/-- and the table of key tiles its second. -/
theorem tbl1_eq : (V3 m outs c main_c_0 : S36.Idx → BitVec 32) = fun i => lit1 (S36.rowMajor i) := by
  refine (V3_of m outs c main_c_0 (by decide)).trans <| (V2_of m outs c main_c_0 (by decide)).trans ?_
  show StableHlo.after hostOps0 (V0 m c) (Proc.devRef .tc main_c_0) = _
  after_results
  rfl

/-! ## The projection's result by thirds and heads -/

/-- The projection's result reshaped is the shape cast of what the first call leaves. -/
theorem v5_full :
    (V3 m outs c main_v5 : S2x2048x3x16x128.Idx → EReal)
      = shapeCast S2x2048x3x16x128 (outs 2 main_v4 c : S4096x6144.Idx → EReal)
          shapeCasts_S4096x6144_S2x2048x3x16x128 := by
  show StableHlo.after hostOps1 (V2 m outs c) (Proc.devRef .tc main_v5) = _
  after_results
  rw [show V2 m outs c (Proc.devRef .tc main_v4) = outs 2 main_v4 c from Function.update_self ..]
  rfl

/-- Entry `dd` of head `h` in third `s` of row `t`, batch `b`, is column `2048 s + 128 h + dd` of row `2048 b + t`. -/
theorem v5_at (b : Fin 2) (t : Fin 2048) (s : Fin 3) (h : Fin 16) (dd : Fin 128) :
    (V3 m outs c main_v5 : S2x2048x3x16x128.Idx → EReal) (ix5 b t s h dd)
      = (outs 2 main_v4 c : S4096x6144.Idx → EReal)
          (ix2 (⟨2048 * b.val + t.val, by have := b.isLt; have := t.isLt; omega⟩ : Fin 4096)
            (⟨2048 * s.val + 128 * h.val + dd.val, by have := s.isLt; have := h.isLt; have := dd.isLt; omega⟩ : Fin 6144)) := by
  refine (congrFun (v5_full m outs c) (ix5 b t s h dd)).trans ?_
  refine shapeCast_apply _ shapeCasts_S4096x6144_S2x2048x3x16x128 _ _ ?_
  rw [Shape.rowMajor_val_two, Shape.rowMajor_val_five]
  have hb := b.isLt; have ht := t.isLt; have hs := s.isLt; have hh := h.isLt; have hd := dd.isLt
  show (2048 * b.val + t.val) * 6144 + (2048 * s.val + 128 * h.val + dd.val)
    = (((b.val * 2048 + t.val) * 3 + s.val) * 16 + h.val) * 128 + dd.val
  omega

/-! ## The attention's result as `[4096, 2048]` -/

/-- The attention's result reshaped is the shape cast of what the second call leaves. -/
theorem v7_full :
    (V5 m outs c main_v7 : S4096x2048.Idx → EReal)
      = shapeCast S4096x2048 (outs 4 main_v6 c : S2x2048x16x128.Idx → EReal)
          shapeCasts_S2x2048x16x128_S4096x2048 := by
  show StableHlo.after hostOps2 (V4 m outs c) (Proc.devRef .tc main_v7) = _
  after_results
  rw [show V4 m outs c (Proc.devRef .tc main_v6) = outs 4 main_v6 c from Function.update_self ..]
  rfl

/-- Column `d` of row `p` is entry `d % 128` of head `d / 128` in row `p % 2048` of batch `p / 2048`. -/
theorem v7_at (p : Fin 4096) (d : Fin 2048) :
    (V5 m outs c main_v7 : S4096x2048.Idx → EReal) (ix2 p d)
      = (outs 4 main_v6 c : S2x2048x16x128.Idx → EReal)
          (ix4 (⟨p.val / 2048, by have := p.isLt; omega⟩ : Fin 2)
            (⟨p.val % 2048, Nat.mod_lt _ (by norm_num)⟩ : Fin 2048)
            (⟨d.val / 128, by have := d.isLt; omega⟩ : Fin 16)
            (⟨d.val % 128, Nat.mod_lt _ (by norm_num)⟩ : Fin 128)) := by
  refine (congrFun (v7_full m outs c) (ix2 p d)).trans ?_
  refine shapeCast_apply _ shapeCasts_S2x2048x16x128_S4096x2048 _ _ ?_
  rw [Shape.rowMajor_val_four, Shape.rowMajor_val_two]
  have hp := p.isLt; have hd := d.isLt
  show ((p.val / 2048 * 2048 + p.val % 2048) * 16 + d.val / 128) * 128 + d.val % 128 = p.val * 2048 + d.val
  omega

/-! ## The result as `[2, 2048, 2048]` -/

/-- The last product reshaped is the shape cast of what the third call leaves. -/
theorem v9_full :
    (V7 m outs c main_v9 : S2x2048x2048.Idx → EReal)
      = shapeCast S2x2048x2048 (outs 6 main_v8 c : S4096x2048.Idx → EReal)
          shapeCasts_S4096x2048_S2x2048x2048 := by
  show StableHlo.after hostOps3 (V6 m outs c) (Proc.devRef .tc main_v9) = _
  after_results
  rw [show V6 m outs c (Proc.devRef .tc main_v8) = outs 6 main_v8 c from Function.update_self ..]
  rfl

/-- Row `t` of batch `b` is row `2048 b + t`. -/
theorem v9_at (b : Fin 2) (t e : Fin 2048) :
    (V7 m outs c main_v9 : S2x2048x2048.Idx → EReal) (ix3 b t e)
      = (outs 6 main_v8 c : S4096x2048.Idx → EReal)
          (ix2 (⟨2048 * b.val + t.val, by have := b.isLt; have := t.isLt; omega⟩ : Fin 4096) e) := by
  refine (congrFun (v9_full m outs c) (ix3 b t e)).trans ?_
  refine shapeCast_apply _ shapeCasts_S4096x2048_S2x2048x2048 _ _ ?_
  rw [Shape.rowMajor_val_two, Shape.rowMajor_val_three]
  have hb := b.isLt; have ht := t.isLt; have he := e.isLt
  show (2048 * b.val + t.val) * 2048 + e.val = (b.val * 2048 + t.val) * 2048 + e.val
  omega

end Cert.KernelIdeal.HostVals

end
-- ==== Proof.ValMat.lean ====
/-
  The two projection kernels' matmul payloads read at an index, at the ideal values: each is the plain
  sum, over the contracted (second) axis of both operands, of the products — y = x · wᵀ.
-/
import proofs.«411364_j13013750907089_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ValMat

open Cert.KernelIdeal Cert.KernelIdeal.Gen Idealize.ShloMosaic Idealize.ShloMosaic.ValueIdx

/-! ## The 512×2048 by 2048×2048 product (contraction over the second axis of both) -/

theorem lhs_pay0_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_pay0_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_pay0_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_pay0_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The matmul of the first projection into the zero accumulator, at (p, q): Σₖ a[p,k] · b[q,k]. -/
theorem matmul0_apply (a : FVec Ideal S512x2048 .bf16) (b : FVec Ideal S2048x2048 .bf16) (p : Fin 512) (q : Fin 2048) :
    matmul dot_S512x2048_S2048x2048_S512x2048_1_1_0_0_n_n none a b (constant (F := Ideal) S512x2048 .f32 0x00000000#32) (ix2 p q)
      = ∑ k : Fin 2048, a (ix2 p k) * b (ix2 q k) := by
  refine (Ideal.matmul_constant_zero_apply dot_S512x2048_S2048x2048_S512x2048_1_1_0_0_n_n none a b (ix2 p q)).trans ?_
  rw [← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun c => Fin.ext (by
    match c with
    | ⟨0, _⟩ => exact lhs_pay0_0 _ _
    | ⟨1, _⟩ => exact (lhs_pay0_1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun c => Fin.ext (by
    match c with
    | ⟨0, _⟩ => exact rhs_pay0_0 _ _
    | ⟨1, _⟩ => exact (rhs_pay0_1 _ _).trans hk)
  rw [el, er]

/-- The first projection's payload at (p, q): the casts to the same shape and the truncation are the identity here. -/
theorem pay0_apply (x0 : Vec Ideal S512x2048 .bf16) (x1 : Vec Ideal S2048x2048 .bf16) (p : Fin 512) (q : Fin 2048) :
    k0_pay1 (F := Ideal) x0 x1 (ix2 p q) = ∑ k : Fin 2048, x0 (ix2 p k) * x1 (ix2 q k) := by
  unfold k0_pay1
  refine (truncf_apply (ψ := .bf16) _ bitsLt_bf16_f32 (ix2 p q)).trans ?_
  rw [shapeCast_self, shapeCast_self]
  exact matmul0_apply x0 x1 p q

/-! ## The 512×2048 by 1024×2048 product (contraction over the second axis of both) -/

theorem lhs_pay2_0 (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
  rfl
theorem lhs_pay2_1 (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q
theorem rhs_pay2_0 (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
  rfl
theorem rhs_pay2_1 (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-- The matmul of the output projection into the zero accumulator, at (p, q): Σₖ a[p,k] · b[q,k]. -/
theorem matmul2_apply (a : FVec Ideal S512x2048 .bf16) (b : FVec Ideal S1024x2048 .bf16) (p : Fin 512) (q : Fin 1024) :
    matmul dot_S512x2048_S1024x2048_S512x1024_1_1_0_0_n_n none a b (constant (F := Ideal) S512x1024 .f32 0x00000000#32) (ix2 p q)
      = ∑ k : Fin 2048, a (ix2 p k) * b (ix2 q k) := by
  refine (Ideal.matmul_constant_zero_apply dot_S512x2048_S1024x2048_S512x1024_1_1_0_0_n_n none a b (ix2 p q)).trans ?_
  rw [← Equiv.sum_comp (ValueIdx.contrEquiv1 dot_S512x2048_S1024x2048_S512x1024_1_1_0_0_n_n 2048 rfl rfl).symm]
  refine Finset.sum_congr rfl fun k _ => ?_
  have hk := ValueIdx.contrEquiv1_symm_val dot_S512x2048_S1024x2048_S512x1024_1_1_0_0_n_n 2048 rfl rfl k
  have el : dot_S512x2048_S1024x2048_S512x1024_1_1_0_0_n_n.lhsIdx (ix2 p q) ((ValueIdx.contrEquiv1 dot_S512x2048_S1024x2048_S512x1024_1_1_0_0_n_n 2048 rfl rfl).symm k) = ix2 p k := funext fun c => Fin.ext (by
    match c with
    | ⟨0, _⟩ => exact lhs_pay2_0 _ _
    | ⟨1, _⟩ => exact (lhs_pay2_1 _ _).trans hk)
  have er : dot_S512x2048_S1024x2048_S512x1024_1_1_0_0_n_n.rhsIdx (ix2 p q) ((ValueIdx.contrEquiv1 dot_S512x2048_S1024x2048_S512x1024_1_1_0_0_n_n 2048 rfl rfl).symm k) = ix2 q k := funext fun c => Fin.ext (by
    match c with
    | ⟨0, _⟩ => exact rhs_pay2_0 _ _
    | ⟨1, _⟩ => exact (rhs_pay2_1 _ _).trans hk)
  rw [el, er]

/-- The output projection's payload at (p, q): the casts to the same shape are the identity. -/
theorem pay2_apply (x0 : Vec Ideal S512x2048 .bf16) (x1 : Vec Ideal S1024x2048 .bf16) (p : Fin 512) (q : Fin 1024) :
    k2_pay1 (F := Ideal) x0 x1 (ix2 p q) = ∑ k : Fin 2048, x0 (ix2 p k) * x1 (ix2 q k) := by
  unfold k2_pay1
  rw [shapeCast_self, shapeCast_self]
  exact matmul2_apply x0 x1 p q

end Cert.KernelIdeal.ValMat
-- ==== Proof.ValLin.lean ====
/-
  From blocks to the whole array for the two projection pipelines, at the ideal values: each pipeline's output array
  ends holding the plain matrix product x · wᵀ of the two arrays it finds on entry, entry by entry a sum over the
  contracted axis.
-/
import proofs.«411364_j13013750907089_3_alg».proof.Proof.KI.Reg0
import proofs.«411364_j13013750907089_3_alg».proof.Proof.KI.Reg2
import proofs.«411364_j13013750907089_3_alg».proof.Proof.ValMat
import proofs.«411364_j13013750907089_3_alg».proof.Proof.Gen.KernelIdeal.Points
import Idealize.ShloMosaic.Lib.Pipeline.Value
import Idealize.ShloMosaic.Lib.ValueIdx

noncomputable section

namespace Cert.KernelIdeal.ValLin

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when a pipeline is entered
variable (V : (c : Dev nD) → (b : Ref sig .tc) → Buf (Elt Ideal) ((c : Thread nD τ).loc b))

theorem hz : (![0, 0] : Fin 2 → Nat) = fun _ => 0 := funext fun a => by fin_cases a <;> rfl

/-! ## Pipeline 0: the 4096×2048 by 6144×2048 product, from its 512×2048 blocks -/

/-- The whole product: entry (r, s) is Σₖ a[r,k] · b[s,k]. -/
abbrev prod0 (a : S4096x2048.Idx → Elt Ideal .bf16) (b : S6144x2048.Idx → Elt Ideal .bf16) : S4096x6144.Idx → Elt Ideal .bf16 :=
  fun i => ∑ k : Fin 2048, a (ix2 (n0 := 4096) (i 0) k) * b (ix2 (n0 := 6144) (i 1) k)

/-- The product read at explicit coordinates. -/
theorem prod0_apply (a : S4096x2048.Idx → Elt Ideal .bf16) (b : S6144x2048.Idx → Elt Ideal .bf16) (r : Fin 4096) (s : Fin 6144) :
    prod0 a b (ix2 r s) = ∑ k : Fin 2048, a (ix2 r k) * b (ix2 s k) := rfl

/-- The block index maps over the grid: point t = 8·j + i takes row block i of the left factor, row block j of the
    right factor, and writes block (i, j) of the product; neither factor is cut along the contracted axis. -/
theorem blockIdx0 : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = t.val / 8 :=
  (by decide +kernel : ∀ t : Fin grid0.N, _)

/-- Every block (i, j) of the product is some point's. -/
theorem blockOnto0 : ∀ (q0 : Fin 8) (q1 : Fin 3), ∃ t : Fin cfg0.N, win0_2.index t = ![q0.val, q1.val] :=
  (by decide +kernel : ∀ (q0 : Fin 8) (q1 : Fin 3), ∃ t : Fin grid0.N, win0_2.index t = ![q0.val, q1.val])

/-- One entry of a block product: when row p of the left block is row r of the left factor and row q of the right
    block is row s of the right factor, the payload at (p, q) is the product's entry (r, s). -/
theorem blockEntry0 (a : S4096x2048.Idx → Elt Ideal .bf16) (b : S6144x2048.Idx → Elt Ideal .bf16)
    (x0 : Vec Ideal S512x2048 .bf16) (x1 : Vec Ideal S2048x2048 .bf16)
    (p : Fin 512) (q : Fin 2048) (r : Fin 4096) (s : Fin 6144)
    (h0 : ∀ k : Fin 2048, x0 (ix2 p k) = a (ix2 r k)) (h1 : ∀ k : Fin 2048, x1 (ix2 q k) = b (ix2 s k)) :
    k0_pay1 (F := Ideal) x0 x1 (ix2 p q) = ∑ k : Fin 2048, a (ix2 r k) * b (ix2 s k) := by
  rw [ValMat.pay0_apply]
  exact Finset.sum_congr rfl fun k _ => by rw [h0 k, h1 k]

/-- What point t writes back is block t of the product of the two arrays as the pipeline finds them. -/
theorem flushed0_eq (c : Dev nD) (t : Fin cfg0.N) :
    (dat0 (F := Ideal) V c).flushed 2 t = ((cfg0.win 2).blk t).view.read (Elt Ideal) (prod0 (V c main_v3) (V c main_v1)) := by
  show (cfg0.win 2).cut (grid0.coords t) ((dat0 V c).after 2 t) = _
  rw [after0_2]
  unfold out0_2
  rw [View.canon_unit_zero hz]
  simp only [View.ld_unit_zero (S := S512x2048) hz, View.ld_unit_zero (S := S2048x2048) hz]
  obtain ⟨e00, e01, e10, e11, e20, e21⟩ := blockIdx0 t
  funext j
  obtain ⟨p, q, rfl⟩ : ∃ (p : Fin 512) (q : Fin 2048), j = ix2 p q := ⟨j 0, j 1, eq_ix2 (n0 := 512) (n1 := 2048) j⟩
  show k0_pay1 (F := Ideal) (iblk0 V c 0 t) (iblk0 V c 1 t) (ix2 p q)
    = prod0 (V c main_v3) (V c main_v1) (((cfg0.win 2).blk t).view.emb (ix2 p q))
  refine blockEntry0 (V c main_v3) (V c main_v1) (iblk0 V c 0 t) (iblk0 V c 1 t) p q _ _ (fun k => ?_) (fun k => ?_)
  · show V c main_v3 (((cfg0.win 0).blk t).view.emb (ix2 p k)) = _
    refine congrArg (V c main_v3) (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 2048 + 1 * k.val = k.val; omega
  · show V c main_v1 (((cfg0.win 1).blk t).view.emb (ix2 q k)) = _
    refine congrArg (V c main_v1) (funext fun a => Fin.ext ?_)
    match a with
    | ⟨0, _⟩ => show win0_1.index t (0 : Fin 2) * 2048 + 1 * q.val = win0_2.index t (1 : Fin 2) * 2048 + 1 * q.val; omega
    | ⟨1, _⟩ => show win0_1.index t (1 : Fin 2) * 2048 + 1 * k.val = k.val; omega

/-- An index of the product is in point t's block iff each coordinate is in the block's range on its axis. -/
theorem mem_block0 (t : Fin cfg0.N) (i : S4096x6144.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v4).slice (win0_2.rect t)).set ↔ _
  rw [View.set_slice_whole, Rect.mem_set_unit]
  exact Iff.rfl

/-- The blocks tile the product: entry (r, s) is in block (r / 512, s / 2048). -/
theorem tiled0 (i : S4096x6144.Idx) : ∃ t : Fin cfg0.N, (cfg0.win 2).flush t = true ∧ i ∈ ((cfg0.win 2).blk t).view.set := by
  have hi0 : (i 0).val < 4096 := (i 0).isLt
  have hi1 : (i 1).val < 6144 := (i 1).isLt
  obtain ⟨t, ht⟩ := blockOnto0 ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_block0]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The array after the pipeline: the whole product of the two arrays as the pipeline finds them. -/
theorem final0 (c : Dev nD) : (dat0 (F := Ideal) V c).arrAt 2 cfg0.N
    = prod0 (V c main_v3) (V c main_v1) :=
  (dat0 (F := Ideal) V c).arrAt_eq_of_cover 2 (prod0 (V c main_v3) (V c main_v1)) (fun t _ => flushed0_eq V c t) tiled0

/-! ## Pipeline 2: the 4096×2048 by 2048×2048 product, from its 512×1024 blocks -/

/-- The whole product: entry (r, s) is Σₖ a[r,k] · b[s,k]. -/
abbrev prod2 (a : S4096x2048.Idx → Elt Ideal .bf16) (b : S2048x2048.Idx → Elt Ideal .bf16) : S4096x2048.Idx → Elt Ideal .f32 :=
  fun i => ∑ k : Fin 2048, a (ix2 (n0 := 4096) (i 0) k) * b (ix2 (n0 := 2048) (i 1) k)

/-- The product read at explicit coordinates. -/
theorem prod2_apply (a : S4096x2048.Idx → Elt Ideal .bf16) (b : S2048x2048.Idx → Elt Ideal .bf16) (r : Fin 4096) (s : Fin 2048) :
    prod2 a b (ix2 r s) = ∑ k : Fin 2048, a (ix2 r k) * b (ix2 s k) := rfl

/-- The block index maps over the grid: point t = 8·j + i takes row block i of the left factor, row block j of the
    right factor, and writes block (i, j) of the product; neither factor is cut along the contracted axis. -/
theorem blockIdx2 : ∀ t : Fin cfg2.N,
    win2_0.index t (0 : Fin 2) = t.val % 8 ∧ win2_0.index t (1 : Fin 2) = 0
    ∧ win2_1.index t (0 : Fin 2) = t.val / 8 ∧ win2_1.index t (1 : Fin 2) = 0
    ∧ win2_2.index t (0 : Fin 2) = t.val % 8 ∧ win2_2.index t (1 : Fin 2) = t.val / 8 :=
  (by decide +kernel : ∀ t : Fin grid2.N, _)

/-- Every block (i, j) of the product is some point's. -/
theorem blockOnto2 : ∀ (q0 : Fin 8) (q1 : Fin 2), ∃ t : Fin cfg2.N, win2_2.index t = ![q0.val, q1.val] :=
  (by decide +kernel : ∀ (q0 : Fin 8) (q1 : Fin 2), ∃ t : Fin grid2.N, win2_2.index t = ![q0.val, q1.val])

/-- One entry of a block product: when row p of the left block is row r of the left factor and row q of the right
    block is row s of the right factor, the payload at (p, q) is the product's entry (r, s). -/
theorem blockEntry2 (a : S4096x2048.Idx → Elt Ideal .bf16) (b : S2048x2048.Idx → Elt Ideal .bf16)
    (x0 : Vec Ideal S512x2048 .bf16) (x1 : Vec Ideal S1024x2048 .bf16)
    (p : Fin 512) (q : Fin 1024) (r : Fin 4096) (s : Fin 2048)
    (h0 : ∀ k : Fin 2048, x0 (ix2 p k) = a (ix2 r k)) (h1 : ∀ k : Fin 2048, x1 (ix2 q k) = b (ix2 s k)) :
    k2_pay1 (F := Ideal) x0 x1 (ix2 p q) = ∑ k : Fin 2048, a (ix2 r k) * b (ix2 s k) := by
  rw [ValMat.pay2_apply]
  exact Finset.sum_congr rfl fun k _ => by rw [h0 k, h1 k]

/-- What point t writes back is block t of the product of the two arrays as the pipeline finds them. -/
theorem flushed2_eq (c : Dev nD) (t : Fin cfg2.N) :
    (dat2 (F := Ideal) V c).flushed 2 t = ((cfg2.win 2).blk t).view.read (Elt Ideal) (prod2 (V c main_v7) (V c main_v2)) := by
  show (cfg2.win 2).cut (grid2.coords t) ((dat2 V c).after 2 t) = _
  rw [after2_2]
  unfold out2_2
  rw [View.canon_unit_zero hz]
  simp only [View.ld_unit_zero (S := S512x2048) hz, View.ld_unit_zero (S := S1024x2048) hz]
  obtain ⟨e00, e01, e10, e11, e20, e21⟩ := blockIdx2 t
  funext j
  obtain ⟨p, q, rfl⟩ : ∃ (p : Fin 512) (q : Fin 1024), j = ix2 p q := ⟨j 0, j 1, eq_ix2 (n0 := 512) (n1 := 1024) j⟩
  show k2_pay1 (F := Ideal) (iblk2 V c 0 t) (iblk2 V c 1 t) (ix2 p q)
    = prod2 (V c main_v7) (V c main_v2) (((cfg2.win 2).blk t).view.emb (ix2 p q))
  refine blockEntry2 (V c main_v7) (V c main_v2) (iblk2 V c 0 t) (iblk2 V c 1 t) p q _ _ (fun k => ?_) (fun k => ?_)
  · show V c main_v7 (((cfg2.win 0).blk t).view.emb (ix2 p k)) = _
    refine congrArg (V c main_v7) (funext fun a => Fin.ext ?_)
    match a with
    | ⟨0, _⟩ => show win2_0.index t (0 : Fin 2) * 512 + 1 * p.val = win2_2.index t (0 : Fin 2) * 512 + 1 * p.val; omega
    | ⟨1, _⟩ => show win2_0.index t (1 : Fin 2) * 2048 + 1 * k.val = k.val; omega
  · show V c main_v2 (((cfg2.win 1).blk t).view.emb (ix2 q k)) = _
    refine congrArg (V c main_v2) (funext fun a => Fin.ext ?_)
    match a with
    | ⟨0, _⟩ => show win2_1.index t (0 : Fin 2) * 1024 + 1 * q.val = win2_2.index t (1 : Fin 2) * 1024 + 1 * q.val; omega
    | ⟨1, _⟩ => show win2_1.index t (1 : Fin 2) * 2048 + 1 * k.val = k.val; omega

/-- An index of the product is in point t's block iff each coordinate is in the block's range on its axis. -/
theorem mem_block2 (t : Fin cfg2.N) (i : S4096x2048.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v8).slice (win2_2.rect t)).set ↔ _
  rw [View.set_slice_whole, Rect.mem_set_unit]
  exact Iff.rfl

/-- The blocks tile the product: entry (r, s) is in block (r / 512, s / 1024). -/
theorem tiled2 (i : S4096x2048.Idx) : ∃ t : Fin cfg2.N, (cfg2.win 2).flush t = true ∧ i ∈ ((cfg2.win 2).blk t).view.set := by
  have hi0 : (i 0).val < 4096 := (i 0).isLt
  have hi1 : (i 1).val < 2048 := (i 1).isLt
  obtain ⟨t, ht⟩ := blockOnto2 ⟨(i 0).val / 512, by omega⟩ ⟨(i 1).val / 1024, by omega⟩
  have q0 : win2_2.index t (0 : Fin 2) = (i 0).val / 512 := congrFun ht 0
  have q1 : win2_2.index t (1 : Fin 2) = (i 1).val / 1024 := congrFun ht 1
  refine ⟨t, flush2_2 t, ?_⟩
  rw [mem_block2]
  intro a
  match a with
  | ⟨0, _⟩ => show win2_2.index t (0 : Fin 2) * 512 ≤ (i 0).val ∧ (i 0).val < win2_2.index t (0 : Fin 2) * 512 + 512; omega
  | ⟨1, _⟩ => show win2_2.index t (1 : Fin 2) * 1024 ≤ (i 1).val ∧ (i 1).val < win2_2.index t (1 : Fin 2) * 1024 + 1024; omega

/-- The array after the pipeline: the whole product of the two arrays as the pipeline finds them. -/
theorem final2 (c : Dev nD) : (dat2 (F := Ideal) V c).arrAt 2 cfg2.N
    = prod2 (V c main_v7) (V c main_v2) :=
  (dat2 (F := Ideal) V c).arrAt_eq_of_cover 2 (prod2 (V c main_v7) (V c main_v2)) (fun t _ => flushed2_eq V c t) tiled2

end Cert.KernelIdeal.ValLin

end
-- ==== Proof.ValAttnBlk.lean ====
/-
  The attention call's blocks as parts of its arrays: the query, key and value blocks at a point are rows of the
  projection array at the point's batch element and tiles, and each row of the output array ends holding what the
  last point of its query tile left in the output block.
-/
import proofs.«411364_j13013750907089_3_alg».proof.Proof.KI.Reg1Data
import Idealize.ShloMosaic.Lib.Pipeline.Value
import Idealize.ShloMosaic.Lib.ValueIdx

set_option maxRecDepth 16384

noncomputable section

namespace Cert.KernelIdeal.ValAttnArr

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

-- the core's buffer contents when the attention call is entered
variable (V : (c : Dev nD) → (b : Ref sig .tc) → Buf (Elt Ideal) ((c : Thread nD τ).loc b))

/-- The projection array as the call finds it: [batch, row, q/k/v, head, lane]. -/
abbrev arr5 (c : Dev nD) : S2x2048x3x16x128.Idx → EReal := V c main_v5

/-- The batch element of point t, -/
def bOf (t : Fin cfgA.N) : Fin 2 := ⟨(cfgA.grid.coords t 0).val, (cfgA.grid.coords t 0).isLt⟩
/-- its query tile, -/
def qiN (t : Fin cfgA.N) : ℕ := (qiW t).toNat
/-- and its key tile. -/
def kiN (t : Fin cfgA.N) : ℕ := (kiW t).toNat

/-- Tiles are numbered below 8, and a point's key tile is not after its query tile. -/
theorem qiN_lt (t : Fin cfgA.N) : qiN t < 8 := (words_range t).2.1
theorem kiN_le (t : Fin cfgA.N) : kiN t ≤ qiN t := (words_range t).1

/-- Row r of tile qi (or ki) is a row of the array. -/
theorem rowQ_lt (t : Fin cfgA.N) (r : Fin 256) : 256 * qiN t + r.val < 2048 := by
  have := qiN_lt t; have := r.isLt; omega
theorem rowK_lt (t : Fin cfgA.N) (r : Fin 256) : 256 * kiN t + r.val < 2048 := by
  have := qiN_lt t; have := kiN_le t; have := r.isLt; omega

/-- The block index maps over the 72 points: the query window takes block (b, qi) of part 0, the key window block
    (b, ki) of part 1, the value window block (b, ki) of part 2 of the projection array; the output window block
    (b, qi) of the output array. -/
theorem blockIdxA : ∀ t : Fin cfgA.N,
    ((cfgA.win 0).index t (0 : Fin 5) = (cfgA.grid.coords t 0).val ∧ (cfgA.win 0).index t (1 : Fin 5) = (qiW t).toNat
      ∧ (cfgA.win 0).index t (2 : Fin 5) = 0 ∧ (cfgA.win 0).index t (3 : Fin 5) = 0 ∧ (cfgA.win 0).index t (4 : Fin 5) = 0)
    ∧ ((cfgA.win 1).index t (0 : Fin 5) = (cfgA.grid.coords t 0).val ∧ (cfgA.win 1).index t (1 : Fin 5) = (kiW t).toNat
      ∧ (cfgA.win 1).index t (2 : Fin 5) = 1 ∧ (cfgA.win 1).index t (3 : Fin 5) = 0 ∧ (cfgA.win 1).index t (4 : Fin 5) = 0)
    ∧ ((cfgA.win 2).index t (0 : Fin 5) = (cfgA.grid.coords t 0).val ∧ (cfgA.win 2).index t (1 : Fin 5) = (kiW t).toNat
      ∧ (cfgA.win 2).index t (2 : Fin 5) = 2 ∧ (cfgA.win 2).index t (3 : Fin 5) = 0 ∧ (cfgA.win 2).index t (4 : Fin 5) = 0)
    ∧ ((cfgA.win 3).index t (0 : Fin 4) = (cfgA.grid.coords t 0).val ∧ (cfgA.win 3).index t (1 : Fin 4) = (qiW t).toNat
      ∧ (cfgA.win 3).index t (2 : Fin 4) = 0 ∧ (cfgA.win 3).index t (3 : Fin 4) = 0) := by decide +kernel

/-- The query block at point t is rows 256·qi … of part 0 of batch element b. -/
theorem qBlk_at (c : Dev nD) (t : Fin cfgA.N) (r : Fin 256) (h : Fin 16) (dd : Fin 128) :
    qBlk V c t (ix5 0 r 0 h dd) = arr5 V c (ix5 (bOf t) ⟨256 * qiN t + r.val, rowQ_lt t r⟩ 0 h dd) := by
  obtain ⟨⟨e0, e1, e2, e3, e4⟩, -, -, -⟩ := blockIdxA t
  show V c main_v5 (((cfgA.win 0).blk t).view.emb (ix5 0 r 0 h dd)) = V c main_v5 _
  refine congrArg (V c main_v5) (funext fun a => Fin.ext ?_)
  match a with
  | ⟨0, _⟩ => show (cfgA.win 0).index t (0 : Fin 5) * 1 + 1 * 0 = (cfgA.grid.coords t 0).val; omega
  | ⟨1, _⟩ => show (cfgA.win 0).index t (1 : Fin 5) * 256 + 1 * r.val = 256 * (qiW t).toNat + r.val; omega
  | ⟨2, _⟩ => show (cfgA.win 0).index t (2 : Fin 5) * 1 + 1 * 0 = 0; omega
  | ⟨3, _⟩ => show (cfgA.win 0).index t (3 : Fin 5) * 16 + 1 * h.val = h.val; omega
  | ⟨4, _⟩ => show (cfgA.win 0).index t (4 : Fin 5) * 128 + 1 * dd.val = dd.val; omega

/-- The key block at point t is rows 256·ki … of part 1 of batch element b. -/
theorem kBlk_at (c : Dev nD) (t : Fin cfgA.N) (r : Fin 256) (h : Fin 16) (dd : Fin 128) :
    kBlk V c t (ix5 0 r 0 h dd) = arr5 V c (ix5 (bOf t) ⟨256 * kiN t + r.val, rowK_lt t r⟩ 1 h dd) := by
  obtain ⟨-, ⟨e0, e1, e2, e3, e4⟩, -, -⟩ := blockIdxA t
  show V c main_v5 (((cfgA.win 1).blk t).view.emb (ix5 0 r 0 h dd)) = V c main_v5 _
  refine congrArg (V c main_v5) (funext fun a => Fin.ext ?_)
  match a with
  | ⟨0, _⟩ => show (cfgA.win 1).index t (0 : Fin 5) * 1 + 1 * 0 = (cfgA.grid.coords t 0).val; omega
  | ⟨1, _⟩ => show (cfgA.win 1).index t (1 : Fin 5) * 256 + 1 * r.val = 256 * (kiW t).toNat + r.val; omega
  | ⟨2, _⟩ => show (cfgA.win 1).index t (2 : Fin 5) * 1 + 1 * 0 = 1; omega
  | ⟨3, _⟩ => show (cfgA.win 1).index t (3 : Fin 5) * 16 + 1 * h.val = h.val; omega
  | ⟨4, _⟩ => show (cfgA.win 1).index t (4 : Fin 5) * 128 + 1 * dd.val = dd.val; omega

/-- The value block at point t is rows 256·ki … of part 2 of batch element b. -/
theorem vBlk_at (c : Dev nD) (t : Fin cfgA.N) (r : Fin 256) (h : Fin 16) (dd : Fin 128) :
    vBlk V c t (ix5 0 r 0 h dd) = arr5 V c (ix5 (bOf t) ⟨256 * kiN t + r.val, rowK_lt t r⟩ 2 h dd) := by
  obtain ⟨-, -, ⟨e0, e1, e2, e3, e4⟩, -⟩ := blockIdxA t
  show V c main_v5 (((cfgA.win 2).blk t).view.emb (ix5 0 r 0 h dd)) = V c main_v5 _
  refine congrArg (V c main_v5) (funext fun a => Fin.ext ?_)
  match a with
  | ⟨0, _⟩ => show (cfgA.win 2).index t (0 : Fin 5) * 1 + 1 * 0 = (cfgA.grid.coords t 0).val; omega
  | ⟨1, _⟩ => show (cfgA.win 2).index t (1 : Fin 5) * 256 + 1 * r.val = 256 * (kiW t).toNat + r.val; omega
  | ⟨2, _⟩ => show (cfgA.win 2).index t (2 : Fin 5) * 1 + 1 * 0 = 2; omega
  | ⟨3, _⟩ => show (cfgA.win 2).index t (3 : Fin 5) * 16 + 1 * h.val = h.val; omega
  | ⟨4, _⟩ => show (cfgA.win 2).index t (4 : Fin 5) * 128 + 1 * dd.val = dd.val; omega

/-! ## The output array: each row ends at what the last point of its query tile left -/

/-- The pair (qi, qi) is the (qi·(qi+3)/2)-th of the lower triangle listed row by row. -/
theorem lastPt_lt (b : Fin 2) (qi : Fin 8) : 36 * b.val + (qi.val * (qi.val + 3)) / 2 < cfgA.N := by
  rw [N_A]
  have hb := b.isLt
  have hq : qi.val * (qi.val + 3) ≤ 7 * 10 := Nat.mul_le_mul (by have := qi.isLt; omega) (by have := qi.isLt; omega)
  omega

/-- The last point of query tile qi of batch element b: the one whose tiles are (qi, qi). -/
def lastPt (b : Fin 2) (qi : Fin 8) : Fin cfgA.N := ⟨36 * b.val + (qi.val * (qi.val + 3)) / 2, lastPt_lt b qi⟩

/-- Its query tile, key tile and batch element. -/
theorem lastPt_words : ∀ (b : Fin 2) (qi : Fin 8), qiN (lastPt b qi) = qi.val ∧ kiN (lastPt b qi) = qi.val ∧ bOf (lastPt b qi) = b := by
  decide +kernel

/-- The output block is written back there. -/
theorem flush_lastPt : ∀ (b : Fin 2) (qi : Fin 8), (cfgA.win 3).flush (lastPt b qi) = true := by
  decide +kernel

/-- Two points that write the output block back write different blocks. -/
theorem outIdx_inj : ∀ t t' : Fin cfgA.N, (cfgA.win 3).flush t = true → (cfgA.win 3).flush t' = true →
    (cfgA.win 3).index t = (cfgA.win 3).index t' → t = t' := by
  decide +kernel

/-- So the blocks written back are pairwise disjoint. -/
theorem outDisjoint : ∀ t t' : Fin cfgA.N, (cfgA.win 3).flush t = true → (cfgA.win 3).flush t' = true → t ≠ t' →
    Disjoint ((cfgA.win 3).blk t).view.set ((cfgA.win 3).blk t').view.set :=
  fun t t' hf hf' hne => (cfgA.win 3).disjoint_blk fun h => hne (outIdx_inj t t' hf hf' h)

/-- A row of the block written back at point t: row 256·qi + r of batch element b of the output array ends holding
    row r of what the body left in the output block at t. -/
theorem out_at_flush (c : Dev nD) (t : Fin cfgA.N) (hf : (cfgA.win 3).flush t = true) (r : Fin 256) (h : Fin 16) (dd : Fin 128) :
    (dat1 V c).arrAt 3 cfgA.N (ix4 (bOf t) ⟨256 * qiN t + r.val, rowQ_lt t r⟩ h dd) = (dat1 V c).after 3 t (ix4 0 r h dd) := by
  obtain ⟨-, -, -, ⟨e0, e1, e2, e3⟩⟩ := blockIdxA t
  have hemb : (((cfgA.win 3).blk t).view.emb (ix4 0 r h dd) : S2x2048x16x128.Idx) = ix4 (bOf t) ⟨256 * qiN t + r.val, rowQ_lt t r⟩ h dd :=
    funext fun a => Fin.ext (by
      match a with
      | ⟨0, _⟩ => show (cfgA.win 3).index t (0 : Fin 4) * 1 + 1 * 0 = (cfgA.grid.coords t 0).val; omega
      | ⟨1, _⟩ => show (cfgA.win 3).index t (1 : Fin 4) * 256 + 1 * r.val = 256 * (qiW t).toNat + r.val; omega
      | ⟨2, _⟩ => show (cfgA.win 3).index t (2 : Fin 4) * 16 + 1 * h.val = h.val; omega
      | ⟨3, _⟩ => show (cfgA.win 3).index t (3 : Fin 4) * 128 + 1 * dd.val = dd.val; omega)
  have key := (dat1 V c).arrAt_emb_eq_flushed 3 outDisjoint t hf (ix4 0 r h dd)
  exact (congrArg ((dat1 V c).arrAt 3 cfgA.N) hemb).symm.trans (key.trans (cast_eq _ _))

/-- Row i lies in tile i / 256. -/
theorem tile_lt (i : Fin 2048) : i.val / 256 < 8 := by have := i.isLt; omega
theorem tileRow_lt (i : Fin 2048) : i.val % 256 < 256 := Nat.mod_lt _ (by decide)

/-- Every row of the output array ends holding its row of what the last point of its query tile left in the output
    block: that point writes the block back, and no other write-back touches it. -/
theorem out_arr (c : Dev nD) (b : Fin 2) (i : Fin 2048) (h : Fin 16) (dd : Fin 128) :
    (dat1 V c).arrAt 3 cfgA.N (ix4 b i h dd)
      = (dat1 V c).after 3 (lastPt b ⟨i.val / 256, tile_lt i⟩) (ix4 0 ⟨i.val % 256, tileRow_lt i⟩ h dd) := by
  obtain ⟨hq, -, hb⟩ := lastPt_words b ⟨i.val / 256, tile_lt i⟩
  have hq' : qiN (lastPt b ⟨i.val / 256, tile_lt i⟩) = i.val / 256 := hq
  refine Eq.trans (congrArg ((dat1 V c).arrAt 3 cfgA.N) ?_)
    (out_at_flush V c (lastPt b ⟨i.val / 256, tile_lt i⟩) (flush_lastPt b _) ⟨i.val % 256, tileRow_lt i⟩ h dd)
  funext a
  apply Fin.ext
  match a with
  | ⟨0, _⟩ => show b.val = (bOf (lastPt b ⟨i.val / 256, tile_lt i⟩)).val; rw [hb]
  | ⟨1, _⟩ => show i.val = 256 * qiN (lastPt b ⟨i.val / 256, tile_lt i⟩) + i.val % 256; omega
  | ⟨2, _⟩ => rfl
  | ⟨3, _⟩ => rfl

end Cert.KernelIdeal.ValAttnArr

end
-- ==== Proof.ValAttn.lean ====
import proofs.«411364_j13013750907089_3_alg».proof.Proof.Gen.KernelIdeal.Skeleton
import proofs.«411364_j13013750907089_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

/-! # The attention body's payloads, read at an index on the extended reals

Each payload of the attention kernel's body is a vector computed from the vectors read before it. This module reads
every one of them at one index, at the ideal values: the initial running maximum, sum and accumulator; a loaded block
laid out heads-first; the scaled, causally masked scores of one query block against one key block; the new running
maximum; the two exponentials of the online softmax; the new running sum and accumulator; and the normalised output
block. The two batched products are read as plain sums over their one contracted axis. -/

noncomputable section

namespace Cert.KernelIdeal.ValAttn

open Cert.KernelIdeal Cert.KernelIdeal.Gen Idealize.ShloMosaic Idealize.ShloMosaic.ValueIdx Idealize.SL.Sem Cert.Spec

/-- The bit pattern of f32's negative infinity reads, on the extended reals, as the bottom element. -/
theorem ofBits_neg_inf_f32 : Ideal.ofBits .f32 0xFF800000#32 = ⊥ := by
  simp [Ideal.ofBits, Ideal.ieee]

theorem pay1_apply (j : S16x256x1.Idx) : k1_pay1 (F := Ideal) j = ⊥ := by
  unfold k1_pay1
  rw [shapeCast_self]
  exact ofBits_neg_inf_f32

theorem pay2_apply (j : S16x256x1.Idx) : k1_pay2 (F := Ideal) j = 0 := by
  unfold k1_pay2
  rw [shapeCast_self]
  exact Ideal.ofBits_zero_f32

theorem pay3_apply (j : S16x256x128.Idx) : k1_pay3 (F := Ideal) j = 0 := by
  unfold k1_pay3
  rw [shapeCast_self]
  exact Ideal.ofBits_zero_f32

/-- A block [1, n, 1, h, d] cast to [n, h, d] reads, at (r, h, dd), the block at (0, r, 0, h, dd). -/
theorem cast_block_apply {α : Type} (x : S1x256x1x16x128.Idx → α) (r : Fin 256) (h : Fin 16) (dd : Fin 128) :
    shapeCast S256x16x128 x shapeCasts_S1x256x1x16x128_S256x16x128 (ix3 r h dd) = x (ix5 0 r 0 h dd) :=
  shapeCast_apply x _ _ _ (by
    rw [Shape.rowMajor_val_five, Shape.rowMajor_val_three]
    show ((((0 * 256 + r.val) * 1 + 0) * 16 + h.val) * 128 + dd.val) = (r.val * 16 + h.val) * 128 + dd.val
    omega)

/-- Rows and heads exchanged: [n, h, d] transposed by [1, 0, 2] reads, at (h, r, dd), the operand at (r, h, dd). -/
theorem transpose_rows_heads_apply {α : Type} (x : S256x16x128.Idx → α) (h : Fin 16) (r : Fin 256) (dd : Fin 128) :
    transpose S16x256x128 [1, 0, 2] x transposes_S256x16x128_p1_0_2_S16x256x128 (ix3 h r dd) = x (ix3 r h dd) :=
  transpose_apply _ x _ _ _ fun c => match c with | ⟨0, _⟩ => rfl | ⟨1, _⟩ => rfl | ⟨2, _⟩ => rfl

/-- A loaded block, cast and transposed to heads-first, read at (h, r, dd). -/
theorem heads_first_apply {α : Type} (x : S1x256x1x16x128.Idx → α) (h : Fin 16) (r : Fin 256) (dd : Fin 128) :
    transpose S16x256x128 [1, 0, 2]
      (shapeCast S256x16x128 (shapeCast S1x256x1x16x128 x shapeCasts_S1x256x1x16x128_S1x256x1x16x128)
        shapeCasts_S1x256x1x16x128_S256x16x128) transposes_S256x16x128_p1_0_2_S16x256x128 (ix3 h r dd)
      = x (ix5 0 r 0 h dd) := by
  rw [shapeCast_self]
  exact (transpose_rows_heads_apply _ h r dd).trans (cast_block_apply x r h dd)

theorem pay4_apply (v : Vec Ideal S1x256x1x16x128 .bf16) (h : Fin 16) (r : Fin 256) (dd : Fin 128) :
    k1_pay4 (F := Ideal) v (ix3 h r dd) = v (ix5 0 r 0 h dd) := by
  unfold k1_pay4
  exact heads_first_apply v h r dd

/-- A column [16, 256, 1] broadcast along its unit axis reads, at (h, r, c), the column at (h, r, 0). -/
theorem bcast_col_apply {α : Type} {n : ℕ} (x : S16x256x1.Idx → α) (hb : S16x256x1.Broadcasts ⟨3, ![16, 256, n]⟩)
    (h : Fin 16) (r : Fin 256) (c : Fin n) :
    broadcastTo ⟨3, ![16, 256, n]⟩ x hb (ix3 h r c) = x (ix3 h r 0) := by
  refine broadcastTo_apply x hb (ix3 h r c) (ix3 h r 0) fun ax => ?_
  match ax with
  | ⟨0, _⟩ => rfl
  | ⟨1, _⟩ => rfl
  | ⟨2, _⟩ => rfl

/-- Heads and rows exchanged back: [h, n, d] transposed by [1, 0, 2] reads, at (r, h, dd), the operand at (h, r, dd). -/
theorem transpose_heads_rows_apply {α : Type} (x : S16x256x128.Idx → α) (r : Fin 256) (h : Fin 16) (dd : Fin 128) :
    transpose S256x16x128 [1, 0, 2] x transposes_S16x256x128_p1_0_2_S256x16x128 (ix3 r h dd) = x (ix3 h r dd) :=
  transpose_apply _ x _ _ _ fun c => match c with | ⟨0, _⟩ => rfl | ⟨1, _⟩ => rfl | ⟨2, _⟩ => rfl

theorem pay12_apply (a : Vec Ideal S16x256x128 .f32) (l : Vec Ideal S16x256x1 .f32) (r : Fin 256) (h : Fin 16) (dd : Fin 128) :
    k1_pay12 (F := Ideal) a l (ix4 0 r h dd) = Ideal.div (a (ix3 h r dd)) (l (ix3 h r 0)) := by
  unfold k1_pay12
  refine (truncf_apply (ψ := .bf16) _ bitsLt_bf16_f32 _).trans ?_
  refine (shapeCast_abc_1abc_apply _ shapeCasts_S256x16x128_S1x256x16x128 0 r h dd).trans ?_
  refine (transpose_heads_rows_apply _ r h dd).trans ?_
  refine (divf_apply _ _ _).trans ?_
  exact congrArg (Ideal.div (a (ix3 h r dd))) (bcast_col_apply l broadcasts_S16x256x1_S16x256x128 h r dd)

/-! ## The scores' product: batch axis 0, the last axis of both operands contracted -/

theorem lhs_qk_0 (i : S16x256x256.Idx) (q : dot_S16x256x128_S16x256x128_S16x256x256_2_2_1_1_0_0.contr.Idx) :
    (dot_S16x256x128_S16x256x128_S16x256x256_2_2_1_1_0_0.lhsIdx i q 0).val = (i 0).val := by
  unfold DotDims.lhsIdx
  rw [dif_pos (show (0 : Fin S16x256x128.rank) ∈ dot_S16x256x128_S16x256x128_S16x256x256_2_2_1_1_0_0.lhsBatch by decide)]
  rfl
theorem lhs_qk_1 (i : S16x256x256.Idx) (q : dot_S16x256x128_S16x256x128_S16x256x256_2_2_1_1_0_0.contr.Idx) :
    (dot_S16x256x128_S16x256x128_S16x256x256_2_2_1_1_0_0.lhsIdx i q 1).val = (i 1).val := by
  unfold DotDims.lhsIdx
  rw [dif_neg (show ¬(1 : Fin S16x256x128.rank) ∈ dot_S16x256x128_S16x256x128_S16x256x256_2_2_1_1_0_0.lhsBatch by decide), dif_pos (show (1 : Fin S16x256x128.rank) ∈ dot_S16x256x128_S16x256x128_S16x256x256_2_2_1_1_0_0.lhsNonContracting by decide)]
  rfl
theorem lhs_qk_2 (i : S16x256x256.Idx) (q : dot_S16x256x128_S16x256x128_S16x256x256_2_2_1_1_0_0.contr.Idx) :
    (dot_S16x256x128_S16x256x128_S16x256x256_2_2_1_1_0_0.lhsIdx i q 2).val = (q ⟨0, by decide⟩).val :=
  dot_S16x256x128_S16x256x128_S16x256x256_2_2_1_1_0_0.lhsIdx_val_of_single rfl i q
theorem rhs_qk_0 (i : S16x256x256.Idx) (q : dot_S16x256x128_S16x256x128_S16x256x256_2_2_1_1_0_0.contr.Idx) :
    (dot_S16x256x128_S16x256x128_S16x256x256_2_2_1_1_0_0.rhsIdx i q 0).val = (i 0).val := by
  unfold DotDims.rhsIdx
  rw [dif_pos (show (0 : Fin S16x256x128.rank) ∈ dot_S16x256x128_S16x256x128_S16x256x256_2_2_1_1_0_0.rhsBatch by decide)]
  rfl
theorem rhs_qk_1 (i : S16x256x256.Idx) (q : dot_S16x256x128_S16x256x128_S16x256x256_2_2_1_1_0_0.contr.Idx) :
    (dot_S16x256x128_S16x256x128_S16x256x256_2_2_1_1_0_0.rhsIdx i q 1).val = (i 2).val := by
  unfold DotDims.rhsIdx
  rw [dif_neg (show ¬(1 : Fin S16x256x128.rank) ∈ dot_S16x256x128_S16x256x128_S16x256x256_2_2_1_1_0_0.rhsBatch by decide), dif_pos (show (1 : Fin S16x256x128.rank) ∈ dot_S16x256x128_S16x256x128_S16x256x256_2_2_1_1_0_0.rhsNonContracting by decide)]
  rfl
theorem rhs_qk_2 (i : S16x256x256.Idx) (q : dot_S16x256x128_S16x256x128_S16x256x256_2_2_1_1_0_0.contr.Idx) :
    (dot_S16x256x128_S16x256x128_S16x256x256_2_2_1_1_0_0.rhsIdx i q 2).val = (q ⟨0, by decide⟩).val :=
  dot_S16x256x128_S16x256x128_S16x256x256_2_2_1_1_0_0.rhsIdx_val_of_single rfl i q

/-- The scores' product into the zero splat, read at (h, r, c): the sum over the 128 entries of head h of row r of the
    left operand times row c of the right. -/
theorem matmul_qk_apply (a b : FVec Ideal S16x256x128 .bf16) (h : Fin 16) (r c : Fin 256) :
    matmul dot_S16x256x128_S16x256x128_S16x256x256_2_2_1_1_0_0 none a b (constant (F := Ideal) S16x256x256 .f32 0x00000000#32) (ix3 h r c)
      = ∑ dd : Fin 128, a (ix3 h r dd) * b (ix3 h c dd) := by
  refine (Ideal.matmul_constant_zero_apply dot_S16x256x128_S16x256x128_S16x256x256_2_2_1_1_0_0 none a b (ix3 h r c)).trans ?_
  rw [← Equiv.sum_comp (contrEquiv1 dot_S16x256x128_S16x256x128_S16x256x256_2_2_1_1_0_0 128 rfl rfl).symm]
  refine Finset.sum_congr rfl fun k _ => ?_
  have hk := contrEquiv1_symm_val dot_S16x256x128_S16x256x128_S16x256x256_2_2_1_1_0_0 128 rfl rfl k
  have el : dot_S16x256x128_S16x256x128_S16x256x256_2_2_1_1_0_0.lhsIdx (ix3 h r c) ((contrEquiv1 dot_S16x256x128_S16x256x128_S16x256x256_2_2_1_1_0_0 128 rfl rfl).symm k) = ix3 h r k := funext fun a => Fin.ext (by
    match a with
    | ⟨0, _⟩ => exact lhs_qk_0 _ _
    | ⟨1, _⟩ => exact lhs_qk_1 _ _
    | ⟨2, _⟩ => exact (lhs_qk_2 _ _).trans hk)
  have er : dot_S16x256x128_S16x256x128_S16x256x256_2_2_1_1_0_0.rhsIdx (ix3 h r c) ((contrEquiv1 dot_S16x256x128_S16x256x128_S16x256x256_2_2_1_1_0_0 128 rfl rfl).symm k) = ix3 h c k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- The named scale is the specification's reciprocal divisor. -/
theorem inv_scale_eq : Named.named (F := Ideal) κ "inv_scale" (φ := .f32) 0x3DB504F3#32 = invD :=
  IdealRules.named_const.ideal_named_scalar _ _ _ _ rfl

/-- The named mask value is the bottom element. -/
theorem neg_big_eq : Named.named (F := Ideal) κ "neg_big" (φ := .f32) 0xF149F2CA#32 = (⊥ : EReal) :=
  IdealRules.named_const.ideal_named_scalar _ _ _ _ rfl

/-! ## The causal mask: a signed comparison of two small words -/

/-- A word below 2^31 reads, signed, as its natural. -/
theorem toInt_ofNat_small (a : ℕ) (ha : a < 2147483648) : (BitVec.ofNat 32 a).toInt = (a : Int) := by
  rw [BitVec.toInt_eq_toNat_cond, BitVec.toNat_ofNat]
  have : a % 2 ^ 32 = a := Nat.mod_eq_of_lt (by omega)
  rw [this, if_pos (by omega)]

/-- Signed order of two words below 2^31 is the order of the naturals. -/
theorem sle_ofNat (a b : ℕ) (ha : a < 2147483648) (hb : b < 2147483648) :
    (BitVec.ofNat 32 a).sle (BitVec.ofNat 32 b) = decide (a ≤ b) := by
  unfold BitVec.sle
  rw [toInt_ofNat_small a ha, toInt_ofNat_small b hb]
  simp

/-- A coordinate plus a block number times the block length, as one word. -/
theorem word_affine (x n : ℕ) : BitVec.ofNat 32 x + BitVec.ofNat 32 n * 256#32 = BitVec.ofNat 32 (x + n * 256) := by
  rw [BitVec.ofNat_add, BitVec.ofNat_mul]

/-- The mask bit at row r of query block qi and column c of key block ki: the key's position is at most the query's. -/
theorem causal_bit (qi ki : ℕ) (hq : qi < 8) (hk : ki < 8) (r c : Fin 256) :
    IntOp.cmpi .sge (BitVec.ofNat 32 r.val + BitVec.ofNat 32 qi * 256#32) (BitVec.ofNat 32 c.val + BitVec.ofNat 32 ki * 256#32)
      = BitVec.ofBool (decide (256 * ki + c.val ≤ 256 * qi + r.val)) := by
  rw [word_affine, word_affine]
  show BitVec.ofBool ((BitVec.ofNat 32 (c.val + ki * 256)).sle (BitVec.ofNat 32 (r.val + qi * 256))) = _
  rw [sle_ofNat _ _ (by have := c.isLt; omega) (by have := r.isLt; omega)]
  congr 1
  simp only [decide_eq_decide]
  omega

/-- A select on a decided proposition's bit is the `if`. -/
theorem select_ofBool {α : Type} (p : Prop) [Decidable p] (a b : α) :
    Scalar.select (BitVec.ofBool (decide p)) a b = if p then a else b := by
  by_cases h : p
  · simp [h, Scalar.select]
  · simp [h, Scalar.select]

/-- The masked scaled scores at (h, r, c), over the raw table words: the mask's bit selects between the scaled dot
    product of query row r and key row c of head h, and the bottom element. -/
theorem pay5_raw (w1 w3 : BitVec 32) (q k : Vec Ideal S1x256x1x16x128 .bf16) (h : Fin 16) (r c : Fin 256) :
    k1_pay5 (F := Ideal) w1 w3 q k (ix3 h r c)
      = Scalar.select (IntOp.cmpi .sge (BitVec.ofNat 32 r.val + w1 * 256#32) (BitVec.ofNat 32 c.val + w3 * 256#32))
          ((∑ dd : Fin 128, q (ix5 0 r 0 h dd) * k (ix5 0 c 0 h dd)) * Cert.Spec.invD) ⊥ := by
  unfold k1_pay5
  refine (select_apply _ _ _ _).trans ?_
  have hm := (matmul_qk_apply
    (transpose S16x256x128 [1, 0, 2]
      (shapeCast S256x16x128 (shapeCast S1x256x1x16x128 q shapeCasts_S1x256x1x16x128_S1x256x1x16x128)
        shapeCasts_S1x256x1x16x128_S256x16x128) transposes_S256x16x128_p1_0_2_S16x256x128)
    (transpose S16x256x128 [1, 0, 2]
      (shapeCast S256x16x128 (shapeCast S1x256x1x16x128 k shapeCasts_S1x256x1x16x128_S1x256x1x16x128)
        shapeCasts_S1x256x1x16x128_S256x16x128) transposes_S256x16x128_p1_0_2_S16x256x128) h r c).trans
      (Finset.sum_congr rfl fun dd _ => congrArg₂ (· * ·) (heads_first_apply q h r dd) (heads_first_apply k h c dd))
  have e1 : iota .tc S16x256x256 32 [1] iota_S16x256x256_d1_w32 (ix3 h r c) = BitVec.ofNat 32 r.val :=
    iota_single_apply _ _ _ _ _ _
  have e2 : iota .tc S16x256x256 32 [2] iota_S16x256x256_d2_w32 (ix3 h r c) = BitVec.ofNat 32 c.val :=
    iota_single_apply _ _ _ _ _ _
  show Scalar.select (IntOp.cmpi .sge (iota .tc S16x256x256 32 [1] iota_S16x256x256_d1_w32 (ix3 h r c) + w1 * 256#32)
      (iota .tc S16x256x256 32 [2] iota_S16x256x256_d2_w32 (ix3 h r c) + w3 * 256#32))
    (matmul dot_S16x256x128_S16x256x128_S16x256x256_2_2_1_1_0_0 none _ _ (constant (F := Ideal) S16x256x256 .f32 0x00000000#32) (ix3 h r c)
      * Named.named (F := Ideal) κ "inv_scale" (φ := .f32) 0x3DB504F3#32)
    (Named.named (F := Ideal) κ "neg_big" (φ := .f32) 0xF149F2CA#32) = _
  rw [e1, e2, hm, inv_scale_eq, neg_big_eq]

theorem pay5_apply (qi ki : ℕ) (hq : qi < 8) (hk : ki < 8) (q k : Vec Ideal S1x256x1x16x128 .bf16)
    (h : Fin 16) (r c : Fin 256) :
    k1_pay5 (F := Ideal) (BitVec.ofNat 32 qi) (BitVec.ofNat 32 ki) q k (ix3 h r c)
      = if 256 * ki + c.val ≤ 256 * qi + r.val then
          (∑ dd : Fin 128, q (ix5 0 r 0 h dd) * k (ix5 0 c 0 h dd)) * Cert.Spec.invD else ⊥ := by
  rw [pay5_raw, causal_bit qi ki hq hk r c, select_ofBool]

/-! ## The row reductions over the key axis, and the column forms of the casts -/

/-- The index over (h, r) with column c put back on the reduced axis. -/
theorem lift_col (h : Fin 16) (r c : Fin 256) :
    reduces_S16x256x256_S16x256.lift (ix2 h r) c = ix3 h r c :=
  funext fun a => Fin.ext (by match a with | ⟨0, _⟩ => rfl | ⟨1, _⟩ => rfl | ⟨2, _⟩ => rfl)

/-- A [16, 256] array cast to a column [16, 256, 1] reads, at (h, r, 0), the operand at (h, r). -/
theorem cast_col_apply {α : Type} (x : S16x256.Idx → α) (h : Fin 16) (r : Fin 256) :
    shapeCast S16x256x1 x shapeCasts_S16x256_S16x256x1 (ix3 h r 0) = x (ix2 h r) :=
  shapeCast_apply x _ _ _ (by
    rw [Shape.rowMajor_val_two, Shape.rowMajor_val_three]
    show h.val * 256 + r.val = (h.val * 256 + r.val) * 1 + 0
    omega)

/-- The maximum over the key axis, from the bottom element, is the supremum of the row. -/
theorem rowmax_apply (src : FVec Ideal S16x256x256 .f32) (hφ : FKind.Formats .f32)
    (hacc : (0xFF800000#32 : BitVec 32) = FKind.maximumf.neutral .f32 hφ) (h : Fin 16) (r : Fin 256) :
    multiReduction .maximumf [2] S16x256 src 0xFF800000#32 reduces_S16x256x256_S16x256 hφ hacc (ix2 h r)
      = Finset.univ.sup fun c : Fin 256 => src (ix3 h r c) := by
  refine (Ideal.multiReduction_maximumf_single src _ reduces_S16x256x256_S16x256 hφ hacc (ix2 h r)).trans ?_
  have e : (src ∘ reduces_S16x256x256_S16x256.lift (ix2 h r)) = fun c : Fin 256 => src (ix3 h r c) :=
    funext fun c => congrArg src (lift_col h r c)
  have e0 : (FloatOps.ofBits (F := Ideal) .f32 0xFF800000#32 : EReal) = ⊥ := ofBits_neg_inf_f32
  rw [e, e0]
  rfl

/-- The sum over the key axis, from zero, is the sum of the row. -/
theorem rowsum_apply (src : FVec Ideal S16x256x256 .f32) (hφ : FKind.Formats .f32)
    (hacc : (0x00000000#32 : BitVec 32) = FKind.add.neutral .f32 hφ) (h : Fin 16) (r : Fin 256) :
    multiReduction .add [2] S16x256 src 0x00000000#32 reduces_S16x256x256_S16x256 hφ hacc (ix2 h r)
      = ∑ c : Fin 256, src (ix3 h r c) := by
  refine (Ideal.multiReduction_add_single src _ reduces_S16x256x256_S16x256 hφ hacc (ix2 h r)).trans ?_
  exact Finset.sum_congr rfl fun c _ => congrArg src (lift_col h r c)

theorem pay6_apply (v32 : FVec Ideal S16x256x256 .f32) (m : Vec Ideal S16x256x1 .f32) (h : Fin 16) (r : Fin 256) :
    k1_pay6 (F := Ideal) v32 m (ix3 h r 0)
      = max (m (ix3 h r 0)) (Finset.univ.sup fun c : Fin 256 => v32 (ix3 h r c)) := by
  unfold k1_pay6
  refine (maximumf_apply _ _ _).trans ?_
  refine congrArg (max (m (ix3 h r 0))) ?_
  refine (cast_col_apply _ h r).trans ?_
  exact rowmax_apply v32 _ _ h r

theorem pay11_apply (v32 : FVec Ideal S16x256x256 .f32) (m : Vec Ideal S16x256x1 .f32) (h : Fin 16) (r : Fin 256) :
    k1_pay11 (F := Ideal) v32 m (ix3 h r 0) = k1_pay6 (F := Ideal) v32 m (ix3 h r 0) := by
  unfold k1_pay11
  rw [shapeCast_self]

theorem pay7_apply (v32 : FVec Ideal S16x256x256 .f32) (m m' : Vec Ideal S16x256x1 .f32) (h : Fin 16) (r : Fin 256) :
    k1_pay7 (F := Ideal) v32 m m' (ix3 h r 0)
      = Ideal.exp (m' (ix3 h r 0) - k1_pay6 (F := Ideal) v32 m (ix3 h r 0)) := by
  unfold k1_pay7
  rfl

theorem pay8_apply (v32 : FVec Ideal S16x256x256 .f32) (m : Vec Ideal S16x256x1 .f32) (h : Fin 16) (r c : Fin 256) :
    k1_pay8 (F := Ideal) v32 m (ix3 h r c)
      = Ideal.exp (v32 (ix3 h r c) - k1_pay6 (F := Ideal) v32 m (ix3 h r 0)) := by
  unfold k1_pay8
  exact congrArg (fun t => Ideal.exp (v32 (ix3 h r c) - t))
    (bcast_col_apply (k1_pay6 (F := Ideal) v32 m) broadcasts_S16x256x1_S16x256x256 h r c)

theorem pay9_apply (v32 : FVec Ideal S16x256x256 .f32) (m m' l : Vec Ideal S16x256x1 .f32) (h : Fin 16) (r : Fin 256) :
    k1_pay9 (F := Ideal) v32 m m' l (ix3 h r 0)
      = k1_pay7 (F := Ideal) v32 m m' (ix3 h r 0) * l (ix3 h r 0) + ∑ c : Fin 256, k1_pay8 (F := Ideal) v32 m (ix3 h r c) := by
  unfold k1_pay9
  rw [shapeCast_self]
  refine (addf_apply _ _ _).trans ?_
  refine congrArg (k1_pay7 (F := Ideal) v32 m m' (ix3 h r 0) * l (ix3 h r 0) + ·) ?_
  refine (cast_col_apply _ h r).trans ?_
  exact rowsum_apply (k1_pay8 (F := Ideal) v32 m) _ _ h r

/-! ## The weights' product with the values: batch axis 0, the left operand's last axis against the right's middle one -/

theorem lhs_pv_0 (i : S16x256x128.Idx) (q : dot_S16x256x256_S16x256x128_S16x256x128_2_1_1_2_0_0.contr.Idx) :
    (dot_S16x256x256_S16x256x128_S16x256x128_2_1_1_2_0_0.lhsIdx i q 0).val = (i 0).val := by
  unfold DotDims.lhsIdx
  rw [dif_pos (show (0 : Fin S16x256x256.rank) ∈ dot_S16x256x256_S16x256x128_S16x256x128_2_1_1_2_0_0.lhsBatch by decide)]
  rfl
theorem lhs_pv_1 (i : S16x256x128.Idx) (q : dot_S16x256x256_S16x256x128_S16x256x128_2_1_1_2_0_0.contr.Idx) :
    (dot_S16x256x256_S16x256x128_S16x256x128_2_1_1_2_0_0.lhsIdx i q 1).val = (i 1).val := by
  unfold DotDims.lhsIdx
  rw [dif_neg (show ¬(1 : Fin S16x256x256.rank) ∈ dot_S16x256x256_S16x256x128_S16x256x128_2_1_1_2_0_0.lhsBatch by decide), dif_pos (show (1 : Fin S16x256x256.rank) ∈ dot_S16x256x256_S16x256x128_S16x256x128_2_1_1_2_0_0.lhsNonContracting by decide)]
  rfl
theorem lhs_pv_2 (i : S16x256x128.Idx) (q : dot_S16x256x256_S16x256x128_S16x256x128_2_1_1_2_0_0.contr.Idx) :
    (dot_S16x256x256_S16x256x128_S16x256x128_2_1_1_2_0_0.lhsIdx i q 2).val = (q ⟨0, by decide⟩).val :=
  dot_S16x256x256_S16x256x128_S16x256x128_2_1_1_2_0_0.lhsIdx_val_of_single rfl i q
theorem rhs_pv_0 (i : S16x256x128.Idx) (q : dot_S16x256x256_S16x256x128_S16x256x128_2_1_1_2_0_0.contr.Idx) :
    (dot_S16x256x256_S16x256x128_S16x256x128_2_1_1_2_0_0.rhsIdx i q 0).val = (i 0).val := by
  unfold DotDims.rhsIdx
  rw [dif_pos (show (0 : Fin S16x256x128.rank) ∈ dot_S16x256x256_S16x256x128_S16x256x128_2_1_1_2_0_0.rhsBatch by decide)]
  rfl
theorem rhs_pv_1 (i : S16x256x128.Idx) (q : dot_S16x256x256_S16x256x128_S16x256x128_2_1_1_2_0_0.contr.Idx) :
    (dot_S16x256x256_S16x256x128_S16x256x128_2_1_1_2_0_0.rhsIdx i q 1).val = (q ⟨0, by decide⟩).val :=
  dot_S16x256x256_S16x256x128_S16x256x128_2_1_1_2_0_0.rhsIdx_val_of_single rfl i q
theorem rhs_pv_2 (i : S16x256x128.Idx) (q : dot_S16x256x256_S16x256x128_S16x256x128_2_1_1_2_0_0.contr.Idx) :
    (dot_S16x256x256_S16x256x128_S16x256x128_2_1_1_2_0_0.rhsIdx i q 2).val = (i 2).val := by
  unfold DotDims.rhsIdx
  rw [dif_neg (show ¬(2 : Fin S16x256x128.rank) ∈ dot_S16x256x256_S16x256x128_S16x256x128_2_1_1_2_0_0.rhsBatch by decide), dif_pos (show (2 : Fin S16x256x128.rank) ∈ dot_S16x256x256_S16x256x128_S16x256x128_2_1_1_2_0_0.rhsNonContracting by decide)]
  rfl

/-- The weights' product with the values into the zero splat, read at (h, r, dd): the sum over the 256 key rows c of
    the weight at (h, r, c) times the value at (h, c, dd). -/
theorem matmul_pv_apply (p : FVec Ideal S16x256x256 .bf16) (v : FVec Ideal S16x256x128 .bf16)
    (h : Fin 16) (r : Fin 256) (dd : Fin 128) :
    matmul dot_S16x256x256_S16x256x128_S16x256x128_2_1_1_2_0_0 none p v (constant (F := Ideal) S16x256x128 .f32 0x00000000#32) (ix3 h r dd)
      = ∑ c : Fin 256, p (ix3 h r c) * v (ix3 h c dd) := by
  refine (Ideal.matmul_constant_zero_apply dot_S16x256x256_S16x256x128_S16x256x128_2_1_1_2_0_0 none p v (ix3 h r dd)).trans ?_
  rw [← Equiv.sum_comp (contrEquiv1 dot_S16x256x256_S16x256x128_S16x256x128_2_1_1_2_0_0 256 rfl rfl).symm]
  refine Finset.sum_congr rfl fun k _ => ?_
  have hk := contrEquiv1_symm_val dot_S16x256x256_S16x256x128_S16x256x128_2_1_1_2_0_0 256 rfl rfl k
  have el : dot_S16x256x256_S16x256x128_S16x256x128_2_1_1_2_0_0.lhsIdx (ix3 h r dd) ((contrEquiv1 dot_S16x256x256_S16x256x128_S16x256x128_2_1_1_2_0_0 256 rfl rfl).symm k) = ix3 h r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S16x256x256_S16x256x128_S16x256x128_2_1_1_2_0_0.rhsIdx (ix3 h r dd) ((contrEquiv1 dot_S16x256x256_S16x256x128_S16x256x128_2_1_1_2_0_0 256 rfl rfl).symm k) = ix3 h k dd := funext fun a => Fin.ext (by
    match a with
    | ⟨0, _⟩ => exact rhs_pv_0 _ _
    | ⟨1, _⟩ => exact (rhs_pv_1 _ _).trans hk
    | ⟨2, _⟩ => exact rhs_pv_2 _ _)
  rw [el, er]

theorem pay10_apply (v18 : FVec Ideal S16x256x128 .bf16) (v32 : FVec Ideal S16x256x256 .f32)
    (m m' : Vec Ideal S16x256x1 .f32) (a : Vec Ideal S16x256x128 .f32) (h : Fin 16) (r : Fin 256) (dd : Fin 128) :
    k1_pay10 (F := Ideal) v18 v32 m m' a (ix3 h r dd)
      = k1_pay7 (F := Ideal) v32 m m' (ix3 h r 0) * a (ix3 h r dd)
        + ∑ c : Fin 256, k1_pay8 (F := Ideal) v32 m (ix3 h r c) * v18 (ix3 h c dd) := by
  unfold k1_pay10
  rw [shapeCast_self]
  refine (addf_apply _ _ _).trans ?_
  refine congrArg₂ (· + ·) ?_ ?_
  · refine (mulf_apply _ _ _).trans ?_
    exact congrArg (· * a (ix3 h r dd))
      (bcast_col_apply (k1_pay7 (F := Ideal) v32 m m') broadcasts_S16x256x1_S16x256x128 h r dd)
  · exact matmul_pv_apply (truncf .bf16 (k1_pay8 (F := Ideal) v32 m) bitsLt_bf16_f32) v18 h r dd

end Cert.KernelIdeal.ValAttn

end
-- ==== Proof.Math.OnlineSoftmax.lean ====
import Idealize.ShloMosaic.PureOps.Ideal

/-!
# The streaming softmax on the extended reals

Scores `s : J → EReal` are reals or `⊥` (a masked key), values `v : J → EReal` are reals.  For a finite set
`S` of keys, `mx s S` is the maximum of the scores, `ls s S` the sum of the exponentials shifted by that
maximum, `ac s v S` the same sum weighted by the values.

A streaming pass keeps these three numbers and, on meeting a block `T` of new keys, multiplies the old sums
by `exp (old maximum - new maximum)` and adds the block's terms: `ls_step` and `ac_step` say that this gives
the three numbers of `S ∪ T`.  `out_eq` says that dividing once at the end equals averaging with the
individually divided weights.

The road: a shifted exponential `exp (x - M)` with `x ≠ ⊤` and `M` real is the real number `wt x M`
(`0` at `x = ⊥`), so every sum is the image of a sum of reals, where `exp (a + b) = exp a * exp b` and
distributivity do the work.  A maximum that is still `⊥` (no key yet, or only masked ones) makes the
factor `exp (⊥ - M') = 0` and all old terms `0` as well.
-/

noncomputable section

namespace Cert.Math

open Idealize.ShloMosaic

variable {J : Type*}

/-- The maximum of the scores over the keys `S` (`⊥` over no key). -/
def mx (s : J → EReal) (S : Finset J) : EReal := S.sup s

/-- The sum over `S` of the exponentials shifted by the maximum over `S`. -/
def ls (s : J → EReal) (S : Finset J) : EReal := ∑ j ∈ S, Ideal.exp (s j - mx s S)

/-- The same sum with each term multiplied by its value. -/
def ac (s v : J → EReal) (S : Finset J) : EReal := ∑ j ∈ S, Ideal.exp (s j - mx s S) * v j

theorem mx_empty (s : J → EReal) : mx s ∅ = ⊥ := Finset.sup_empty

theorem ls_empty (s : J → EReal) : ls s ∅ = 0 := Finset.sum_empty

theorem ac_empty (s v : J → EReal) : ac s v ∅ = 0 := Finset.sum_empty

theorem mx_union [DecidableEq J] (s : J → EReal) (S T : Finset J) :
    max (mx s S) (T.sup s) = mx s (S ∪ T) :=
  (Finset.sup_union).symm

/-! ### Sums of reals inside the extended reals -/

/-- The inclusion of the reals commutes with finite sums. -/
theorem coe_sum (S : Finset J) (f : J → ℝ) :
    ∑ j ∈ S, ((f j : ℝ) : EReal) = ((∑ j ∈ S, f j : ℝ) : EReal) := by
  classical
  refine Finset.induction_on S ?_ ?_
  · rw [Finset.sum_empty, Finset.sum_empty, EReal.coe_zero]
  · intro a S ha ih
    rw [Finset.sum_insert ha, Finset.sum_insert ha, ih, EReal.coe_add]

/-! ### The shifted exponential as a real number -/

/-- `exp (x - M)` as a real: `0` at `x = ⊥`. -/
def wt (x : EReal) (M : ℝ) : ℝ := if x = ⊥ then 0 else Real.exp (x.toReal - M)

theorem wt_nonneg (x : EReal) (M : ℝ) : 0 ≤ wt x M := by
  unfold wt
  split_ifs
  · exact le_rfl
  · exact (Real.exp_pos _).le

theorem wt_pos (x : EReal) (M : ℝ) (h : x ≠ ⊥) : 0 < wt x M := by
  unfold wt
  rw [if_neg h]
  exact Real.exp_pos _

/-- Changing the shift from `M` to `M'` multiplies by `exp (M - M')`. -/
theorem wt_shift (x : EReal) (M M' : ℝ) : wt x M' = Real.exp (M - M') * wt x M := by
  unfold wt
  split_ifs
  · rw [mul_zero]
  · rw [← Real.exp_add]
    congr 1
    ring

theorem exp_sub_coe (x : EReal) (M : ℝ) (h : x ≠ ⊤) :
    Ideal.exp (x - (M : EReal)) = ((wt x M : ℝ) : EReal) := by
  induction x using EReal.rec with
  | bot => rw [EReal.bot_sub, Ideal.exp_bot, wt, if_pos rfl, EReal.coe_zero]
  | coe r => rw [← EReal.coe_sub, Ideal.exp_coe, wt, if_neg (EReal.coe_ne_bot r), EReal.toReal_coe]
  | top => exact absurd rfl h

theorem sum_exp_coe (s : J → EReal) (T : Finset J) (M : ℝ) (hs : ∀ j, s j ≠ ⊤) :
    ∑ j ∈ T, Ideal.exp (s j - (M : EReal)) = ((∑ j ∈ T, wt (s j) M : ℝ) : EReal) := by
  rw [← coe_sum]
  exact Finset.sum_congr rfl (fun j _ => exp_sub_coe (s j) M (hs j))

theorem exp_mul_coe (x y : EReal) (M : ℝ) (hx : x ≠ ⊤) (hy : y ≠ ⊤ ∧ y ≠ ⊥) :
    Ideal.exp (x - (M : EReal)) * y = ((wt x M * y.toReal : ℝ) : EReal) := by
  rw [exp_sub_coe x M hx, EReal.coe_mul, EReal.coe_toReal hy.1 hy.2]

theorem sum_exp_mul_coe (s v : J → EReal) (T : Finset J) (M : ℝ) (hs : ∀ j, s j ≠ ⊤)
    (hv : ∀ j, v j ≠ ⊤ ∧ v j ≠ ⊥) :
    ∑ j ∈ T, Ideal.exp (s j - (M : EReal)) * v j
      = ((∑ j ∈ T, wt (s j) M * (v j).toReal : ℝ) : EReal) := by
  rw [← coe_sum]
  exact Finset.sum_congr rfl (fun j _ => exp_mul_coe (s j) (v j) M (hs j) (hv j))

/-! ### The maximum is a real once one key is not masked -/

theorem mx_ne_top (s : J → EReal) (S : Finset J) (hs : ∀ j, s j ≠ ⊤) : mx s S ≠ ⊤ := by
  have h : mx s S < ⊤ :=
    (Finset.sup_lt_iff (bot_lt_top : (⊥ : EReal) < ⊤)).2 (fun j _ => lt_top_iff_ne_top.2 (hs j))
  exact h.ne

theorem eq_bot_of_mx_eq_bot (s : J → EReal) (S : Finset J) (h : mx s S = ⊥) {j : J} (hj : j ∈ S) :
    s j = ⊥ := by
  have hle : s j ≤ mx s S := Finset.le_sup (f := s) hj
  rwa [h, le_bot_iff] at hle

theorem mx_ne_bot (s : J → EReal) (S : Finset J) (hS : ∃ j ∈ S, s j ≠ ⊥) : mx s S ≠ ⊥ := by
  obtain ⟨j, hj, hne⟩ := hS
  exact fun h => hne (eq_bot_of_mx_eq_bot s S h hj)

theorem mx_real (s : J → EReal) (S : Finset J) (hs : ∀ j, s j ≠ ⊤) (hS : ∃ j ∈ S, s j ≠ ⊥) :
    ∃ M : ℝ, mx s S = (M : EReal) :=
  ⟨(mx s S).toReal, (EReal.coe_toReal (mx_ne_top s S hs) (mx_ne_bot s S hS)).symm⟩

/-! ### Rescaling the old sums to a new real shift -/

theorem rescale_ls (s : J → EReal) (S : Finset J) (M' : ℝ) (hs : ∀ j, s j ≠ ⊤) :
    Ideal.exp (mx s S - (M' : EReal)) * ls s S = ∑ j ∈ S, Ideal.exp (s j - (M' : EReal)) := by
  by_cases hb : mx s S = ⊥
  · rw [hb, EReal.bot_sub, Ideal.exp_bot, zero_mul]
    symm
    refine Finset.sum_eq_zero (fun j hj => ?_)
    rw [eq_bot_of_mx_eq_bot s S hb hj, EReal.bot_sub, Ideal.exp_bot]
  · obtain ⟨M, hM⟩ : ∃ M : ℝ, mx s S = (M : EReal) :=
      ⟨_, (EReal.coe_toReal (mx_ne_top s S hs) hb).symm⟩
    rw [ls, hM, sum_exp_coe s S M hs, sum_exp_coe s S M' hs, ← EReal.coe_sub, Ideal.exp_coe,
      ← EReal.coe_mul, EReal.coe_eq_coe_iff, Finset.mul_sum]
    exact Finset.sum_congr rfl (fun j _ => (wt_shift (s j) M M').symm)

theorem rescale_ac (s v : J → EReal) (S : Finset J) (M' : ℝ) (hs : ∀ j, s j ≠ ⊤)
    (hv : ∀ j, v j ≠ ⊤ ∧ v j ≠ ⊥) :
    Ideal.exp (mx s S - (M' : EReal)) * ac s v S = ∑ j ∈ S, Ideal.exp (s j - (M' : EReal)) * v j := by
  by_cases hb : mx s S = ⊥
  · rw [hb, EReal.bot_sub, Ideal.exp_bot, zero_mul]
    symm
    refine Finset.sum_eq_zero (fun j hj => ?_)
    rw [eq_bot_of_mx_eq_bot s S hb hj, EReal.bot_sub, Ideal.exp_bot, zero_mul]
  · obtain ⟨M, hM⟩ : ∃ M : ℝ, mx s S = (M : EReal) :=
      ⟨_, (EReal.coe_toReal (mx_ne_top s S hs) hb).symm⟩
    rw [ac, hM, sum_exp_mul_coe s v S M hs hv, sum_exp_mul_coe s v S M' hs hv, ← EReal.coe_sub,
      Ideal.exp_coe, ← EReal.coe_mul, EReal.coe_eq_coe_iff, Finset.mul_sum]
    refine Finset.sum_congr rfl (fun j _ => ?_)
    rw [wt_shift (s j) M M', mul_assoc]

/-! ### One step of the stream -/

/-- The step when the maximum over `S ∪ T` is the real `M'`. -/
theorem ls_step_real [DecidableEq J] (s : J → EReal) (S T : Finset J) (M' : ℝ) (hs : ∀ j, s j ≠ ⊤)
    (hST : Disjoint S T) (hM' : mx s (S ∪ T) = (M' : EReal)) :
    Ideal.exp (mx s S - mx s (S ∪ T)) * ls s S + ∑ j ∈ T, Ideal.exp (s j - mx s (S ∪ T))
      = ls s (S ∪ T) := by
  have hR : ls s (S ∪ T)
      = ∑ j ∈ S, Ideal.exp (s j - (M' : EReal)) + ∑ j ∈ T, Ideal.exp (s j - (M' : EReal)) := by
    unfold ls
    rw [hM', Finset.sum_union hST]
  rw [hR, hM', rescale_ls s S M' hs]

theorem ac_step_real [DecidableEq J] (s v : J → EReal) (S T : Finset J) (M' : ℝ) (hs : ∀ j, s j ≠ ⊤)
    (hv : ∀ j, v j ≠ ⊤ ∧ v j ≠ ⊥) (hST : Disjoint S T) (hM' : mx s (S ∪ T) = (M' : EReal)) :
    Ideal.exp (mx s S - mx s (S ∪ T)) * ac s v S + ∑ j ∈ T, Ideal.exp (s j - mx s (S ∪ T)) * v j
      = ac s v (S ∪ T) := by
  have hR : ac s v (S ∪ T)
      = ∑ j ∈ S, Ideal.exp (s j - (M' : EReal)) * v j
        + ∑ j ∈ T, Ideal.exp (s j - (M' : EReal)) * v j := by
    unfold ac
    rw [hM', Finset.sum_union hST]
  rw [hR, hM', rescale_ac s v S M' hs hv]

theorem ls_step [DecidableEq J] (s : J → EReal) (S T : Finset J) (hs : ∀ j, s j ≠ ⊤)
    (hST : Disjoint S T) (hT : ∃ j ∈ T, s j ≠ ⊥) :
    Ideal.exp (mx s S - mx s (S ∪ T)) * ls s S + ∑ j ∈ T, Ideal.exp (s j - mx s (S ∪ T))
      = ls s (S ∪ T) := by
  obtain ⟨M', hM'⟩ := mx_real s (S ∪ T) hs
    (by obtain ⟨j, hj, h⟩ := hT; exact ⟨j, Finset.mem_union_right S hj, h⟩)
  exact ls_step_real s S T M' hs hST hM'

theorem ac_step [DecidableEq J] (s v : J → EReal) (S T : Finset J) (hs : ∀ j, s j ≠ ⊤)
    (hv : ∀ j, v j ≠ ⊤ ∧ v j ≠ ⊥) (hST : Disjoint S T) (hT : ∃ j ∈ T, s j ≠ ⊥) :
    Ideal.exp (mx s S - mx s (S ∪ T)) * ac s v S + ∑ j ∈ T, Ideal.exp (s j - mx s (S ∪ T)) * v j
      = ac s v (S ∪ T) := by
  obtain ⟨M', hM'⟩ := mx_real s (S ∪ T) hs
    (by obtain ⟨j, hj, h⟩ := hT; exact ⟨j, Finset.mem_union_right S hj, h⟩)
  exact ac_step_real s v S T M' hs hv hST hM'

/-- While every key met so far is masked, every shifted exponential is `exp ⊥ = 0`. -/
theorem exp_sub_eq_zero_of_mx_eq_bot (s : J → EReal) (S : Finset J) (h : mx s S = ⊥) (c : EReal)
    {j : J} (hj : j ∈ S) : Ideal.exp (s j - c) = 0 := by
  rw [eq_bot_of_mx_eq_bot s S h hj, EReal.bot_sub, Ideal.exp_bot]

/-- The step with no condition on the block: a block of masked keys only is allowed. -/
theorem ls_step_any [DecidableEq J] (s : J → EReal) (S T : Finset J) (hs : ∀ j, s j ≠ ⊤)
    (hST : Disjoint S T) :
    Ideal.exp (mx s S - mx s (S ∪ T)) * ls s S + ∑ j ∈ T, Ideal.exp (s j - mx s (S ∪ T))
      = ls s (S ∪ T) := by
  by_cases hb : mx s (S ∪ T) = ⊥
  · have hSb : mx s S = ⊥ := by
      have hle : mx s S ≤ mx s (S ∪ T) := Finset.sup_mono Finset.subset_union_left
      rwa [hb, le_bot_iff] at hle
    have h0 : ∀ j ∈ S ∪ T, Ideal.exp (s j - mx s (S ∪ T)) = 0 :=
      fun j hj => exp_sub_eq_zero_of_mx_eq_bot s (S ∪ T) hb _ hj
    have hR : ls s (S ∪ T) = 0 := Finset.sum_eq_zero h0
    rw [hR, hSb, EReal.bot_sub, Ideal.exp_bot, zero_mul, zero_add]
    exact Finset.sum_eq_zero (fun j hj => h0 j (Finset.mem_union_right S hj))
  · obtain ⟨M', hM'⟩ : ∃ M' : ℝ, mx s (S ∪ T) = (M' : EReal) :=
      ⟨_, (EReal.coe_toReal (mx_ne_top s (S ∪ T) hs) hb).symm⟩
    exact ls_step_real s S T M' hs hST hM'

theorem ac_step_any [DecidableEq J] (s v : J → EReal) (S T : Finset J) (hs : ∀ j, s j ≠ ⊤)
    (hv : ∀ j, v j ≠ ⊤ ∧ v j ≠ ⊥) (hST : Disjoint S T) :
    Ideal.exp (mx s S - mx s (S ∪ T)) * ac s v S + ∑ j ∈ T, Ideal.exp (s j - mx s (S ∪ T)) * v j
      = ac s v (S ∪ T) := by
  by_cases hb : mx s (S ∪ T) = ⊥
  · have hSb : mx s S = ⊥ := by
      have hle : mx s S ≤ mx s (S ∪ T) := Finset.sup_mono Finset.subset_union_left
      rwa [hb, le_bot_iff] at hle
    have h0 : ∀ j ∈ S ∪ T, Ideal.exp (s j - mx s (S ∪ T)) * v j = 0 :=
      fun j hj => by rw [exp_sub_eq_zero_of_mx_eq_bot s (S ∪ T) hb _ hj, zero_mul]
    have hR : ac s v (S ∪ T) = 0 := Finset.sum_eq_zero h0
    rw [hR, hSb, EReal.bot_sub, Ideal.exp_bot, zero_mul, zero_add]
    exact Finset.sum_eq_zero (fun j hj => h0 j (Finset.mem_union_right S hj))
  · obtain ⟨M', hM'⟩ : ∃ M' : ℝ, mx s (S ∪ T) = (M' : EReal) :=
      ⟨_, (EReal.coe_toReal (mx_ne_top s (S ∪ T) hs) hb).symm⟩
    exact ac_step_real s v S T M' hs hv hST hM'

/-! ### Dividing once at the end -/

theorem weight_term (x y : EReal) (M L : ℝ) (hx : x ≠ ⊤) (hy : y ≠ ⊤ ∧ y ≠ ⊥) (hL : L ≠ 0) :
    Ideal.div (Ideal.exp (x - (M : EReal))) (L : EReal) * y
      = ((wt x M * (1 / L) * y.toReal : ℝ) : EReal) := by
  rw [Ideal.div_coe hL, exp_sub_coe x M hx, EReal.coe_mul, EReal.coe_mul, EReal.coe_toReal hy.1 hy.2]

theorem out_eq (s v : J → EReal) (S : Finset J) (hs : ∀ j, s j ≠ ⊤) (hv : ∀ j, v j ≠ ⊤ ∧ v j ≠ ⊥)
    (hS : ∃ j ∈ S, s j ≠ ⊥) :
    Ideal.div (ac s v S) (ls s S)
      = ∑ j ∈ S, Ideal.div (Ideal.exp (s j - mx s S)) (ls s S) * v j := by
  obtain ⟨M, hM⟩ := mx_real s S hs hS
  have hl : ls s S = ((∑ j ∈ S, wt (s j) M : ℝ) : EReal) := by
    rw [ls, hM, sum_exp_coe s S M hs]
  have ha : ac s v S = ((∑ j ∈ S, wt (s j) M * (v j).toReal : ℝ) : EReal) := by
    rw [ac, hM, sum_exp_mul_coe s v S M hs hv]
  have hpos : 0 < ∑ j ∈ S, wt (s j) M := by
    obtain ⟨j, hj, hne⟩ := hS
    exact Finset.sum_pos' (fun i _ => wt_nonneg (s i) M) ⟨j, hj, wt_pos (s j) M hne⟩
  have hR : ∀ j ∈ S,
      Ideal.div (Ideal.exp (s j - (M : EReal))) ((∑ i ∈ S, wt (s i) M : ℝ) : EReal) * v j
        = ((wt (s j) M * (1 / ∑ i ∈ S, wt (s i) M) * (v j).toReal : ℝ) : EReal) :=
    fun j _ => weight_term (s j) (v j) M _ (hs j) (hv j) hpos.ne'
  rw [hl, ha, hM, Ideal.div_coe hpos.ne', ← EReal.coe_mul, Finset.sum_congr rfl hR, coe_sum,
    EReal.coe_eq_coe_iff, Finset.sum_mul]
  exact Finset.sum_congr rfl (fun j _ => by ring)

end Cert.Math

end
-- ==== Proof.Math.Masked.lean ====
import proofs.«411364_j13013750907089_3_alg».proof.Proof.Math.OnlineSoftmax

/-!
# Masked keys contribute nothing, and the keys tile by tile

A key whose score is `⊥` has shifted exponential `exp ⊥ = 0`, weight `0 / L = 0` and term `0 * v = 0`.  So
the maximum, the sum of exponentials and the weighted average over all keys equal those over any set
`S` of keys outside which every score is `⊥`: `mx_univ`, `ls_univ`, `out_univ`.

The second part cuts the keys into tiles by a block number `blk j`: the keys of the first `n + 1` tiles
are those of the first `n` together with tile `n`, and these two sets are disjoint.
-/

noncomputable section

namespace Cert.Math

open Idealize.ShloMosaic

variable {J : Type*}

/-! ### Sums over all keys and sums over the unmasked ones -/

theorem mx_univ [Fintype J] (s : J → EReal) (S : Finset J) (hout : ∀ j, j ∉ S → s j = ⊥) :
    Finset.univ.sup s = mx s S := by
  refine le_antisymm (Finset.sup_le (fun j _ => ?_)) (Finset.sup_mono (Finset.subset_univ S))
  by_cases hj : j ∈ S
  · exact Finset.le_sup (f := s) hj
  · rw [hout j hj]
    exact bot_le

theorem ls_univ [Fintype J] (s : J → EReal) (S : Finset J) (hout : ∀ j, j ∉ S → s j = ⊥) :
    ∑ j, Ideal.exp (s j - Finset.univ.sup s) = ls s S := by
  rw [mx_univ s S hout]
  unfold ls
  symm
  refine Finset.sum_subset (Finset.subset_univ S) (fun j _ hj => ?_)
  rw [hout j hj, EReal.bot_sub, Ideal.exp_bot]

/-- With one unmasked key and no score `⊤`, the sum of the shifted exponentials is a positive real. -/
theorem ls_real_pos (s : J → EReal) (S : Finset J) (hs : ∀ j, s j ≠ ⊤) (hS : ∃ j ∈ S, s j ≠ ⊥) :
    ∃ L : ℝ, 0 < L ∧ ls s S = (L : EReal) := by
  obtain ⟨M, hM⟩ := mx_real s S hs hS
  refine ⟨∑ j ∈ S, wt (s j) M, ?_, ?_⟩
  · obtain ⟨j, hj, hne⟩ := hS
    exact Finset.sum_pos' (fun i _ => wt_nonneg (s i) M) ⟨j, hj, wt_pos (s j) M hne⟩
  · rw [ls, hM, sum_exp_coe s S M hs]

theorem out_univ [Fintype J] (s v : J → EReal) (S : Finset J) (hout : ∀ j, j ∉ S → s j = ⊥)
    (hs : ∀ j, s j ≠ ⊤) (hv : ∀ j, v j ≠ ⊤ ∧ v j ≠ ⊥) (hS : ∃ j ∈ S, s j ≠ ⊥) :
    ∑ j, Ideal.div (Ideal.exp (s j - Finset.univ.sup s))
        (∑ j', Ideal.exp (s j' - Finset.univ.sup s)) * v j
      = Ideal.div (ac s v S) (ls s S) := by
  obtain ⟨L, hL, hlL⟩ := ls_real_pos s S hs hS
  rw [ls_univ s S hout, mx_univ s S hout, out_eq s v S hs hv hS]
  symm
  refine Finset.sum_subset (Finset.subset_univ S) (fun j _ hj => ?_)
  rw [hout j hj, EReal.bot_sub, Ideal.exp_bot, hlL, Ideal.div_coe hL.ne', zero_mul, zero_mul]

/-! ### The keys tile by tile -/

/-- The keys of the tiles before tile `n`. -/
def upTo [Fintype J] (blk : J → ℕ) (n : ℕ) : Finset J := Finset.univ.filter (fun j => blk j < n)

/-- The keys of tile `n`. -/
def tile [Fintype J] (blk : J → ℕ) (n : ℕ) : Finset J := Finset.univ.filter (fun j => blk j = n)

theorem mem_upTo [Fintype J] (blk : J → ℕ) (n : ℕ) (j : J) : j ∈ upTo blk n ↔ blk j < n := by
  rw [upTo, Finset.mem_filter]
  exact and_iff_right (Finset.mem_univ j)

theorem mem_tile [Fintype J] (blk : J → ℕ) (n : ℕ) (j : J) : j ∈ tile blk n ↔ blk j = n := by
  rw [tile, Finset.mem_filter]
  exact and_iff_right (Finset.mem_univ j)

theorem upTo_zero [Fintype J] (blk : J → ℕ) : upTo blk 0 = ∅ := by
  ext j
  rw [mem_upTo]
  exact iff_of_false (Nat.not_lt_zero _) (Finset.notMem_empty j)

theorem upTo_succ [Fintype J] [DecidableEq J] (blk : J → ℕ) (n : ℕ) :
    upTo blk (n + 1) = upTo blk n ∪ tile blk n := by
  ext j
  rw [Finset.mem_union, mem_upTo, mem_upTo, mem_tile]
  omega

theorem upTo_disj [Fintype J] (blk : J → ℕ) (n : ℕ) : Disjoint (upTo blk n) (tile blk n) := by
  rw [Finset.disjoint_left]
  intro j h1 h2
  rw [mem_upTo] at h1
  rw [mem_tile] at h2
  omega

/-- Once every key's tile number is below `N`, the first `N` tiles are all the keys. -/
theorem upTo_all [Fintype J] (blk : J → ℕ) (N : ℕ) (hN : ∀ j, blk j < N) : upTo blk N = Finset.univ := by
  ext j
  rw [mem_upTo]
  exact iff_of_true (hN j) (Finset.mem_univ j)

end Cert.Math

end
-- ==== Proof.Math.FlashRow.lean ====
import proofs.«411364_j13013750907089_3_alg».proof.Proof.Math.Masked

/-!
# One row of tiled attention

The keys are cut into tiles by a block number `blk j`.  A pass over the first `n` tiles keeps a running
maximum `Mk`, a running denominator `Lk` and a running numerator `Ak`; it starts from `(⊥, 0, 0)` and at
tile `k` replaces them by

* `Mk (k+1) = max (Mk k) (the maximum over tile k)`,
* `Lk (k+1) = exp (Mk k - Mk (k+1)) * Lk k + ∑ over tile k of exp (s j - Mk (k+1))`,
* `Ak (k+1) = exp (Mk k - Mk (k+1)) * Ak k + ∑ over tile k of exp (s j - Mk (k+1)) * v j`.

`flash_inv`: after `k` tiles the three numbers are the maximum, the sum of shifted exponentials and the
weighted sum over the keys of the first `k` tiles.  `flash_row`: if every key of a later tile is masked and
some visited key is not, the final quotient `Ak n / Lk n` is the softmax-weighted average of `v` over
all keys.
-/

noncomputable section

namespace Cert.Math

open Idealize.ShloMosaic

variable {J : Type*} [Fintype J] [DecidableEq J]

theorem flash_inv (s v : J → EReal) (blk : J → ℕ) (n : ℕ) (Mk Lk Ak : ℕ → EReal)
    (h0 : Mk 0 = ⊥ ∧ Lk 0 = 0 ∧ Ak 0 = 0)
    (hstep : ∀ k, k < n →
      Mk (k + 1) = max (Mk k) ((tile blk k).sup s) ∧
      Lk (k + 1) = Ideal.exp (Mk k - Mk (k + 1)) * Lk k
        + ∑ j ∈ tile blk k, Ideal.exp (s j - Mk (k + 1)) ∧
      Ak (k + 1) = Ideal.exp (Mk k - Mk (k + 1)) * Ak k
        + ∑ j ∈ tile blk k, Ideal.exp (s j - Mk (k + 1)) * v j)
    (hs : ∀ j, s j ≠ ⊤) (hv : ∀ j, v j ≠ ⊤ ∧ v j ≠ ⊥) :
    ∀ k, k ≤ n →
      Mk k = mx s (upTo blk k) ∧ Lk k = ls s (upTo blk k) ∧ Ak k = ac s v (upTo blk k) := by
  intro k
  induction k with
  | zero =>
    intro _
    rw [upTo_zero, mx_empty, ls_empty, ac_empty]
    exact h0
  | succ k ih =>
    intro hk
    obtain ⟨hM, hL, hA⟩ := ih (Nat.le_of_succ_le hk)
    obtain ⟨hM', hL', hA'⟩ := hstep k (Nat.lt_of_succ_le hk)
    have hMk : Mk (k + 1) = mx s (upTo blk (k + 1)) := by
      rw [hM', hM, mx_union, ← upTo_succ]
    refine ⟨hMk, ?_, ?_⟩
    · rw [hL', hMk, hM, hL, upTo_succ]
      exact ls_step_any s (upTo blk k) (tile blk k) hs (upTo_disj blk k)
    · rw [hA', hMk, hM, hA, upTo_succ]
      exact ac_step_any s v (upTo blk k) (tile blk k) hs hv (upTo_disj blk k)

theorem flash_row (s v : J → EReal) (blk : J → ℕ) (n : ℕ) (Mk Lk Ak : ℕ → EReal)
    (h0 : Mk 0 = ⊥ ∧ Lk 0 = 0 ∧ Ak 0 = 0)
    (hstep : ∀ k, k < n →
      Mk (k + 1) = max (Mk k) ((tile blk k).sup s) ∧
      Lk (k + 1) = Ideal.exp (Mk k - Mk (k + 1)) * Lk k
        + ∑ j ∈ tile blk k, Ideal.exp (s j - Mk (k + 1)) ∧
      Ak (k + 1) = Ideal.exp (Mk k - Mk (k + 1)) * Ak k
        + ∑ j ∈ tile blk k, Ideal.exp (s j - Mk (k + 1)) * v j)
    (hmask : ∀ j, n ≤ blk j → s j = ⊥) (hs : ∀ j, s j ≠ ⊤) (hv : ∀ j, v j ≠ ⊤ ∧ v j ≠ ⊥)
    (hne : ∃ j, blk j < n ∧ s j ≠ ⊥) :
    Ideal.div (Ak n) (Lk n)
      = ∑ j, Ideal.div (Ideal.exp (s j - Finset.univ.sup s))
          (∑ j', Ideal.exp (s j' - Finset.univ.sup s)) * v j := by
  obtain ⟨_, hL, hA⟩ := flash_inv s v blk n Mk Lk Ak h0 hstep hs hv n le_rfl
  rw [hL, hA]
  symm
  refine out_univ s v (upTo blk n) (fun j hj => hmask j ?_) hs hv ?_
  · rw [mem_upTo, not_lt] at hj
    exact hj
  · obtain ⟨j, hj, hnb⟩ := hne
    exact ⟨j, (mem_upTo blk n j).2 hj, hnb⟩

end Cert.Math

end
-- ==== Proof.ValAttnArr.lean ====
import proofs.«411364_j13013750907089_3_alg».proof.Proof.KI.Reg1Data
import proofs.«411364_j13013750907089_3_alg».proof.Proof.ValAttn
import proofs.«411364_j13013750907089_3_alg».proof.Proof.ValAttnBlk
import proofs.«411364_j13013750907089_3_alg».proof.Proof.Math.FlashRow

/-! # What the attention call leaves in its output array

Row i of head h of batch element b of the output array ends holding the attention of that row: the softmax, over
the key rows up to i, of the scaled dot products of the row's query entries with the keys' entries, averaging the
value rows. The road: the row lies in one query tile; the points of that tile visit the key tiles 0, 1, …, up to the
query tile itself, each updating the row's running maximum, sum and weighted sum by one step of the tiled pass over
the keys; later key tiles are masked entirely; at the tile's last point the quotient of the weighted sum by the sum is
stored, and no later point touches it. -/

set_option maxRecDepth 16384

noncomputable section

namespace Cert.KernelIdeal.ValAttnArr

open Cert.KernelIdeal Cert.KernelIdeal.Gen Cert.KernelIdeal.Hand Cert.KernelIdeal.ValAttn
open Idealize.ShloMosaic Idealize.ShloMosaic.TcCoe Idealize.ShloMosaic.ValueIdx Idealize.SL.Sem

/-! ## One block of keys, read at one row -/

/-- One update of the running maximum, sum and accumulator, read at row (h, r) and entry dd, in terms of the block's
    masked scores `s c` at that row and the block's value rows. -/
theorem step_row (w1 w3 : BitVec 32) (q k v : Vec Ideal S1x256x1x16x128 .bf16)
    (m l : Vec Ideal S16x256x1 .f32) (a : Vec Ideal S16x256x128 .f32) (h : Fin 16) (r : Fin 256) (dd : Fin 128)
    (s : Fin 256 → EReal) (hs : ∀ c, k1_pay5 (F := Ideal) w1 w3 q k (ix3 h r c) = s c) :
    stepM (F := Ideal) w1 w3 q k m (ix3 h r 0) = max (m (ix3 h r 0)) (Finset.univ.sup s)
    ∧ stepL (F := Ideal) w1 w3 q k m l (ix3 h r 0)
        = Ideal.exp (m (ix3 h r 0) - max (m (ix3 h r 0)) (Finset.univ.sup s)) * l (ix3 h r 0)
          + ∑ c : Fin 256, Ideal.exp (s c - max (m (ix3 h r 0)) (Finset.univ.sup s))
    ∧ stepA (F := Ideal) w1 w3 q k v m a (ix3 h r dd)
        = Ideal.exp (m (ix3 h r 0) - max (m (ix3 h r 0)) (Finset.univ.sup s)) * a (ix3 h r dd)
          + ∑ c : Fin 256, Ideal.exp (s c - max (m (ix3 h r 0)) (Finset.univ.sup s)) * v (ix5 0 c 0 h dd) := by
  have h6 : k1_pay6 (F := Ideal) (k1_pay5 (F := Ideal) w1 w3 q k) m (ix3 h r 0)
      = max (m (ix3 h r 0)) (Finset.univ.sup s) :=
    (pay6_apply _ m h r).trans (congrArg (max (m (ix3 h r 0))) (congrArg Finset.univ.sup (funext hs)))
  have h7 : k1_pay7 (F := Ideal) (k1_pay5 (F := Ideal) w1 w3 q k) m m (ix3 h r 0)
      = Ideal.exp (m (ix3 h r 0) - max (m (ix3 h r 0)) (Finset.univ.sup s)) := by
    rw [pay7_apply, h6]
  have h8 : ∀ c, k1_pay8 (F := Ideal) (k1_pay5 (F := Ideal) w1 w3 q k) m (ix3 h r c)
      = Ideal.exp (s c - max (m (ix3 h r 0)) (Finset.univ.sup s)) := fun c => by
    rw [pay8_apply, hs c, h6]
  refine ⟨?_, ?_, ?_⟩
  · unfold stepM
    rw [pay11_apply]
    exact h6
  · unfold stepL
    rw [pay9_apply, h7]
    exact congrArg (_ + ·) (Finset.sum_congr rfl fun c _ => h8 c)
  · unfold stepA
    rw [pay10_apply, h7]
    exact congrArg (_ + ·) (Finset.sum_congr rfl fun c _ => by rw [h8 c, pay4_apply])

/-! ## The key rows tile by tile -/

/-- The tile of a key row. -/
abbrev blk (j : Fin 2048) : ℕ := j.val / 256

/-- Key row c of tile k. -/
def keyOf (k : ℕ) (hk : k < 8) (c : Fin 256) : Fin 2048 := ⟨256 * k + c.val, by have := c.isLt; omega⟩

theorem keyOf_val (k : ℕ) (hk : k < 8) (c : Fin 256) : (keyOf k hk c).val = 256 * k + c.val := rfl

/-- As an embedding of the tile's rows into the key rows. -/
def keyEmb (k : ℕ) (hk : k < 8) : Fin 256 ↪ Fin 2048 :=
  ⟨keyOf k hk, fun x y hxy => Fin.ext (by
    have := congrArg Fin.val hxy
    rw [keyOf_val, keyOf_val] at this
    omega)⟩

/-- Tile k is the image of its 256 rows. -/
theorem tile_eq (k : ℕ) (hk : k < 8) : Cert.Math.tile blk k = Finset.univ.map (keyEmb k hk) := by
  ext j
  rw [Cert.Math.mem_tile, Finset.mem_map]
  constructor
  · intro hj
    have hj' : j.val / 256 = k := hj
    exact ⟨⟨j.val % 256, Nat.mod_lt _ (by norm_num)⟩, Finset.mem_univ _, Fin.ext (by
      show 256 * k + j.val % 256 = j.val
      omega)⟩
  · rintro ⟨c, _, rfl⟩
    show (256 * k + c.val) / 256 = k
    have := c.isLt
    omega

/-- A sum over tile k is the sum over its 256 rows, -/
theorem sum_tile (k : ℕ) (hk : k < 8) (f : Fin 2048 → EReal) :
    ∑ j ∈ Cert.Math.tile blk k, f j = ∑ c : Fin 256, f (keyOf k hk c) := by
  rw [tile_eq k hk, Finset.sum_map]
  rfl

/-- and a supremum likewise. -/
theorem sup_tile (k : ℕ) (hk : k < 8) (f : Fin 2048 → EReal) :
    (Cert.Math.tile blk k).sup f = Finset.univ.sup fun c : Fin 256 => f (keyOf k hk c) := by
  rw [tile_eq k hk, Finset.sup_map]
  rfl

/-! ## Scores are never the top element -/

/-- A scaled dot product of finite entries is a real number. -/
theorem dot_real (x y : Fin 128 → EReal) (hx : ∀ e, x e ≠ ⊤ ∧ x e ≠ ⊥) (hy : ∀ e, y e ≠ ⊤ ∧ y e ≠ ⊥) :
    ∃ z : ℝ, (∑ e, x e * y e) * Cert.Spec.invD = (z : EReal) := by
  refine ⟨(∑ e, (x e).toReal * (y e).toReal) * (1048576 / 11863283 : ℝ), ?_⟩
  have e1 : ∀ e, x e * y e = (((x e).toReal * (y e).toReal : ℝ) : EReal) := fun e => by
    rw [EReal.coe_mul, EReal.coe_toReal (hx e).1 (hx e).2, EReal.coe_toReal (hy e).1 (hy e).2]
  rw [Finset.sum_congr rfl fun e _ => e1 e, Cert.Math.coe_sum, EReal.coe_mul]
  rfl

/-! ## The specification of one output entry -/

/-- Row i of head h of batch element b attends to the key rows up to its own: the softmax of the scaled, causally masked
    dot products of the query third's row against the key third's rows averages the value third's rows. -/
def attn5 (a : S2x2048x3x16x128.Idx → EReal) (b : Fin 2) (h : Fin 16) (i : Fin 2048) (dd : Fin 128) : EReal :=
  let sc : Fin 2048 → EReal := fun j =>
    if j.val ≤ i.val then (∑ e : Fin 128, a (ix5 b i 0 h e) * a (ix5 b j 1 h e)) * Cert.Spec.invD else ⊥
  ∑ j, Ideal.div (Ideal.exp (sc j - Finset.univ.sup sc)) (∑ j', Ideal.exp (sc j' - Finset.univ.sup sc)) * a (ix5 b j 2 h dd)

/-- The masked scaled score of query row i against key row j. -/
def sc (a : S2x2048x3x16x128.Idx → EReal) (b : Fin 2) (h : Fin 16) (i j : Fin 2048) : EReal :=
  if j.val ≤ i.val then (∑ e : Fin 128, a (ix5 b i 0 h e) * a (ix5 b j 1 h e)) * Cert.Spec.invD else ⊥

theorem attn5_eq (a : S2x2048x3x16x128.Idx → EReal) (b : Fin 2) (h : Fin 16) (i : Fin 2048) (dd : Fin 128) :
    attn5 a b h i dd = ∑ j, Ideal.div (Ideal.exp (sc a b h i j - Finset.univ.sup (sc a b h i)))
      (∑ j', Ideal.exp (sc a b h i j' - Finset.univ.sup (sc a b h i))) * a (ix5 b j 2 h dd) := rfl

/-- Query row r of tile qi. -/
def rowOf (qi : ℕ) (hq : qi < 8) (r : Fin 256) : Fin 2048 := ⟨256 * qi + r.val, by have := r.isLt; omega⟩

theorem sc_ne_top (a : S2x2048x3x16x128.Idx → EReal) (ha : ∀ x, a x ≠ ⊤ ∧ a x ≠ ⊥) (b : Fin 2) (h : Fin 16) (i j : Fin 2048) :
    sc a b h i j ≠ ⊤ := by
  unfold sc
  split
  · obtain ⟨z, hz⟩ := dot_real (fun e => a (ix5 b i 0 h e)) (fun e => a (ix5 b j 1 h e)) (fun e => ha _) (fun e => ha _)
    rw [hz]
    exact EReal.coe_ne_top z
  · exact bot_ne_top

theorem sc_first_ne_bot (a : S2x2048x3x16x128.Idx → EReal) (ha : ∀ x, a x ≠ ⊤ ∧ a x ≠ ⊥) (b : Fin 2) (h : Fin 16) (i : Fin 2048) :
    sc a b h i ⟨0, by norm_num⟩ ≠ ⊥ := by
  unfold sc
  rw [if_pos (Nat.zero_le _)]
  obtain ⟨z, hz⟩ := dot_real (fun e => a (ix5 b i 0 h e)) (fun e => a (ix5 b ⟨0, by norm_num⟩ 1 h e)) (fun e => ha _) (fun e => ha _)
  rw [hz]
  exact EReal.coe_ne_bot z

/-! ## One point of the grid, read at one row -/

variable (V : (c : Dev nD) → (b : Ref sig .tc) → Buf (Elt Ideal) ((c : Thread nD τ).loc b))

/-- A word is the word of its natural. -/
theorem word_eq (w : BitVec 32) : w = BitVec.ofNat 32 w.toNat :=
  BitVec.eq_of_toNat_eq (by rw [BitVec.toNat_ofNat, Nat.mod_eq_of_lt w.isLt])

/-- At a point whose words are (qi, k) and whose batch element is b, the body's update read at row (h, r): the step of
    the tiled pass over key tile k, for the scores of query row 256 qi + r and the value rows of the projection array. -/
theorem point_step (c : Dev nD) (t : Fin cfgA.N) (b : Fin 2) (qi k : ℕ) (hq : qi < 8) (hk : k < 8)
    (hw : qiN t = qi ∧ kiN t = k ∧ bOf t = b)
    (m l : Vec Ideal S16x256x1 .f32) (a : Vec Ideal S16x256x128 .f32) (h : Fin 16) (r : Fin 256) (dd : Fin 128) :
    stepM (F := Ideal) (qiW t) (kiW t) (qBlk V c t) (kBlk V c t) m (ix3 h r 0)
        = max (m (ix3 h r 0)) ((Cert.Math.tile blk k).sup (sc (arr5 V c) b h (rowOf qi hq r)))
    ∧ stepL (F := Ideal) (qiW t) (kiW t) (qBlk V c t) (kBlk V c t) m l (ix3 h r 0)
        = Ideal.exp (m (ix3 h r 0) - max (m (ix3 h r 0)) ((Cert.Math.tile blk k).sup (sc (arr5 V c) b h (rowOf qi hq r)))) * l (ix3 h r 0)
          + ∑ j ∈ Cert.Math.tile blk k, Ideal.exp (sc (arr5 V c) b h (rowOf qi hq r) j
              - max (m (ix3 h r 0)) ((Cert.Math.tile blk k).sup (sc (arr5 V c) b h (rowOf qi hq r))))
    ∧ stepA (F := Ideal) (qiW t) (kiW t) (qBlk V c t) (kBlk V c t) (vBlk V c t) m a (ix3 h r dd)
        = Ideal.exp (m (ix3 h r 0) - max (m (ix3 h r 0)) ((Cert.Math.tile blk k).sup (sc (arr5 V c) b h (rowOf qi hq r)))) * a (ix3 h r dd)
          + ∑ j ∈ Cert.Math.tile blk k, Ideal.exp (sc (arr5 V c) b h (rowOf qi hq r) j
              - max (m (ix3 h r 0)) ((Cert.Math.tile blk k).sup (sc (arr5 V c) b h (rowOf qi hq r)))) * arr5 V c (ix5 b j 2 h dd) := by
  obtain ⟨rfl, rfl, rfl⟩ := hw
  have hs : ∀ cc : Fin 256, k1_pay5 (F := Ideal) (qiW t) (kiW t) (qBlk V c t) (kBlk V c t) (ix3 h r cc)
      = sc (arr5 V c) (bOf t) h (rowOf (qiN t) hq r) (keyOf (kiN t) hk cc) := fun cc => by
    have e := pay5_apply (qiN t) (kiN t) hq hk (qBlk V c t) (kBlk V c t) h r cc
    have hqw : BitVec.ofNat 32 (qiN t) = qiW t := (word_eq (qiW t)).symm
    have hkw : BitVec.ofNat 32 (kiN t) = kiW t := (word_eq (kiW t)).symm
    rw [hqw, hkw] at e
    refine e.trans ?_
    unfold sc
    refine if_congr Iff.rfl ?_ rfl
    refine congrArg (· * Cert.Spec.invD) (Finset.sum_congr rfl fun e _ => ?_)
    rw [qBlk_at, kBlk_at]
    rfl
  obtain ⟨e1, e2, e3⟩ := step_row (qiW t) (kiW t) (qBlk V c t) (kBlk V c t) (vBlk V c t) m l a h r dd _ hs
  rw [sup_tile (kiN t) hk, sum_tile (kiN t) hk, sum_tile (kiN t) hk]
  refine ⟨e1, e2, e3.trans ?_⟩
  refine congrArg (_ + ·) (Finset.sum_congr rfl fun cc _ => ?_)
  rw [vBlk_at]
  rfl

/-! ## The points of one query tile -/

/-- Going back d points from the last point of query tile qi of batch element b (d ≤ qi): the same query tile and
    batch element, key tile qi - d. -/
theorem back_words (b : Fin 2) (qi : Fin 8) : ∀ d : ℕ, d ≤ qi.val →
    ∀ hlt : (lastPt b qi).val - d < cfgA.N,
      qiN ⟨(lastPt b qi).val - d, hlt⟩ = qi.val ∧ kiN ⟨(lastPt b qi).val - d, hlt⟩ = qi.val - d
        ∧ bOf ⟨(lastPt b qi).val - d, hlt⟩ = b ∧ d ≤ (lastPt b qi).val := by
  intro d
  induction d with
  | zero =>
    intro _ hlt
    obtain ⟨h1, h2, h3⟩ := lastPt_words b qi
    exact ⟨h1, h2, h3, Nat.zero_le _⟩
  | succ d ih =>
    intro hd hlt
    have hlt' : (lastPt b qi).val - d < cfgA.N := Nat.lt_of_le_of_lt (Nat.sub_le _ _) (lastPt b qi).isLt
    obtain ⟨h1, h2, h3, h4⟩ := ih (Nat.le_of_succ_le hd) hlt'
    obtain ⟨t, ht⟩ : ∃ t : Fin cfgA.N, t = ⟨(lastPt b qi).val - d, hlt'⟩ := ⟨_, rfl⟩
    rw [← ht] at h1 h2 h3
    have htv : t.val = (lastPt b qi).val - d := congrArg Fin.val ht
    have h2' : (kiW t).toNat = qi.val - d := h2
    have hnz : ¬ cond1_0 (kiW t) := fun hc => by
      have : (kiW t).toNat = 0 := (words_range t).2.2.1.mp hc
      omega
    obtain ⟨hpos, hq, hk, hb, _⟩ := cont_prev t hnz
    have hp : prev t = ⟨(lastPt b qi).val - (d + 1), hlt⟩ := Fin.ext (by
      show t.val - 1 = (lastPt b qi).val - (d + 1)
      omega)
    rw [← hp]
    refine ⟨?_, ?_, ?_, ?_⟩
    · show (qiW (prev t)).toNat = qi.val
      rw [hq]
      exact h1
    · show (kiW (prev t)).toNat = qi.val - (d + 1)
      omega
    · rw [← h3]
      exact Fin.ext hb
    · omega

/-- The point of query tile qi of batch element b that visits key tile k. -/
def ptOf (b : Fin 2) (qi : Fin 8) (k : ℕ) : Fin cfgA.N :=
  ⟨(lastPt b qi).val - (qi.val - k), Nat.lt_of_le_of_lt (Nat.sub_le _ _) (lastPt b qi).isLt⟩

theorem ptOf_words (b : Fin 2) (qi : Fin 8) (k : ℕ) (hk : k ≤ qi.val) :
    qiN (ptOf b qi k) = qi.val ∧ kiN (ptOf b qi k) = k ∧ bOf (ptOf b qi k) = b ∧ qi.val - k ≤ (lastPt b qi).val := by
  obtain ⟨h1, h2, h3, h4⟩ := back_words b qi (qi.val - k) (Nat.sub_le _ _) (ptOf b qi k).isLt
  refine ⟨h1, h2.trans ?_, h3, h4⟩
  omega

theorem ptOf_last (b : Fin 2) (qi : Fin 8) : ptOf b qi qi.val = lastPt b qi :=
  Fin.ext (by
    show (lastPt b qi).val - (qi.val - qi.val) = (lastPt b qi).val
    omega)

theorem ptOf_prev (b : Fin 2) (qi : Fin 8) (k : ℕ) (hk : k + 1 ≤ qi.val) : prev (ptOf b qi (k + 1)) = ptOf b qi k := by
  have h4 := (ptOf_words b qi k (Nat.le_of_succ_le hk)).2.2.2
  exact Fin.ext (by
    show (lastPt b qi).val - (qi.val - (k + 1)) - 1 = (lastPt b qi).val - (qi.val - k)
    omega)

/-! ## The running statistics of one row along its query tile -/

/-- What the scratch holds after the point that visits key tile k. -/
def stAt (c : Dev nD) (b : Fin 2) (qi : Fin 8) (k : ℕ) :
    Vec Ideal S16x256x1 .f32 × Vec Ideal S16x256x1 .f32 × Vec Ideal S16x256x128 .f32 :=
  scAt V c (ptOf b qi k).val (ptOf b qi k).isLt

/-- The scratch after a point depends on the point only. -/
theorem scAt_congr (c : Dev nD) (t t' : Fin cfgA.N) (e : t = t') :
    scAt V c t.val t.isLt = scAt V c t'.val t'.isLt := by
  subst e
  rfl

/-- The row's running maximum before key tile k, -/
def seqM (c : Dev nD) (b : Fin 2) (qi : Fin 8) (h : Fin 16) (r : Fin 256) : ℕ → EReal
  | 0 => ⊥
  | k + 1 => (stAt V c b qi k).1 (ix3 h r 0)
/-- its running sum, -/
def seqL (c : Dev nD) (b : Fin 2) (qi : Fin 8) (h : Fin 16) (r : Fin 256) : ℕ → EReal
  | 0 => 0
  | k + 1 => (stAt V c b qi k).2.1 (ix3 h r 0)
/-- and its running weighted sum at entry dd. -/
def seqA (c : Dev nD) (b : Fin 2) (qi : Fin 8) (h : Fin 16) (r : Fin 256) (dd : Fin 128) : ℕ → EReal
  | 0 => 0
  | k + 1 => (stAt V c b qi k).2.2 (ix3 h r dd)

/-- One point's update of a scratch triple, read at the row, from the values the triple had there before. -/
theorem step_of (c : Dev nD) (t : Fin cfgA.N) (b : Fin 2) (qi k : ℕ) (hq : qi < 8) (hk : k < 8)
    (hw : qiN t = qi ∧ kiN t = k ∧ bOf t = b)
    (m l : Vec Ideal S16x256x1 .f32) (a : Vec Ideal S16x256x128 .f32) (h : Fin 16) (r : Fin 256) (dd : Fin 128)
    (M0 L0 A0 : EReal) (hm : m (ix3 h r 0) = M0) (hl : l (ix3 h r 0) = L0) (ha : a (ix3 h r dd) = A0)
    (st : Vec Ideal S16x256x1 .f32 × Vec Ideal S16x256x1 .f32 × Vec Ideal S16x256x128 .f32)
    (hst : st = (stepM (F := Ideal) (qiW t) (kiW t) (qBlk V c t) (kBlk V c t) m,
      stepL (F := Ideal) (qiW t) (kiW t) (qBlk V c t) (kBlk V c t) m l,
      stepA (F := Ideal) (qiW t) (kiW t) (qBlk V c t) (kBlk V c t) (vBlk V c t) m a)) :
    st.1 (ix3 h r 0) = max M0 ((Cert.Math.tile blk k).sup (sc (arr5 V c) b h (rowOf qi hq r)))
    ∧ st.2.1 (ix3 h r 0) = Ideal.exp (M0 - st.1 (ix3 h r 0)) * L0
        + ∑ j ∈ Cert.Math.tile blk k, Ideal.exp (sc (arr5 V c) b h (rowOf qi hq r) j - st.1 (ix3 h r 0))
    ∧ st.2.2 (ix3 h r dd) = Ideal.exp (M0 - st.1 (ix3 h r 0)) * A0
        + ∑ j ∈ Cert.Math.tile blk k, Ideal.exp (sc (arr5 V c) b h (rowOf qi hq r) j - st.1 (ix3 h r 0))
            * arr5 V c (ix5 b j 2 h dd) := by
  obtain ⟨e1, e2, e3⟩ := point_step V c t b qi k hq hk hw m l a h r dd
  subst hst hm hl ha
  dsimp only
  refine ⟨e1, ?_, ?_⟩
  · rw [e1]
    exact e2
  · rw [e1]
    exact e3

/-- The tiled pass's step at key tile k ≤ qi. -/
theorem seq_step (c : Dev nD) (b : Fin 2) (qi : Fin 8) (h : Fin 16) (r : Fin 256) (dd : Fin 128) (k : ℕ)
    (hk : k < qi.val + 1) :
    seqM V c b qi h r (k + 1)
        = max (seqM V c b qi h r k) ((Cert.Math.tile blk k).sup (sc (arr5 V c) b h (rowOf qi.val qi.isLt r)))
    ∧ seqL V c b qi h r (k + 1)
        = Ideal.exp (seqM V c b qi h r k - seqM V c b qi h r (k + 1)) * seqL V c b qi h r k
          + ∑ j ∈ Cert.Math.tile blk k, Ideal.exp (sc (arr5 V c) b h (rowOf qi.val qi.isLt r) j - seqM V c b qi h r (k + 1))
    ∧ seqA V c b qi h r dd (k + 1)
        = Ideal.exp (seqM V c b qi h r k - seqM V c b qi h r (k + 1)) * seqA V c b qi h r dd k
          + ∑ j ∈ Cert.Math.tile blk k, Ideal.exp (sc (arr5 V c) b h (rowOf qi.val qi.isLt r) j - seqM V c b qi h r (k + 1))
              * arr5 V c (ix5 b j 2 h dd) := by
  have hk' : k ≤ qi.val := Nat.le_of_lt_succ hk
  have hk8 : k < 8 := Nat.lt_of_le_of_lt hk' qi.isLt
  obtain ⟨h1, h2, h3, _⟩ := ptOf_words b qi k hk'
  have h2' : (kiW (ptOf b qi k)).toNat = k := h2
  cases k with
  | zero =>
    have hc : cond1_0 (kiW (ptOf b qi 0)) := (words_range _).2.2.1.mpr h2'
    exact step_of V c (ptOf b qi 0) b qi.val 0 qi.isLt hk8 ⟨h1, h2, h3⟩
      (k1_pay1 (F := Ideal)) (k1_pay2 (F := Ideal)) (k1_pay3 (F := Ideal)) h r dd ⊥ 0 0
      (pay1_apply _) (pay2_apply _) (pay3_apply _) (stAt V c b qi 0) (scAt_first V c (ptOf b qi 0) hc)
  | succ k =>
    have hnz : ¬ cond1_0 (kiW (ptOf b qi (k + 1))) := fun hc => by
      have : (kiW (ptOf b qi (k + 1))).toNat = 0 := (words_range _).2.2.1.mp hc
      omega
    have e := scAt_cont V c (ptOf b qi (k + 1)) hnz
    rw [ptOf_prev b qi k hk'] at e
    exact step_of V c (ptOf b qi (k + 1)) b qi.val (k + 1) qi.isLt hk8 ⟨h1, h2, h3⟩
      (stAt V c b qi k).1 (stAt V c b qi k).2.1 (stAt V c b qi k).2.2 h r dd _ _ _ rfl rfl rfl
      (stAt V c b qi (k + 1)) e

/-! ## One output entry -/

/-- At the last point of a query tile the quotient of the row's weighted sum by its sum is the attention of the row. -/
theorem row_out (c : Dev nD) (hfin : ∀ x, arr5 V c x ≠ ⊤ ∧ arr5 V c x ≠ ⊥) (b : Fin 2) (qi : Fin 8)
    (h : Fin 16) (r : Fin 256) (dd : Fin 128) :
    Ideal.div ((scAt V c (lastPt b qi).val (lastPt b qi).isLt).2.2 (ix3 h r dd))
        ((scAt V c (lastPt b qi).val (lastPt b qi).isLt).2.1 (ix3 h r 0))
      = attn5 (arr5 V c) b h (rowOf qi.val qi.isLt r) dd := by
  have key := Cert.Math.flash_row (sc (arr5 V c) b h (rowOf qi.val qi.isLt r)) (fun j => arr5 V c (ix5 b j 2 h dd)) blk
    (qi.val + 1) (seqM V c b qi h r) (seqL V c b qi h r) (seqA V c b qi h r dd) ⟨rfl, rfl, rfl⟩
    (fun k hk => seq_step V c b qi h r dd k hk)
    (fun j hj => by
      unfold sc
      refine if_neg ?_
      have hj' : qi.val + 1 ≤ j.val / 256 := hj
      have := r.isLt
      show ¬ j.val ≤ 256 * qi.val + r.val
      omega)
    (fun j => sc_ne_top (arr5 V c) hfin b h _ j)
    (fun j => hfin _)
    ⟨⟨0, by norm_num⟩, by show 0 / 256 < qi.val + 1; omega, sc_first_ne_bot (arr5 V c) hfin b h _⟩
  rw [attn5_eq, ← key]
  have hst : stAt V c b qi qi.val = scAt V c (lastPt b qi).val (lastPt b qi).isLt :=
    scAt_congr V c _ _ (ptOf_last b qi)
  show _ = Ideal.div ((stAt V c b qi qi.val).2.2 (ix3 h r dd)) ((stAt V c b qi qi.val).2.1 (ix3 h r 0))
  rw [hst]

theorem attn_out (c : Dev nD) (hfin : ∀ x, arr5 V c x ≠ ⊤ ∧ arr5 V c x ≠ ⊥) (b : Fin 2) (i : Fin 2048)
    (h : Fin 16) (dd : Fin 128) :
    (dat1 V c).arrAt 3 cfgA.N (ix4 b i h dd) = attn5 (arr5 V c) b h i dd := by
  rw [out_arr V c b i h dd, after1_3]
  unfold outO
  refine (pay12_apply _ _ _ h dd).trans ?_
  have hq : i.val / 256 < 8 := by have := i.isLt; omega
  have hi : rowOf (i.val / 256) hq ⟨i.val % 256, Nat.mod_lt _ (by norm_num)⟩ = i :=
    Fin.ext (by
      show 256 * (i.val / 256) + i.val % 256 = i.val
      omega)
  exact (row_out V c hfin b ⟨i.val / 256, hq⟩ h ⟨i.val % 256, Nat.mod_lt _ (by norm_num)⟩ dd).trans
    (congrArg (fun x => attn5 (arr5 V c) b h x dd) hi)

end Cert.KernelIdeal.ValAttnArr

end
-- ==== Proof.Bridge.lean ====
/-
  The kernel program's result is the specification: through the three calls and the reshapes between them, the
  array the program ends with holds, entry by entry, the causal multi-head attention of its three arguments.
-/
import proofs.«411364_j13013750907089_3_alg».proof.Proof.KI.RunData
import proofs.«411364_j13013750907089_3_alg».proof.Proof.KI.HostVals
import proofs.«411364_j13013750907089_3_alg».proof.Proof.ValLin
import proofs.«411364_j13013750907089_3_alg».proof.Proof.ValAttnBlk
import proofs.«411364_j13013750907089_3_alg».proof.Proof.ValAttnArr
import proofs.«411364_j13013750907089_3_alg».proof.Proof.SpecArr
import proofs.«411364_j13013750907089_3_alg».proof.Proof.Math.OnlineSoftmax
import Idealize.ShloMosaic.Lib.ValueIdx

set_option maxRecDepth 16384

noncomputable section

namespace Cert.KernelIdeal.Bridge

open Cert.KernelIdeal Cert.KernelIdeal.Gen Cert.KernelIdeal.Hand Cert.KernelIdeal.HostVals
open Cert.KernelIdeal.ValLin Cert.KernelIdeal.ValAttnArr
open Idealize.ShloMosaic Idealize.ShloMosaic.TcCoe Idealize.SL.Sem Idealize.ShloMosaic.ValueIdx
open Cert.Spec

/-! ## Finite sums of products of reals -/

/-- A finite sum of products of reals is a real. -/
theorem sum_mul_finite {ι : Type*} [Fintype ι] (f g : ι → EReal) (hf : ∀ k, f k ≠ ⊤ ∧ f k ≠ ⊥)
    (hg : ∀ k, g k ≠ ⊤ ∧ g k ≠ ⊥) : (∑ k, f k * g k) ≠ ⊤ ∧ (∑ k, f k * g k) ≠ ⊥ := by
  have e : ∑ k, f k * g k = ((∑ k, (f k).toReal * (g k).toReal : ℝ) : EReal) := by
    rw [← Cert.Math.coe_sum]
    refine Finset.sum_congr rfl fun k _ => ?_
    rw [EReal.coe_mul, EReal.coe_toReal (hf k).1 (hf k).2, EReal.coe_toReal (hg k).1 (hg k).2]
  rw [e]
  exact ⟨EReal.coe_ne_top _, EReal.coe_ne_bot _⟩

/-! ## The softmax average, as the attention call's result and as the specification's head output -/

/-- The softmax of the scores s averaging the values v. -/
def softAvg (s v : Fin 2048 → EReal) : EReal :=
  ∑ j, Ideal.div (Ideal.exp (s j - Finset.univ.sup s)) (∑ j', Ideal.exp (s j' - Finset.univ.sup s)) * v j

theorem attn5_softAvg (a : S2x2048x3x16x128.Idx → EReal) (b : Fin 2) (h : Fin 16) (i : Fin 2048) (dd : Fin 128) :
    attn5 a b h i dd
      = softAvg (fun j => if j.val ≤ i.val then (∑ e : Fin 128, a (ix5 b i 0 h e) * a (ix5 b j 1 h e)) * invD else ⊥)
          (fun j => a (ix5 b j 2 h dd)) := rfl

theorem headOut_softAvg (x : Fin 2 → Fin 2048 → Fin 2048 → EReal) (wq : Fin 6144 → Fin 2048 → EReal)
    (b : Fin 2) (h : Fin 16) (i : Fin 2048) (dd : Fin 128) :
    headOut x wq b h i dd = softAvg (score x wq b h i) (fun j => qkv x wq b j (colV h dd)) := rfl

/-- On an array whose three parts hold the query, key and value columns of the projection, the attention of a row is
    the specification's head output. -/
theorem attn5_eq_headOut (x : Fin 2 → Fin 2048 → Fin 2048 → EReal) (wq : Fin 6144 → Fin 2048 → EReal)
    (a : S2x2048x3x16x128.Idx → EReal)
    (hq : ∀ (b : Fin 2) (t : Fin 2048) (h : Fin 16) (dd : Fin 128), a (ix5 b t 0 h dd) = qkv x wq b t (colQ h dd))
    (hk : ∀ (b : Fin 2) (t : Fin 2048) (h : Fin 16) (dd : Fin 128), a (ix5 b t 1 h dd) = qkv x wq b t (colK h dd))
    (hv : ∀ (b : Fin 2) (t : Fin 2048) (h : Fin 16) (dd : Fin 128), a (ix5 b t 2 h dd) = qkv x wq b t (colV h dd))
    (b : Fin 2) (h : Fin 16) (i : Fin 2048) (dd : Fin 128) : attn5 a b h i dd = headOut x wq b h i dd := by
  rw [attn5_softAvg, headOut_softAvg]
  have hs : (fun j : Fin 2048 => if j.val ≤ i.val then (∑ e : Fin 128, a (ix5 b i 0 h e) * a (ix5 b j 1 h e)) * invD else ⊥)
      = score x wq b h i := by
    funext j
    show (if j.val ≤ i.val then (∑ e : Fin 128, a (ix5 b i 0 h e) * a (ix5 b j 1 h e)) * invD else ⊥)
      = if j.val ≤ i.val then (∑ e : Fin 128, qkv x wq b i (colQ h e) * qkv x wq b j (colK h e)) * invD else ⊥
    refine if_congr Iff.rfl (congrArg (· * invD) (Finset.sum_congr rfl fun e _ => ?_)) rfl
    rw [hq, hk]
  have hvv : (fun j : Fin 2048 => a (ix5 b j 2 h dd)) = fun j => qkv x wq b j (colV h dd) := funext fun j => hv b j h dd
  rw [hs, hvv]

/-! ## The arrays between the calls -/

variable (m : (ℓ : Loc nD τ sig) → Buf (Elt Ideal) ℓ) (c : Dev nD)

/-- The three argument arrays at launch. -/
abbrev a0 : S2x2048x2048.Idx → EReal := m ((c : Thread nD τ).loc main_arg0)
abbrev a1 : S6144x2048.Idx → EReal := m ((c : Thread nD τ).loc main_arg1)
abbrev a2 : S2048x2048.Idx → EReal := m ((c : Thread nD τ).loc main_arg2)

/-- Row 2048·b + t of the flattened x is row t of batch element b. -/
theorem row_split (b : Fin 2) (t k : Fin 2048) (h1 : (2048 * b.val + t.val) / 2048 < 2) (h2 : (2048 * b.val + t.val) % 2048 < 2048) :
    (ix3 (⟨(2048 * b.val + t.val) / 2048, h1⟩ : Fin 2) (⟨(2048 * b.val + t.val) % 2048, h2⟩ : Fin 2048) k : S2x2048x2048.Idx)
      = ix3 b t k := by
  have hb := b.isLt; have ht := t.isLt
  funext a
  match a with
  | ⟨0, _⟩ => exact Fin.ext (by show (2048 * b.val + t.val) / 2048 = b.val; omega)
  | ⟨1, _⟩ => exact Fin.ext (by show (2048 * b.val + t.val) % 2048 = t.val; omega)
  | ⟨2, _⟩ => rfl

/-- The same for the rows of the attention's result. -/
theorem row_split4 (b : Fin 2) (t : Fin 2048) (h : Fin 16) (dd : Fin 128) (h1 : (2048 * b.val + t.val) / 2048 < 2) (h2 : (2048 * b.val + t.val) % 2048 < 2048) :
    (ix4 (⟨(2048 * b.val + t.val) / 2048, h1⟩ : Fin 2) (⟨(2048 * b.val + t.val) % 2048, h2⟩ : Fin 2048) h dd : S2x2048x16x128.Idx)
      = ix4 b t h dd := by
  have hb := b.isLt; have ht := t.isLt
  funext a
  match a with
  | ⟨0, _⟩ => exact Fin.ext (by show (2048 * b.val + t.val) / 2048 = b.val; omega)
  | ⟨1, _⟩ => exact Fin.ext (by show (2048 * b.val + t.val) % 2048 = t.val; omega)
  | ⟨2, _⟩ => rfl
  | ⟨3, _⟩ => rfl

/-- The three calls' results, as arrays of extended reals. -/
abbrev r4 : S4096x6144.Idx → EReal := o4 m c
abbrev r6 : S2x2048x16x128.Idx → EReal := o6 m c
abbrev r8 : S4096x2048.Idx → EReal := o8 m c

/-- The first call's result: entry (r, s) is row r of the flattened x against row s of W_qkv. -/
theorem o4_at (r : Fin 4096) (s : Fin 6144) :
    r4 m c (ix2 r s)
      = (∑ k : Fin 2048, a0 m c (ix3 (⟨r.val / 2048, by have := r.isLt; omega⟩ : Fin 2) (⟨r.val % 2048, Nat.mod_lt _ (by norm_num)⟩ : Fin 2048) k)
          * a1 m c (ix2 s k) : EReal) := by
  have e : r4 m c = prod0 (E0 m c main_v3) (E0 m c main_v1) := final0 (E0 m) c
  rw [e, prod0_apply]
  exact Finset.sum_congr rfl fun k _ => congrArg₂ (· * ·) (v3_at m c r k) (congrFun (v1_eq m c) (ix2 s k))

/-- The column of third s, head h, entry dd. -/
theorem col_lt (s : Fin 3) (h : Fin 16) (dd : Fin 128) : 2048 * s.val + 128 * h.val + dd.val < 6144 := by
  have := s.isLt; have := h.isLt; have := dd.isLt; omega

/-- The array the attention call is entered with holds the projection: third s, head h, entry dd of row t of batch
    element b is column 2048·s + 128·h + dd of the specification's projection. -/
theorem v5_qkv (b : Fin 2) (t : Fin 2048) (s : Fin 3) (h : Fin 16) (dd : Fin 128) :
    arr5 (E1 m) c (ix5 b t s h dd)
      = qkv (xOf (a0 m c)) (wqOf (a1 m c)) b t ⟨2048 * s.val + 128 * h.val + dd.val, col_lt s h dd⟩ := by
  have e := v5_at m (outs m) c b t s h dd
  rw [V3_eq, outs_v4] at e
  refine e.trans ((o4_at m c _ _).trans ?_)
  show _ = ∑ k : Fin 2048, a0 m c (ix3 b t k) * a1 m c (ix2 ⟨2048 * s.val + 128 * h.val + dd.val, col_lt s h dd⟩ k)
  exact Finset.sum_congr rfl fun k _ => congrArg₂ (· * ·) (congrArg (a0 m c) (row_split b t k _ _)) rfl

/-- Its three parts hold the query, key and value columns. -/
theorem v5_q (b : Fin 2) (t : Fin 2048) (h : Fin 16) (dd : Fin 128) :
    arr5 (E1 m) c (ix5 b t 0 h dd) = qkv (xOf (a0 m c)) (wqOf (a1 m c)) b t (colQ h dd) :=
  (v5_qkv m c b t 0 h dd).trans (congrArg (qkv (xOf (a0 m c)) (wqOf (a1 m c)) b t) (Fin.ext (by
    show 2048 * 0 + 128 * h.val + dd.val = 128 * h.val + dd.val; omega)))
theorem v5_k (b : Fin 2) (t : Fin 2048) (h : Fin 16) (dd : Fin 128) :
    arr5 (E1 m) c (ix5 b t 1 h dd) = qkv (xOf (a0 m c)) (wqOf (a1 m c)) b t (colK h dd) :=
  (v5_qkv m c b t 1 h dd).trans (congrArg (qkv (xOf (a0 m c)) (wqOf (a1 m c)) b t) (Fin.ext (by
    show 2048 * 1 + 128 * h.val + dd.val = 2048 + (128 * h.val + dd.val); omega)))
theorem v5_v (b : Fin 2) (t : Fin 2048) (h : Fin 16) (dd : Fin 128) :
    arr5 (E1 m) c (ix5 b t 2 h dd) = qkv (xOf (a0 m c)) (wqOf (a1 m c)) b t (colV h dd) :=
  (v5_qkv m c b t 2 h dd).trans (congrArg (qkv (xOf (a0 m c)) (wqOf (a1 m c)) b t) (Fin.ext (by
    show 2048 * 2 + 128 * h.val + dd.val = 4096 + (128 * h.val + dd.val); omega)))

/-- Every entry of that array is a real when the entries of x and W_qkv are. -/
theorem arr5_finite (h0 : ∀ i, a0 m c i ≠ ⊤ ∧ a0 m c i ≠ ⊥) (h1 : ∀ i, a1 m c i ≠ ⊤ ∧ a1 m c i ≠ ⊥)
    (x : S2x2048x3x16x128.Idx) : arr5 (E1 m) c x ≠ ⊤ ∧ arr5 (E1 m) c x ≠ ⊥ := by
  obtain ⟨b, t, s, h, dd, rfl⟩ : ∃ (b : Fin 2) (t : Fin 2048) (s : Fin 3) (h : Fin 16) (dd : Fin 128), x = ix5 b t s h dd :=
    ⟨x 0, x 1, x 2, x 3, x 4, eq_ix5 x⟩
  rw [v5_qkv]
  exact sum_mul_finite _ _ (fun k => h0 _) (fun k => h1 _)

/-- The attention call's result: row t of batch element b, head h, entry dd is the specification's head output. -/
theorem o6_at (h0 : ∀ i, a0 m c i ≠ ⊤ ∧ a0 m c i ≠ ⊥) (h1 : ∀ i, a1 m c i ≠ ⊤ ∧ a1 m c i ≠ ⊥)
    (b : Fin 2) (t : Fin 2048) (h : Fin 16) (dd : Fin 128) :
    r6 m c (ix4 b t h dd) = headOut (xOf (a0 m c)) (wqOf (a1 m c)) b h t dd := by
  show (dat1 (E1 m) c).arrAt 3 cfgA.N (ix4 b t h dd) = _
  rw [attn_out (E1 m) c (arr5_finite m c h0 h1) b t h dd]
  exact attn5_eq_headOut _ _ _ (v5_q m c) (v5_k m c) (v5_v m c) b h t dd

/-- The array the last call is entered with holds the heads side by side. -/
theorem v7_merged (h0 : ∀ i, a0 m c i ≠ ⊤ ∧ a0 m c i ≠ ⊥) (h1 : ∀ i, a1 m c i ≠ ⊤ ∧ a1 m c i ≠ ⊥)
    (b : Fin 2) (t d : Fin 2048) (hr : 2048 * b.val + t.val < 4096) :
    (E2 m c main_v7 : S4096x2048.Idx → EReal) (ix2 (⟨2048 * b.val + t.val, hr⟩ : Fin 4096) d)
      = merged (xOf (a0 m c)) (wqOf (a1 m c)) b t d := by
  have e := v7_at m (outs m) c ⟨2048 * b.val + t.val, hr⟩ d
  rw [V5_eq, outs_v6] at e
  refine e.trans ?_
  refine (congrArg (r6 m c) (row_split4 b t _ _ _ _)).trans ?_
  exact o6_at m c h0 h1 b t _ _

/-- and W_out unchanged. -/
theorem v2_arg : (E2 m c main_v2 : S2048x2048.Idx → EReal) = a2 m c := by
  have e := v2_at5 m (outs m) c
  rw [V5_eq] at e
  exact e

/-! ## The result -/

/-- The kernel program ends with the specification's array. -/
theorem kernel_is_G (m : (ℓ : Loc nD τ sig) → Buf (Elt Ideal) ℓ) (c : Dev nD)
    (h0 : ∀ i, a0 m c i ≠ ⊤ ∧ a0 m c i ≠ ⊥) (h1 : ∀ i, a1 m c i ≠ ⊤ ∧ a1 m c i ≠ ⊥) :
    (W7 m c main_v9 : S2x2048x2048.Idx → EReal) = Cert.Spec.G (a0 m c) (a1 m c) (a2 m c) := by
  funext i
  obtain ⟨b, t, e, rfl⟩ : ∃ (b : Fin 2) (t e : Fin 2048), i = ix3 b t e := ⟨i 0, i 1, i 2, eq_ix3 i⟩
  rw [G_ix3]
  have hr : 2048 * b.val + t.val < 4096 := by have := b.isLt; have := t.isLt; omega
  have e9 := v9_at m (outs m) c b t e
  rw [V7_eq, outs_v8] at e9
  refine e9.trans ?_
  unfold o8
  rw [final2 (E2 m) c, prod2_apply]
  show _ = ∑ d : Fin 2048, merged (xOf (a0 m c)) (wqOf (a1 m c)) b t d * a2 m c (ix2 e d)
  exact Finset.sum_congr rfl fun d _ =>
    congrArg₂ (· * ·) (v7_merged m c h0 h1 b t d hr) (congrFun (v2_arg m c) (ix2 e d))

end Cert.KernelIdeal.Bridge

end
-- ==== Proof.PreFin.lean ====
import proofs.«411364_j13013750907089_3_alg».proof.Defs
import proofs.«411364_j13013750907089_3_alg».proof.Proof.Gen.Pre_finite_inputs
import Idealize.ShloMosaic.Lib.ReduceAll
import Idealize.ShloMosaic.Lib.ValueIdx
import Mathlib.Data.EReal.Operations

namespace Cert.PreFin

open Idealize.ShloMosaic Idealize.SL.Sem

/-- The three argument arrays on device `c`, at their literal types over the extended reals. -/
abbrev arr0 (m : (ℓ : Loc Cert.KernelIdeal.nD Cert.KernelIdeal.τ Cert.KernelIdeal.sig) → Buf (Elt Ideal) ℓ) (c : Dev Cert.KernelIdeal.nD) :
    Cert.KernelIdeal.S2x2048x2048.Idx → EReal :=
  m ((c.tc : Thread Cert.KernelIdeal.nD Cert.KernelIdeal.τ).loc Cert.KernelIdeal.main_arg0)
abbrev arr1 (m : (ℓ : Loc Cert.KernelIdeal.nD Cert.KernelIdeal.τ Cert.KernelIdeal.sig) → Buf (Elt Ideal) ℓ) (c : Dev Cert.KernelIdeal.nD) :
    Cert.KernelIdeal.S6144x2048.Idx → EReal :=
  m ((c.tc : Thread Cert.KernelIdeal.nD Cert.KernelIdeal.τ).loc Cert.KernelIdeal.main_arg1)
abbrev arr2 (m : (ℓ : Loc Cert.KernelIdeal.nD Cert.KernelIdeal.τ Cert.KernelIdeal.sig) → Buf (Elt Ideal) ℓ) (c : Dev Cert.KernelIdeal.nD) :
    Cert.KernelIdeal.S2048x2048.Idx → EReal :=
  m ((c.tc : Thread Cert.KernelIdeal.nD Cert.KernelIdeal.τ).loc Cert.KernelIdeal.main_arg2)

/-- The pattern of positive infinity denotes the top element. -/
theorem inf_eq_top : Ideal.ofBits .f32 0x7F800000#32 = (⊤ : EReal) := by
  simp [Ideal.ofBits, Ideal.ieee]

/-- An extended real whose absolute value compares below positive infinity is neither infinity. -/
theorem real_of_abs_lt (x : EReal)
    (e : FloatOps.cmpf (F := Ideal) (φ := .f32) .olt (FloatOps.hostAbsf (F := Ideal) (φ := .f32) x) (Ideal.ofBits .f32 0x7F800000#32) = 1#1) :
    x ≠ ⊤ ∧ x ≠ ⊥ := by
  rw [inf_eq_top] at e
  have hlt : max x (-x) < (⊤ : EReal) := by
    by_contra hn
    have e0 : FloatOps.cmpf (F := Ideal) (φ := .f32) .olt (FloatOps.hostAbsf (F := Ideal) (φ := .f32) x) (⊤ : EReal) = 0#1 := by
      show BitVec.ofBool (decide (max x (-x) < (⊤ : EReal))) = 0#1
      rw [decide_eq_false hn]; rfl
    rw [e0] at e; exact absurd e (by decide)
  constructor
  · rintro rfl; exact absurd hlt (by simp)
  · rintro rfl; exact absurd hlt (by simp)

/-- Under the precondition every entry of the three argument arrays is a real number. -/
theorem fin_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, arr0 m c i ≠ ⊤ ∧ arr0 m c i ≠ ⊥) ∧ (∀ i, arr1 m c i ≠ ⊤ ∧ arr1 m c i ≠ ⊥) ∧ (∀ i, arr2 m c i ≠ ⊤ ∧ arr2 m c i ≠ ⊥) := by
  haveI : Subsingleton Cert.Pre_finite_inputs.S_.Idx := ⟨fun a b => funext fun d => d.elim0⟩
  have h0 := congrFun (h c) ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)

end Cert.PreFin
-- ==== Proof.lean ====
/-
  Causal multi-head self-attention, three Pallas calls against the plain jnp reference, over the extended reals.

  The kernel program projects `x` onto queries, keys and values with one tiled matmul (call 0), runs attention tile by
  tile with a running row maximum, row sum and unnormalised output kept in scratch across the key tiles of a query
  tile (call 1, its visiting order read from two prefetched tables listing the lower triangle of tile pairs), and
  multiplies by `W_outᵀ` with a second tiled matmul (call 2). The reference computes the same projection, masks the
  scaled scores below the diagonal to `-∞`, takes a full softmax per row and the weighted average of the values.

  On the extended reals the two agree entry by entry (`algebraic`): a tiled matmul into a zero accumulator is the plain
  sum; the streaming update `m' = max m (max of the tile)`, `l' = e^{m - m'} l + Σ e^{s - m'}`,
  `a' = e^{m - m'} a + Σ e^{s - m'} v` keeps `l = Σ_{seen} e^{s - m}`, `a = Σ_{seen} e^{s - m} v` (because
  `e^{x} e^{y} = e^{x + y}` on the reals and `e^{-∞} = 0`), masked keys contribute `e^{-∞} = 0`, and `a / l` is the
  weighted average because every term is a real and `l > 0` — this is where the inputs' finiteness is used. The
  kernel's scale is its constant named `inv_scale`, the reciprocal of the reference's divisor, and its mask fill is
  the constant named `neg_big`, `-∞` (`preserves`).

  Each program runs to the end, faults nowhere and leaves its arguments unchanged (the three frames): the kernel
  programs' by one segment record per call over the conditional frame, the reference's by its run.
-/
import proofs.«411364_j13013750907089_3_alg».proof.Defs
import proofs.«411364_j13013750907089_3_alg».proof.Proof.Gen.Kernel
import proofs.«411364_j13013750907089_3_alg».proof.Proof.Gen.KernelIdeal
import proofs.«411364_j13013750907089_3_alg».proof.Proof.Gen.ReferenceIdeal
import proofs.«411364_j13013750907089_3_alg».proof.Proof.Gen.Pre_finite_inputs
import proofs.«411364_j13013750907089_3_alg».proof.Proof.K.Run
import proofs.«411364_j13013750907089_3_alg».proof.Proof.KI.Run
import proofs.«411364_j13013750907089_3_alg».proof.Proof.RefG
import proofs.«411364_j13013750907089_3_alg».proof.Proof.Bridge
import proofs.«411364_j13013750907089_3_alg».proof.Proof.PreFin
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame_run m ρ

/-- So does the idealized kernel program. -/
theorem frame_ki : Cert.frame_KernelIdeal := fun m ρ _ => Cert.KernelIdeal.Hand.frame_run m ρ

/-- The reference runs and keeps its arguments: its run, the result dropped. -/
theorem frame_ri : Cert.frame_ReferenceIdeal := fun m ρ _ =>
  (θ_run Cert.ReferenceIdeal.defs _ _).mono (fun _ h c => (h c).2) (Cert.RefG.run_G m ρ)

/-- The two named constants denote what the table gives them: the reciprocal of the reference's divisor, and `-∞`. -/
theorem preserves : Cert.preserves_Kernel_KernelIdeal :=
  ⟨IdealRules.named_const.statement Cert.KernelIdeal.κ "inv_scale" .f32 0x3DB504F3#32 ((1048576 / 11863283 : ℝ) : EReal) rfl,
   IdealRules.named_const.statement Cert.KernelIdeal.κ "neg_big" .f32 0xF149F2CA#32 ⊥ rfl⟩

/-- Both programs end with the result array `Cert.Spec.G` of the arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Hand.value_run m ρ)
    obtain ⟨h0, h1, _⟩ := Cert.PreFin.fin_of_pre m hpre c
    exact Cert.KernelIdeal.Bridge.kernel_is_G m c h0 h1
  · refine (θ_run Cert.ReferenceIdeal.defs _ _).mono (fun r h c => ⟨?_, (h c).2⟩) (Cert.RefG.run_G m' ρ')
    rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
